-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x1024 .f32) (main_arg1 : IVec S4096 32) (main_arg2 : FVec F S4096x8192 .f32) (main_arg3 : FVec F S4096x8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8192 .f32 := Host.absf main_arg2
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S1024x4096 : Shape := ⟨2, ![1024, 4096]⟩
abbrev S1x4096 : Shape := ⟨2, ![1, 4096]⟩
abbrev S512x1024 : Shape := ⟨2, ![512, 1024]⟩
abbrev S1024x512 : Shape := ⟨2, ![1024, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 46
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S1024x4096, .bf16⟩
  | .hbm, ⟨16, _⟩ => ⟨S4096x1, .i32⟩
  | .hbm, ⟨17, _⟩ => ⟨S1x4096, .i32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  transposes_S4096x1024_S1024x4096_1_0 : S4096x1024.Transposes [1, 0] S1024x4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  reduces_S512x1024_S512 : S512x1024.Reduces [1] S512
  shapeCasts_S4096x1_S4096 : S4096x1.ShapeCasts S4096
  reducesTo_S4096_S_d0 : S4096.ReducesTo [0] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x8192.size a
  hwx1_0 : ∀ i : grid1.Coords, EltTy.bits .f32 = 32 ∨ (Rect.block (s := S4096x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x8192.size a
  hwx1_1 : ∀ i : grid1.Coords, EltTy.bits .f32 = 32 ∨ (Rect.block (s := S4096x8192) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_3) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S512x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S512x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_2) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x8192 : Shape := ⟨2, ![4096, 8192]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩
abbrev S4096x12288 : Shape := ⟨2, ![4096, 12288]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x8192, .f32⟩
  | .hbm, ⟨3, _⟩ => ⟨S4096x8192, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S1024x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4096x4096, .f32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x12288, .f32⟩
  | .hbm, ⟨42, _⟩ => ⟨S4096x4096, .f32⟩
  | .hbm, ⟨43, _⟩ => ⟨S4096x4096, .f32⟩
  | .hbm, ⟨44, _⟩ => ⟨S4096x12288, .f32⟩
  | .hbm, ⟨45, _⟩ => ⟨S_, .f32⟩
  | .hbm, ⟨46, _⟩ => ⟨S4096, .f32⟩
  | .hbm, ⟨47, _⟩ => ⟨S4096x8192, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096x1, .f32⟩
  | .hbm, ⟨53, _⟩ => ⟨S4096x12288, .f32⟩
  | .hbm, ⟨54, _⟩ => ⟨S4096x12288, .f32⟩
  | .hbm, ⟨55, _⟩ => ⟨S4096x12288, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  concatenates_S4096x4096_S4096x8192_S4096x12288_d1 : Shape.Concatenates [S4096x4096, S4096x8192] S4096x12288 1
  reducesTo_S4096x8192_S4096_d1 : S4096x8192.ReducesTo [1] S4096
  bcast_S4096x1_S4096x12288_0_1 : S4096x1.BroadcastsInDim S4096x12288 (![0, 1] : Fin 2 → Fin S4096x12288.rank)
  reducesTo_S4096x12288_S4096_d1 : S4096x12288.ReducesTo [1] S4096
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The reference's mathematics, level by level, over plain functions of coordinates: a supervised-contrastive loss of
  4096 rows against themselves and against a memory bank of 8192 columns, read over the extended reals (every
  operation exact: a quotient is `Ideal.div`, a root `Ideal.sqrt`, an exponential `Ideal.exp`, a logarithm
  `Ideal.log`).

  Sums are plain finite sums over the coordinate (the reductions start from the zero word, and `0 + s = s`); the row
  maximum is the fold of `max` from `⊥` over the 4096 columns (the reduction starts from the word of `-∞`, which is
  `⊥`), which is also `Finset.univ.sup` (`mx_eq_sup`). The two sums over the joined axis of 12288 columns — the 4096
  similarity columns first, then the 8192 memory columns — are stated over `Fin 12288` (`num`, `cnt`) and split
  into the two pieces' sums (`num_split`, `cnt_split`).
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic

/-- The norm's floor, the word of 1e-8. -/
def eps : EReal := Ideal.ofBits .f32 0x322BCC77#32
/-- The temperature, the word of 0.07. -/
def temp : EReal := Ideal.ofBits .f32 0x3D8F5C29#32

section
variable (q : Fin 4096 → Fin 1024 → EReal) (lab : Fin 4096 → BitVec 32) (ml mt : Fin 4096 → Fin 8192 → EReal)

/-- Row `i`'s sum of squares. -/
def ssq (i : Fin 4096) : EReal := ∑ d : Fin 1024, q i d * q i d
/-- Row `i`'s norm, floored at `eps`. -/
def den (i : Fin 4096) : EReal := max (Ideal.sqrt (ssq q i)) eps
/-- The normalized row. -/
def qn (i : Fin 4096) (d : Fin 1024) : EReal := Ideal.div (q i d) (den q i)
/-- The similarity of rows `i` and `j`: the product of the normalized array with its transpose. -/
def sims (i j : Fin 4096) : EReal := ∑ d : Fin 1024, qn q i d * qn q j d
/-- The similarity over the temperature. -/
def sc (i j : Fin 4096) : EReal := Ideal.div (sims q i j) temp
/-- Row `i`'s maximum of `sc`, the fold of `max` from `⊥` over the columns. -/
def mx (i : Fin 4096) : EReal := (Finset.univ : Finset (Fin 4096)).fold max ⊥ fun j => sc q i j
/-- The shifted logit. -/
def sl (i j : Fin 4096) : EReal := sc q i j - mx q i
/-- The label mask: one where the labels agree. -/
def lm (i j : Fin 4096) : EReal := if lab i = lab j then 1 else 0
/-- The self mask: zero on the diagonal, one off it. -/
def sm (i j : Fin 4096) : EReal := 1 - (if i = j then 1 else 0)
/-- The similarity columns' targets. -/
def st (i j : Fin 4096) : EReal := lm lab i j * sm i j
/-- The masked exponential of the shifted logit. -/
def ex (i j : Fin 4096) : EReal := Ideal.exp (sl q i j) * sm i j
/-- Row `i`'s denominator: the similarity columns' masked exponentials plus the memory columns' exponentials. -/
def dn (i : Fin 4096) : EReal := (∑ j : Fin 4096, ex q i j) + ∑ k : Fin 8192, Ideal.exp (ml i k)
/-- Its logarithm. -/
def lg (i : Fin 4096) : EReal := Ideal.log (dn q ml i)

/-- The targets over the joined axis: 4096 similarity columns, then 8192 memory columns. -/
def tg (i : Fin 4096) (c : Fin 12288) : EReal :=
  if h : c.val < 4096 then st lab i ⟨c.val, h⟩ else mt i ⟨c.val - 4096, by have := c.isLt; omega⟩
/-- The logits over the joined axis. -/
def lgt (i : Fin 4096) (c : Fin 12288) : EReal :=
  if h : c.val < 4096 then sl q i ⟨c.val, h⟩ else ml i ⟨c.val - 4096, by have := c.isLt; omega⟩

/-- Row `i`'s sum over the joined axis of target times log-probability. -/
def num (i : Fin 4096) : EReal := ∑ c : Fin 12288, tg lab mt i c * (lgt q ml i c - lg q ml i)
/-- Row `i`'s sum of targets over the joined axis. -/
def cnt (i : Fin 4096) : EReal := ∑ c : Fin 12288, tg lab mt i c

/-- The loss: minus the mean over the rows of `num / cnt` (the divisor the word of 4096). -/
def out : EReal :=
  -(Ideal.div (∑ i : Fin 4096, Ideal.div (num q lab ml mt i) (cnt lab mt i)) (Ideal.ofBits .f32 0x45800000#32))

/-- The row maximum as a supremum. -/
theorem mx_eq_sup (i : Fin 4096) : mx q i = (Finset.univ : Finset (Fin 4096)).sup fun j => sc q i j := rfl

/-- A sum over the joined axis is the sum over the similarity columns plus the sum over the memory columns. -/
theorem sum_joined (f : Fin 12288 → EReal) :
    ∑ c : Fin 12288, f c = (∑ j : Fin 4096, f ⟨j.val, by have := j.isLt; omega⟩) + ∑ k : Fin 8192, f ⟨4096 + k.val, by have := k.isLt; omega⟩ :=
  Fin.sum_univ_add (M := EReal) (a := 4096) (b := 8192) f

theorem tg_left (i j : Fin 4096) : tg lab mt i ⟨j.val, by have := j.isLt; omega⟩ = st lab i j := by
  unfold tg; rw [dif_pos j.isLt]
theorem tg_right (i : Fin 4096) (k : Fin 8192) : tg lab mt i ⟨4096 + k.val, by have := k.isLt; omega⟩ = mt i k := by
  unfold tg; rw [dif_neg (show ¬(4096 + k.val < 4096) by omega)]
  exact congrArg (mt i) (Fin.ext (show 4096 + k.val - 4096 = k.val by omega))
theorem lgt_left (i j : Fin 4096) : lgt q ml i ⟨j.val, by have := j.isLt; omega⟩ = sl q i j := by
  unfold lgt; rw [dif_pos j.isLt]
theorem lgt_right (i : Fin 4096) (k : Fin 8192) : lgt q ml i ⟨4096 + k.val, by have := k.isLt; omega⟩ = ml i k := by
  unfold lgt; rw [dif_neg (show ¬(4096 + k.val < 4096) by omega)]
  exact congrArg (ml i) (Fin.ext (show 4096 + k.val - 4096 = k.val by omega))

/-- `num` by pieces. -/
theorem num_split (i : Fin 4096) :
    num q lab ml mt i = (∑ j : Fin 4096, st lab i j * (sl q i j - lg q ml i)) + ∑ k : Fin 8192, mt i k * (ml i k - lg q ml i) := by
  unfold num
  rw [sum_joined]
  simp only [tg_left, tg_right, lgt_left, lgt_right]

/-- `cnt` by pieces. -/
theorem cnt_split (i : Fin 4096) : cnt lab mt i = (∑ j : Fin 4096, st lab i j) + ∑ k : Fin 8192, mt i k := by
  unfold cnt
  rw [sum_joined]
  simp only [tg_left, tg_right]

end

end Cert.Spec

end
-- ==== Proof.RefRun.lean ====
/-
  The reference program's run. @main is a straight line of 62 host operations; every weakly fair execution of it
  terminates with the result buffer at the operations' composed value of the four arguments and the arguments unchanged.

  The line is cut in three stretches, a cut in front of each of the two concatenations, so that a concatenation's
  operands are buffers already held when its stretch begins: stretch one (37 operations) normalizes the rows, multiplies
  the normalized array by its transpose, divides by the temperature, subtracts the row maximum (`r_v12`) and builds the
  self mask (`r_v26`) and the masked label-agreement targets (`r_v27`); stretch two joins the targets with the memory
  targets and takes the masked exponentials; stretch three joins the logits with the memory logits, takes the logarithm
  of the row denominators (`r_v36`), the log-probabilities (`r_v39`) and the final mean (`r_v46`). Each stretch's buffers
  are read off its own fold; the folds compose by `StableHlo.after_append`.
-/
import proofs.«174317_j67869073212268_1_alg».proof.Proof.Gen.ReferenceIdeal
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 62 operations, in order (a called function's operations stand in its call's place, spelt `TRef.…`). -/
abbrev ops : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v3 main_v4 (Host.divf : (⟨S4096x1024, .f32⟩ : BufTy).Contents (Elt F) → (⟨S4096x1024, .f32⟩ : BufTy).Contents (Elt F) → (⟨S4096x1024, .f32⟩ : BufTy).Contents (Elt F)),
    unary main_v4 main_v5 ((transpose S1024x4096 [1, 0] · transposes_S4096x1024_S1024x4096_1_0) : (⟨S4096x1024, .f32⟩ : BufTy).Contents (Elt F) → (⟨S1024x4096, .f32⟩ : BufTy).Contents (Elt F)),
    binary main_v4 main_v5 main_v6 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_0 (constant S_ .f32 0x3D8F5C29#32),
    unary main_cst_0 main_v7 (broadcastInDim S4096x4096 ![] bcast_S_S4096x4096 : (⟨S_, .f32⟩ : BufTy).Contents (Elt F) → (⟨S4096x4096, .f32⟩ : BufTy).Contents (Elt F)),
    binary main_v6 main_v7 main_v8 (Host.divf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0xFF800000#32),
    binary main_v8 main_cst_1 main_v9 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (broadcastInDim S4096x4096 ![0, 1] bcast_S4096x1_S4096x4096_0_1 : (⟨S4096x1, .f32⟩ : BufTy).Contents (Elt F) → (⟨S4096x4096, .f32⟩ : BufTy).Contents (Elt F)),
    binary main_v8 main_v11 main_v12 (subf : (⟨S4096x4096, .f32⟩ : BufTy).Contents (Elt F) → (⟨S4096x4096, .f32⟩ : BufTy).Contents (Elt F) → (⟨S4096x4096, .f32⟩ : BufTy).Contents (Elt F)),
    unary main_arg1 main_v13 (broadcastInDim S4096x1 ![0] bcast_S4096_S4096x1_0 : (⟨S4096, .i32⟩ : BufTy).Contents (Elt F) → (⟨S4096x1, .i32⟩ : BufTy).Contents (Elt F)),
    unary main_arg1 main_v14 (broadcastInDim S1x4096 ![1] bcast_S4096_S1x4096_1 : (⟨S4096, .i32⟩ : BufTy).Contents (Elt F) → (⟨S1x4096, .i32⟩ : BufTy).Contents (Elt F)),
    unary main_v13 main_v15 (broadcastInDim S4096x4096 ![0, 1] bcast_S4096x1_S4096x4096_0_1 : (⟨S4096x1, .i32⟩ : BufTy).Contents (Elt F) → (⟨S4096x4096, .i32⟩ : BufTy).Contents (Elt F)),
    unary main_v14 main_v16 (broadcastInDim S4096x4096 ![0, 1] bcast_S1x4096_S4096x4096_0_1 : (⟨S1x4096, .i32⟩ : BufTy).Contents (Elt F) → (⟨S4096x4096, .i32⟩ : BufTy).Contents (Elt F)),
    binary main_v15 main_v16 main_v17 (cmpi .eq : (⟨S4096x4096, .i32⟩ : BufTy).Contents (Elt F) → (⟨S4096x4096, .i32⟩ : BufTy).Contents (Elt F) → (⟨S4096x4096, .i1⟩ : BufTy).Contents (Elt F)),
    unary main_v17 main_v18 (uitofp .f32 : (⟨S4096x4096, .i1⟩ : BufTy).Contents (Elt F) → (⟨S4096x4096, .f32⟩ : BufTy).Contents (Elt F)),
    nullary main_v19 (iotaInDim S4096x4096 32 0),
    nullary main_v20 (iotaInDim S4096x4096 32 1),
    nullary main_c (constantI S_ 32 0#32),
    unary main_c main_v21 (broadcastInDim S4096x4096 ![] bcast_S_S4096x4096 : (⟨S_, .i32⟩ : BufTy).Contents (Elt F) → (⟨S4096x4096, .i32⟩ : BufTy).Contents (Elt F)),
    binary main_v19 main_v21 main_v22 (addi : (⟨S4096x4096, .i32⟩ : BufTy).Contents (Elt F) → (⟨S4096x4096, .i32⟩ : BufTy).Contents (Elt F) → (⟨S4096x4096, .i32⟩ : BufTy).Contents (Elt F)),
    binary main_v22 main_v20 main_v23 (cmpi .eq : (⟨S4096x4096, .i32⟩ : BufTy).Contents (Elt F) → (⟨S4096x4096, .i32⟩ : BufTy).Contents (Elt F) → (⟨S4096x4096, .i1⟩ : BufTy).Contents (Elt F)),
    unary main_v23 main_v24 (uitofp .f32 : (⟨S4096x4096, .i1⟩ : BufTy).Contents (Elt F) → (⟨S4096x4096, .f32⟩ : BufTy).Contents (Elt F)),
    nullary main_cst_2 (constant S_ .f32 0x3F800000#32),
    unary main_cst_2 main_v25 (broadcastInDim S4096x4096 ![] bcast_S_S4096x4096 : (⟨S_, .f32⟩ : BufTy).Contents (Elt F) → (⟨S4096x4096, .f32⟩ : BufTy).Contents (Elt F)),
    binary main_v25 main_v24 main_v26 (subf : (⟨S4096x4096, .f32⟩ : BufTy).Contents (Elt F) → (⟨S4096x4096, .f32⟩ : BufTy).Contents (Elt F) → (⟨S4096x4096, .f32⟩ : BufTy).Contents (Elt F)),
    binary main_v18 main_v26 main_v27 (mulf : (⟨S4096x4096, .f32⟩ : BufTy).Contents (Elt F) → (⟨S4096x4096, .f32⟩ : BufTy).Contents (Elt F) → (⟨S4096x4096, .f32⟩ : BufTy).Contents (Elt F)),
    binary main_v27 main_arg3 main_v28 ((fun a b => concatenate S4096x12288 1 [⟨S4096x4096, a⟩, ⟨S4096x8192, b⟩] concatenates_S4096x4096_S4096x8192_S4096x12288_d1) : (⟨S4096x4096, .f32⟩ : BufTy).Contents (Elt F) → (⟨S4096x8192, .f32⟩ : BufTy).Contents (Elt F) → (⟨S4096x12288, .f32⟩ : BufTy).Contents (Elt F)),
    unary main_v12 main_v29 (Host.exp : (⟨S4096x4096, .f32⟩ : BufTy).Contents (Elt F) → (⟨S4096x4096, .f32⟩ : BufTy).Contents (Elt F)),
    binary main_v29 main_v26 main_v30 (mulf : (⟨S4096x4096, .f32⟩ : BufTy).Contents (Elt F) → (⟨S4096x4096, .f32⟩ : BufTy).Contents (Elt F) → (⟨S4096x4096, .f32⟩ : BufTy).Contents (Elt F)),
    binary main_v12 main_arg2 main_v31 ((fun a b => concatenate S4096x12288 1 [⟨S4096x4096, a⟩, ⟨S4096x8192, b⟩] concatenates_S4096x4096_S4096x8192_S4096x12288_d1) : (⟨S4096x4096, .f32⟩ : BufTy).Contents (Elt F) → (⟨S4096x8192, .f32⟩ : BufTy).Contents (Elt F) → (⟨S4096x12288, .f32⟩ : BufTy).Contents (Elt F)),
    nullary main_cst_3 (constant S_ .f32 0x00000000#32),
    binary main_v30 main_cst_3 main_v32 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_arg2 main_v33 (Host.exp : (⟨S4096x8192, .f32⟩ : BufTy).Contents (Elt F) → (⟨S4096x8192, .f32⟩ : BufTy).Contents (Elt F)),
    nullary main_cst_4 (constant S_ .f32 0x00000000#32),
    binary main_v33 main_cst_4 main_v34 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_v32 main_v34 main_v35 (addf : (⟨S4096, .f32⟩ : BufTy).Contents (Elt F) → (⟨S4096, .f32⟩ : BufTy).Contents (Elt F) → (⟨S4096, .f32⟩ : BufTy).Contents (Elt F)),
    unary main_v35 main_v36 (Host.log : (⟨S4096, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x12288 ![0, 1] bcast_S4096x1_S4096x12288_0_1 : (⟨S4096x1, .f32⟩ : BufTy).Contents (Elt F) → (⟨S4096x12288, .f32⟩ : BufTy).Contents (Elt F)),
    binary main_v31 main_v38 main_v39 (subf : (⟨S4096x12288, .f32⟩ : BufTy).Contents (Elt F) → (⟨S4096x12288, .f32⟩ : BufTy).Contents (Elt F) → (⟨S4096x12288, .f32⟩ : BufTy).Contents (Elt F)),
    binary main_v28 main_v39 main_v40 (mulf : (⟨S4096x12288, .f32⟩ : BufTy).Contents (Elt F) → (⟨S4096x12288, .f32⟩ : BufTy).Contents (Elt F) → (⟨S4096x12288, .f32⟩ : BufTy).Contents (Elt F)),
    nullary main_cst_5 (constant S_ .f32 0x00000000#32),
    binary main_v40 main_cst_5 main_v41 ((fun x v => Host.reduceAdd x v reducesTo_S4096x12288_S4096_d1 h_S_) : (⟨S4096x12288, .f32⟩ : BufTy).Contents (Elt F) → (⟨S_, .f32⟩ : BufTy).Contents (Elt F) → (⟨S4096, .f32⟩ : BufTy).Contents (Elt F)),
    nullary main_cst_6 (constant S_ .f32 0x00000000#32),
    binary main_v28 main_cst_6 main_v42 ((fun x v => Host.reduceAdd x v reducesTo_S4096x12288_S4096_d1 h_S_) : (⟨S4096x12288, .f32⟩ : BufTy).Contents (Elt F) → (⟨S_, .f32⟩ : BufTy).Contents (Elt F) → (⟨S4096, .f32⟩ : BufTy).Contents (Elt F)),
    binary main_v41 main_v42 main_v43 (Host.divf : (⟨S4096, .f32⟩ : BufTy).Contents (Elt F) → (⟨S4096, .f32⟩ : BufTy).Contents (Elt F) → (⟨S4096, .f32⟩ : BufTy).Contents (Elt F)),
    nullary main_cst_7 (constant S_ .f32 0x00000000#32),
    binary main_v43 main_cst_7 main_v44 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_8 (constant S_ .f32 0x45800000#32),
    binary main_v44 main_cst_8 main_v45 (Host.divf : (⟨S_, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)) ]

/-- The first stretch: operations 1 to 37, up to the similarity columns' targets. -/
abbrev ops1 : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v3 main_v4 (Host.divf : (⟨S4096x1024, .f32⟩ : BufTy).Contents (Elt F) → (⟨S4096x1024, .f32⟩ : BufTy).Contents (Elt F) → (⟨S4096x1024, .f32⟩ : BufTy).Contents (Elt F)),
    unary main_v4 main_v5 ((transpose S1024x4096 [1, 0] · transposes_S4096x1024_S1024x4096_1_0) : (⟨S4096x1024, .f32⟩ : BufTy).Contents (Elt F) → (⟨S1024x4096, .f32⟩ : BufTy).Contents (Elt F)),
    binary main_v4 main_v5 main_v6 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_0 (constant S_ .f32 0x3D8F5C29#32),
    unary main_cst_0 main_v7 (broadcastInDim S4096x4096 ![] bcast_S_S4096x4096 : (⟨S_, .f32⟩ : BufTy).Contents (Elt F) → (⟨S4096x4096, .f32⟩ : BufTy).Contents (Elt F)),
    binary main_v6 main_v7 main_v8 (Host.divf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0xFF800000#32),
    binary main_v8 main_cst_1 main_v9 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (broadcastInDim S4096x4096 ![0, 1] bcast_S4096x1_S4096x4096_0_1 : (⟨S4096x1, .f32⟩ : BufTy).Contents (Elt F) → (⟨S4096x4096, .f32⟩ : BufTy).Contents (Elt F)),
    binary main_v8 main_v11 main_v12 (subf : (⟨S4096x4096, .f32⟩ : BufTy).Contents (Elt F) → (⟨S4096x4096, .f32⟩ : BufTy).Contents (Elt F) → (⟨S4096x4096, .f32⟩ : BufTy).Contents (Elt F)),
    unary main_arg1 main_v13 (broadcastInDim S4096x1 ![0] bcast_S4096_S4096x1_0 : (⟨S4096, .i32⟩ : BufTy).Contents (Elt F) → (⟨S4096x1, .i32⟩ : BufTy).Contents (Elt F)),
    unary main_arg1 main_v14 (broadcastInDim S1x4096 ![1] bcast_S4096_S1x4096_1 : (⟨S4096, .i32⟩ : BufTy).Contents (Elt F) → (⟨S1x4096, .i32⟩ : BufTy).Contents (Elt F)),
    unary main_v13 main_v15 (broadcastInDim S4096x4096 ![0, 1] bcast_S4096x1_S4096x4096_0_1 : (⟨S4096x1, .i32⟩ : BufTy).Contents (Elt F) → (⟨S4096x4096, .i32⟩ : BufTy).Contents (Elt F)),
    unary main_v14 main_v16 (broadcastInDim S4096x4096 ![0, 1] bcast_S1x4096_S4096x4096_0_1 : (⟨S1x4096, .i32⟩ : BufTy).Contents (Elt F) → (⟨S4096x4096, .i32⟩ : BufTy).Contents (Elt F)),
    binary main_v15 main_v16 main_v17 (cmpi .eq : (⟨S4096x4096, .i32⟩ : BufTy).Contents (Elt F) → (⟨S4096x4096, .i32⟩ : BufTy).Contents (Elt F) → (⟨S4096x4096, .i1⟩ : BufTy).Contents (Elt F)),
    unary main_v17 main_v18 (uitofp .f32 : (⟨S4096x4096, .i1⟩ : BufTy).Contents (Elt F) → (⟨S4096x4096, .f32⟩ : BufTy).Contents (Elt F)),
    nullary main_v19 (iotaInDim S4096x4096 32 0),
    nullary main_v20 (iotaInDim S4096x4096 32 1),
    nullary main_c (constantI S_ 32 0#32),
    unary main_c main_v21 (broadcastInDim S4096x4096 ![] bcast_S_S4096x4096 : (⟨S_, .i32⟩ : BufTy).Contents (Elt F) → (⟨S4096x4096, .i32⟩ : BufTy).Contents (Elt F)),
    binary main_v19 main_v21 main_v22 (addi : (⟨S4096x4096, .i32⟩ : BufTy).Contents (Elt F) → (⟨S4096x4096, .i32⟩ : BufTy).Contents (Elt F) → (⟨S4096x4096, .i32⟩ : BufTy).Contents (Elt F)),
    binary main_v22 main_v20 main_v23 (cmpi .eq : (⟨S4096x4096, .i32⟩ : BufTy).Contents (Elt F) → (⟨S4096x4096, .i32⟩ : BufTy).Contents (Elt F) → (⟨S4096x4096, .i1⟩ : BufTy).Contents (Elt F)),
    unary main_v23 main_v24 (uitofp .f32 : (⟨S4096x4096, .i1⟩ : BufTy).Contents (Elt F) → (⟨S4096x4096, .f32⟩ : BufTy).Contents (Elt F)),
    nullary main_cst_2 (constant S_ .f32 0x3F800000#32),
    unary main_cst_2 main_v25 (broadcastInDim S4096x4096 ![] bcast_S_S4096x4096 : (⟨S_, .f32⟩ : BufTy).Contents (Elt F) → (⟨S4096x4096, .f32⟩ : BufTy).Contents (Elt F)),
    binary main_v25 main_v24 main_v26 (subf : (⟨S4096x4096, .f32⟩ : BufTy).Contents (Elt F) → (⟨S4096x4096, .f32⟩ : BufTy).Contents (Elt F) → (⟨S4096x4096, .f32⟩ : BufTy).Contents (Elt F)),
    binary main_v18 main_v26 main_v27 (mulf : (⟨S4096x4096, .f32⟩ : BufTy).Contents (Elt F) → (⟨S4096x4096, .f32⟩ : BufTy).Contents (Elt F) → (⟨S4096x4096, .f32⟩ : BufTy).Contents (Elt F)) ]

/-- The second stretch: the targets joined, and the masked exponentials. -/
abbrev ops2 : List (HloOp τ sig (Elt F)) :=
  [ binary main_v27 main_arg3 main_v28 ((fun a b => concatenate S4096x12288 1 [⟨S4096x4096, a⟩, ⟨S4096x8192, b⟩] concatenates_S4096x4096_S4096x8192_S4096x12288_d1) : (⟨S4096x4096, .f32⟩ : BufTy).Contents (Elt F) → (⟨S4096x8192, .f32⟩ : BufTy).Contents (Elt F) → (⟨S4096x12288, .f32⟩ : BufTy).Contents (Elt F)),
    unary main_v12 main_v29 (Host.exp : (⟨S4096x4096, .f32⟩ : BufTy).Contents (Elt F) → (⟨S4096x4096, .f32⟩ : BufTy).Contents (Elt F)),
    binary main_v29 main_v26 main_v30 (mulf : (⟨S4096x4096, .f32⟩ : BufTy).Contents (Elt F) → (⟨S4096x4096, .f32⟩ : BufTy).Contents (Elt F) → (⟨S4096x4096, .f32⟩ : BufTy).Contents (Elt F)) ]

/-- The third stretch: the logits joined, the denominators, the log-probabilities, the mean. -/
abbrev ops3 : List (HloOp τ sig (Elt F)) :=
  [ binary main_v12 main_arg2 main_v31 ((fun a b => concatenate S4096x12288 1 [⟨S4096x4096, a⟩, ⟨S4096x8192, b⟩] concatenates_S4096x4096_S4096x8192_S4096x12288_d1) : (⟨S4096x4096, .f32⟩ : BufTy).Contents (Elt F) → (⟨S4096x8192, .f32⟩ : BufTy).Contents (Elt F) → (⟨S4096x12288, .f32⟩ : BufTy).Contents (Elt F)),
    nullary main_cst_3 (constant S_ .f32 0x00000000#32),
    binary main_v30 main_cst_3 main_v32 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_arg2 main_v33 (Host.exp : (⟨S4096x8192, .f32⟩ : BufTy).Contents (Elt F) → (⟨S4096x8192, .f32⟩ : BufTy).Contents (Elt F)),
    nullary main_cst_4 (constant S_ .f32 0x00000000#32),
    binary main_v33 main_cst_4 main_v34 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_v32 main_v34 main_v35 (addf : (⟨S4096, .f32⟩ : BufTy).Contents (Elt F) → (⟨S4096, .f32⟩ : BufTy).Contents (Elt F) → (⟨S4096, .f32⟩ : BufTy).Contents (Elt F)),
    unary main_v35 main_v36 (Host.log : (⟨S4096, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x12288 ![0, 1] bcast_S4096x1_S4096x12288_0_1 : (⟨S4096x1, .f32⟩ : BufTy).Contents (Elt F) → (⟨S4096x12288, .f32⟩ : BufTy).Contents (Elt F)),
    binary main_v31 main_v38 main_v39 (subf : (⟨S4096x12288, .f32⟩ : BufTy).Contents (Elt F) → (⟨S4096x12288, .f32⟩ : BufTy).Contents (Elt F) → (⟨S4096x12288, .f32⟩ : BufTy).Contents (Elt F)),
    binary main_v28 main_v39 main_v40 (mulf : (⟨S4096x12288, .f32⟩ : BufTy).Contents (Elt F) → (⟨S4096x12288, .f32⟩ : BufTy).Contents (Elt F) → (⟨S4096x12288, .f32⟩ : BufTy).Contents (Elt F)),
    nullary main_cst_5 (constant S_ .f32 0x00000000#32),
    binary main_v40 main_cst_5 main_v41 ((fun x v => Host.reduceAdd x v reducesTo_S4096x12288_S4096_d1 h_S_) : (⟨S4096x12288, .f32⟩ : BufTy).Contents (Elt F) → (⟨S_, .f32⟩ : BufTy).Contents (Elt F) → (⟨S4096, .f32⟩ : BufTy).Contents (Elt F)),
    nullary main_cst_6 (constant S_ .f32 0x00000000#32),
    binary main_v28 main_cst_6 main_v42 ((fun x v => Host.reduceAdd x v reducesTo_S4096x12288_S4096_d1 h_S_) : (⟨S4096x12288, .f32⟩ : BufTy).Contents (Elt F) → (⟨S_, .f32⟩ : BufTy).Contents (Elt F) → (⟨S4096, .f32⟩ : BufTy).Contents (Elt F)),
    binary main_v41 main_v42 main_v43 (Host.divf : (⟨S4096, .f32⟩ : BufTy).Contents (Elt F) → (⟨S4096, .f32⟩ : BufTy).Contents (Elt F) → (⟨S4096, .f32⟩ : BufTy).Contents (Elt F)),
    nullary main_cst_7 (constant S_ .f32 0x00000000#32),
    binary main_v43 main_cst_7 main_v44 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_8 (constant S_ .f32 0x45800000#32),
    binary main_v44 main_cst_8 main_v45 (Host.divf : (⟨S_, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)) ]

theorem ops_eq : (ops : List (HloOp τ sig (Elt F))) = ops1 ++ (ops2 ++ ops3) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., unary_bufs_sub .., unary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., binary_bufs_sub .., binary_bufs_sub .., nullary_bufs_sub .., binary_bufs_sub .., unary_bufs_sub .., nullary_bufs_sub .., binary_bufs_sub .., binary_bufs_sub .., unary_bufs_sub .., unary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., unary_bufs_sub ..⟩

/-! ## The stretches' values, as functions of the buffers a stretch starts from -/

/-- The normalized rows: each row over its norm, the norm floored. -/
def r_v4 (x0 : (⟨S4096x1024, .f32⟩ : BufTy).Contents (Elt F)) : (⟨S4096x1024, .f32⟩ : BufTy).Contents (Elt F) :=
  Host.divf x0 (broadcastInDim S4096x1024 ![0, 1] bcast_S4096x1_S4096x1024_0_1 (maximumf (Host.sqrt (broadcastInDim S4096x1 ![0] bcast_S4096_S4096x1_0 (Host.reduceAdd (mulf x0 x0) (constant S_ .f32 0x00000000#32) reducesTo_S4096x1024_S4096_d1 h_S_))) (broadcastInDim S4096x1 ![] bcast_S_S4096x1 (constant S_ .f32 0x322BCC77#32))))

/-- The similarities over the temperature. -/
def r_v8 (x0 : (⟨S4096x1024, .f32⟩ : BufTy).Contents (Elt F)) : (⟨S4096x4096, .f32⟩ : BufTy).Contents (Elt F) :=
  Host.divf (Host.dotGeneral dot_S4096x1024_S1024x4096_S4096x4096_1_0_0_1_n_n none (r_v4 x0) (transpose S1024x4096 [1, 0] (r_v4 x0) transposes_S4096x1024_S1024x4096_1_0)) (broadcastInDim S4096x4096 ![] bcast_S_S4096x4096 (constant S_ .f32 0x3D8F5C29#32))

/-- The shifted logits: each row less its maximum. -/
def r_v12 (x0 : (⟨S4096x1024, .f32⟩ : BufTy).Contents (Elt F)) : (⟨S4096x4096, .f32⟩ : BufTy).Contents (Elt F) :=
  subf (r_v8 x0) (broadcastInDim S4096x4096 ![0, 1] bcast_S4096x1_S4096x4096_0_1 (broadcastInDim S4096x1 ![0] bcast_S4096_S4096x1_0 (Host.reduce FloatOps.maximumf (r_v8 x0) (constant S_ .f32 0xFF800000#32) reducesTo_S4096x4096_S4096_d1 h_S_)))

/-- The self mask: one less the diagonal's indicator. -/
def r_v26 : (⟨S4096x4096, .f32⟩ : BufTy).Contents (Elt F) :=
  subf (broadcastInDim S4096x4096 ![] bcast_S_S4096x4096 (constant S_ .f32 0x3F800000#32)) (uitofp .f32 (cmpi .eq (addi (iotaInDim S4096x4096 32 0) (broadcastInDim S4096x4096 ![] bcast_S_S4096x4096 (constantI S_ 32 0#32))) (iotaInDim S4096x4096 32 1)))

/-- The similarity columns' targets: label agreement, masked. -/
def r_v27 (x1 : (⟨S4096, .i32⟩ : BufTy).Contents (Elt F)) : (⟨S4096x4096, .f32⟩ : BufTy).Contents (Elt F) :=
  mulf (uitofp .f32 (cmpi .eq (broadcastInDim S4096x4096 ![0, 1] bcast_S4096x1_S4096x4096_0_1 (broadcastInDim S4096x1 ![0] bcast_S4096_S4096x1_0 x1)) (broadcastInDim S4096x4096 ![0, 1] bcast_S1x4096_S4096x4096_0_1 (broadcastInDim S1x4096 ![1] bcast_S4096_S1x4096_1 x1)))) (r_v26 (F := F))

/-- The logarithm of the row denominators, from the masked exponentials and the memory logits. -/
def r_v36 (x30 : (⟨S4096x4096, .f32⟩ : BufTy).Contents (Elt F)) (x2 : (⟨S4096x8192, .f32⟩ : BufTy).Contents (Elt F)) : (⟨S4096, .f32⟩ : BufTy).Contents (Elt F) :=
  Host.log (addf (Host.reduceAdd x30 (constant S_ .f32 0x00000000#32) reducesTo_S4096x4096_S4096_d1 h_S_) (Host.reduceAdd (Host.exp x2) (constant S_ .f32 0x00000000#32) reducesTo_S4096x8192_S4096_d1 h_S_))

/-- The log-probabilities over the joined axis. -/
def r_v39 (x12 : (⟨S4096x4096, .f32⟩ : BufTy).Contents (Elt F)) (x2 : (⟨S4096x8192, .f32⟩ : BufTy).Contents (Elt F)) (x30 : (⟨S4096x4096, .f32⟩ : BufTy).Contents (Elt F)) : (⟨S4096x12288, .f32⟩ : BufTy).Contents (Elt F) :=
  subf (concatenate S4096x12288 1 [⟨S4096x4096, x12⟩, ⟨S4096x8192, x2⟩] concatenates_S4096x4096_S4096x8192_S4096x12288_d1) (broadcastInDim S4096x12288 ![0, 1] bcast_S4096x1_S4096x12288_0_1 (broadcastInDim S4096x1 ![0] bcast_S4096_S4096x1_0 (r_v36 x30 x2)))

/-- The result: minus the mean over the rows of (the targets times the log-probabilities, summed) over (the targets, summed). -/
def r_v46 (x12 : (⟨S4096x4096, .f32⟩ : BufTy).Contents (Elt F)) (x2 : (⟨S4096x8192, .f32⟩ : BufTy).Contents (Elt F)) (x28 : (⟨S4096x12288, .f32⟩ : BufTy).Contents (Elt F)) (x30 : (⟨S4096x4096, .f32⟩ : BufTy).Contents (Elt F)) : (⟨S_, .f32⟩ : BufTy).Contents (Elt F) :=
  Host.negf (Host.divf (Host.reduceAdd (Host.divf (Host.reduceAdd (mulf x28 (r_v39 x12 x2 x30)) (constant S_ .f32 0x00000000#32) reducesTo_S4096x12288_S4096_d1 h_S_) (Host.reduceAdd x28 (constant S_ .f32 0x00000000#32) reducesTo_S4096x12288_S4096_d1 h_S_)) (constant S_ .f32 0x00000000#32) reducesTo_S4096_S_d0 h_S_) (constant S_ .f32 0x45800000#32))

/-! ## Each stretch's fold at the buffers the next one reads -/

section Windows
variable (V : Valuation τ sig (Elt F))

set_option maxRecDepth 8192 in
set_option maxHeartbeats 4000000 in
theorem w1_v12 : after ops1 V (Proc.devRef .tc main_v12) = r_v12 (V (Proc.devRef .tc main_arg0)) := by
  after_results_simp <;> rfl
set_option maxRecDepth 8192 in
set_option maxHeartbeats 4000000 in
theorem w1_v26 : after ops1 V (Proc.devRef .tc main_v26) = r_v26 (F := F) := by
  after_results_simp <;> rfl
set_option maxRecDepth 8192 in
set_option maxHeartbeats 4000000 in
theorem w1_v27 : after ops1 V (Proc.devRef .tc main_v27) = r_v27 (V (Proc.devRef .tc main_arg1)) := by
  after_results_simp <;> rfl
set_option maxRecDepth 8192 in
set_option maxHeartbeats 4000000 in
theorem w1_arg2 : after ops1 V (Proc.devRef .tc main_arg2) = V (Proc.devRef .tc main_arg2) := by
  after_results_simp <;> rfl
set_option maxRecDepth 8192 in
set_option maxHeartbeats 4000000 in
theorem w1_arg3 : after ops1 V (Proc.devRef .tc main_arg3) = V (Proc.devRef .tc main_arg3) := by
  after_results_simp <;> rfl

theorem w2_v28 : after ops2 V (Proc.devRef .tc main_v28) = concatenate S4096x12288 1 [⟨S4096x4096, V (Proc.devRef .tc main_v27)⟩, ⟨S4096x8192, V (Proc.devRef .tc main_arg3)⟩] concatenates_S4096x4096_S4096x8192_S4096x12288_d1 := by
  after_results_simp <;> rfl
theorem w2_v30 : after ops2 V (Proc.devRef .tc main_v30) = mulf (Host.exp (V (Proc.devRef .tc main_v12))) (V (Proc.devRef .tc main_v26)) := by
  after_results_simp <;> rfl
theorem w2_v12 : after ops2 V (Proc.devRef .tc main_v12) = V (Proc.devRef .tc main_v12) := by
  after_results_simp <;> rfl
theorem w2_arg2 : after ops2 V (Proc.devRef .tc main_arg2) = V (Proc.devRef .tc main_arg2) := by
  after_results_simp <;> rfl

set_option maxRecDepth 8192 in
set_option maxHeartbeats 4000000 in
theorem w3_v46 : after ops3 V (Proc.devRef .tc main_v46) = r_v46 (V (Proc.devRef .tc main_v12)) (V (Proc.devRef .tc main_arg2)) (V (Proc.devRef .tc main_v28)) (V (Proc.devRef .tc main_v30)) := by
  after_results_simp <;> rfl

end Windows

/-! ## The whole line's fold, and the run -/

/-- The result's composed value of the four arguments. -/
def res_main_v46 (m : (ℓ : Loc nD τ sig) → Buf (Elt F) ℓ) (c : Dev nD) : Buf (Elt F) ((c.tc : Thread nD τ).loc main_v46) :=
  r_v46 (r_v12 (m ((c.tc : Thread nD τ).loc main_arg0))) (m ((c.tc : Thread nD τ).loc main_arg2))
    (concatenate S4096x12288 1 [⟨S4096x4096, r_v27 (m ((c.tc : Thread nD τ).loc main_arg1))⟩, ⟨S4096x8192, m ((c.tc : Thread nD τ).loc main_arg3)⟩] concatenates_S4096x4096_S4096x8192_S4096x12288_d1)
    (mulf (Host.exp (r_v12 (m ((c.tc : Thread nD τ).loc main_arg0)))) (r_v26 (F := F)))

/-- `res_main_v46` by its position among the values @main returns, 0 counting from 0. -/
abbrev res_out0 (m : (ℓ : Loc nD τ sig) → Buf (Elt F) ℓ) (c : Dev nD) : Buf (Elt F) ((c.tc : Thread nD τ).loc main_v46) := res_main_v46 m c

/-- The whole line's fold at the result buffer: the three stretches' folds composed. -/
theorem after_v46 (V : Valuation τ sig (Elt F)) :
    after ops V (Proc.devRef .tc main_v46) = r_v46 (r_v12 (V (Proc.devRef .tc main_arg0))) (V (Proc.devRef .tc main_arg2))
      (concatenate S4096x12288 1 [⟨S4096x4096, r_v27 (V (Proc.devRef .tc main_arg1))⟩, ⟨S4096x8192, V (Proc.devRef .tc main_arg3)⟩] concatenates_S4096x4096_S4096x8192_S4096x12288_d1)
      (mulf (Host.exp (r_v12 (V (Proc.devRef .tc main_arg0)))) (r_v26 (F := F))) := by
  rw [ops_eq, StableHlo.after_append, StableHlo.after_append, w3_v46, w2_v12, w2_arg2, w2_v28, w2_v30, w1_v12, w1_arg2, w1_v27,
    w1_arg3, w1_v26]

set_option maxRecDepth 8192 in
set_option maxHeartbeats 24800000 in
/-- On every device, for any float values, from any memory with zero counters: every weakly fair execution of
    @main terminates with the result at the operations' composed value of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = res_main_v46 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans ((after_v46 _).trans rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.ValueP

end
-- ==== Proof.RefValue.lean ====
/-
  The reference's value. The reference program's result buffer holds, on every device, the loss `Cert.Spec.out` of the
  four arguments read by coordinates: the program's 62 operations are read one stage at a time at an index — a broadcast
  reads its operand at the index with the broadcast axis dropped, the transpose at the swapped index, the product of
  the normalized array with its transpose as the sum over the contracted coordinate, a sum-reduction as the sum over
  the reduced coordinate from the zero word (`0 + s = s`), the maximum-reduction as the fold of `max` from the word of
  `-∞` (`⊥`), a concatenation by the piece the joined coordinate falls in, and the label and diagonal tests as
  indicators — and each stage is the level of `Cert.Spec` of the same name. No finiteness is used: this is reading.
-/
import proofs.«174317_j67869073212268_1_alg».proof.Proof.RefRun
import proofs.«174317_j67869073212268_1_alg».proof.Proof.RefRead
import proofs.«174317_j67869073212268_1_alg».proof.Proof.Spec
import Idealize.ShloMosaic.Lib.ValueIdxRank1
import Idealize.ShloMosaic.Lib.IdealHost
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP
open scoped BigOperators

/-! ## Indices by coordinates, and two words -/

/-- Two rank-2 indices with the same coordinates are one. -/
theorem idx2_ext {n0 n1 : Nat} {u v : (⟨2, ![n0, n1]⟩ : Shape).Idx} (h0 : (u 0).val = (v 0).val) (h1 : (u 1).val = (v 1).val) :
    u = v := by
  funext a
  match a with
  | ⟨0, _⟩ => exact Fin.ext h0
  | ⟨1, _⟩ => exact Fin.ext h1

/-- Two rank-1 indices with the same coordinate are one. -/
theorem idx1_ext {n : Nat} {u v : (⟨1, ![n]⟩ : Shape).Idx} (h0 : (u 0).val = (v 0).val) : u = v := by
  funext a
  match a with
  | ⟨0, _⟩ => exact Fin.ext h0

/-- An equality test's bit, converted unsigned, is one where the words agree and zero where they differ. -/
theorem uitofp_cmpi_eq (x y : BitVec 32) :
    FloatOps.uitofp (F := Ideal) .f32 (IntOp.cmpi .eq x y) = if x = y then (1 : EReal) else 0 := by
  unfold IntOp.cmpi
  by_cases h : x = y
  · rw [if_pos h]
    have hb : (x == y) = true := beq_iff_eq.mpr h
    show (((BitVec.ofBool (x == y)).toNat : ℝ) : EReal) = 1
    rw [hb]; simp
  · rw [if_neg h]
    have hb : (x == y) = false := beq_eq_false_iff_ne.mpr h
    show (((BitVec.ofBool (x == y)).toNat : ℝ) : EReal) = 0
    rw [hb]; simp

/-- Below 4096 the 32-bit word of a number determines it. -/
theorem ofNat_inj_of_lt {a b : Nat} (ha : a < 4096) (hb : b < 4096) : BitVec.ofNat 32 a = BitVec.ofNat 32 b ↔ a = b := by
  constructor
  · intro h
    have e := congrArg BitVec.toNat h
    rw [BitVec.toNat_ofNat, BitVec.toNat_ofNat, Nat.mod_eq_of_lt (lt_trans ha (by norm_num)),
      Nat.mod_eq_of_lt (lt_trans hb (by norm_num))] at e
    exact e
  · intro h; rw [h]

/-- The word of `-∞` is the bottom. -/
theorem ofBits_neg_inf : Ideal.ofBits .f32 0xFF800000#32 = (⊥ : EReal) := by simp [Ideal.ofBits, Ideal.ieee]

/-! ## The stages at an index, level by level -/

section Stages
variable (x0 : (⟨S4096x1024, .f32⟩ : BufTy).Contents (Elt Ideal)) (x1 : (⟨S4096, .i32⟩ : BufTy).Contents (Elt Ideal)) (x2 x3 : (⟨S4096x8192, .f32⟩ : BufTy).Contents (Elt Ideal))

/-- The first argument by coordinates. -/
abbrev qf : Fin 4096 → Fin 1024 → EReal := fun i d => x0 (ix2 i d)
/-- The labels by coordinate. -/
abbrev labf : Fin 4096 → BitVec 32 := fun i => x1 (ix1 i)
/-- The memory logits by coordinates. -/
abbrev mlf : Fin 4096 → Fin 8192 → EReal := fun i k => x2 (ix2 i k)
/-- The memory targets by coordinates. -/
abbrev mtf : Fin 4096 → Fin 8192 → EReal := fun i k => x3 (ix2 i k)

/-- Row `i`'s sum of squares. -/
theorem v1_at (i : Fin 4096) : val_main_call0_v1 (F := Ideal) x0 (ix1 i) = Spec.ssq (qf x0) i := by
  rw [val_main_call0_v1_apply, val_main_call0_cst_apply]
  show Ideal.ofBits .f32 0x00000000#32 + _ = _
  rw [Ideal.ofBits_zero_f32, zero_add]
  unfold Spec.ssq
  refine Finset.sum_congr rfl fun d _ => ?_
  rw [val_main_call0_v0_apply, show idx_main_call0_v1 (ix1 i) d = ix2 i d from idx2_ext rfl rfl]
  rfl

/-- Row `i`'s floored norm. -/
theorem v2_at (i : Fin 4096) (z : Fin 1) : val_main_v2 (F := Ideal) x0 (ix2 i z) = Spec.den (qf x0) i := by
  rw [val_main_v2_apply, val_main_v0_apply, val_main_call0_v2_apply, val_main_v1_apply, val_main_cst_apply,
    show idx_main_call0_v2 (ix2 i z) = ix1 i from idx1_ext rfl, v1_at]
  rfl

/-- The normalized rows. -/
theorem v4_at (i : Fin 4096) (d : Fin 1024) : val_main_v4 (F := Ideal) x0 (ix2 i d) = Spec.qn (qf x0) i d := by
  rw [val_main_v4_apply, val_main_v3_apply, show idx_main_v3 (ix2 i d) = ix2 i (0 : Fin 1) from idx2_ext rfl rfl, v2_at]
  rfl

/-- The similarities. -/
theorem v6_at (i j : Fin 4096) : val_main_v6 (F := Ideal) x0 (ix2 i j) = Spec.sims (qf x0) i j := by
  rw [val_main_v6_apply]
  unfold Spec.sims
  refine Finset.sum_congr rfl fun d _ => ?_
  rw [show lidx_main_v6 (ix2 i j) d = ix2 i d from idx2_ext rfl rfl,
    show ridx_main_v6 (ix2 i j) d = ix2 d j from idx2_ext rfl rfl, v4_at, val_main_v5_apply,
    show idx_main_v5 (ix2 d j) = ix2 j d from idx2_ext rfl rfl, v4_at]

/-- The similarities over the temperature. -/
theorem v8_at (i j : Fin 4096) : val_main_v8 (F := Ideal) x0 (ix2 i j) = Spec.sc (qf x0) i j := by
  rw [val_main_v8_apply, v6_at, val_main_v7_apply, val_main_cst_0_apply]
  rfl

/-- The row maxima. -/
theorem v9_at (i : Fin 4096) : val_main_v9 (F := Ideal) x0 (ix1 i) = Spec.mx (qf x0) i := by
  have h : S4096x4096.Reduces [1] S4096 := by decide
  unfold val_main_v9
  rw [Host.reduce_eq_fold_single FloatOps.maximumf _ _ reducesTo_S4096x4096_S4096_d1 h h_S_]
  have hf : (val_main_v8 (F := Ideal) x0 ∘ h.lift (ix1 i)) = fun j : Fin 4096 => Spec.sc (qf x0) i j := by
    refine funext fun (k : Fin 4096) => ?_
    show val_main_v8 (F := Ideal) x0 (h.lift (ix1 i) k) = _
    rw [show h.lift (ix1 i) k = ix2 i k from idx2_ext rfl rfl, v8_at]
  rw [hf, val_main_cst_1_apply]
  show Finset.fold max (Ideal.ofBits .f32 0xFF800000#32) _ _ = _
  rw [ofBits_neg_inf]
  rfl

/-- The shifted logits. -/
theorem v12_at (i j : Fin 4096) : val_main_v12 (F := Ideal) x0 (ix2 i j) = Spec.sl (qf x0) i j := by
  rw [val_main_v12_apply, v8_at, val_main_v11_apply, show idx_main_v11 (ix2 i j) = ix2 i (0 : Fin 1) from idx2_ext rfl rfl,
    val_main_v10_apply, show idx_main_v10 (ix2 i (0 : Fin 1)) = ix1 i from idx1_ext rfl, v9_at]
  rfl

/-- The label mask. -/
theorem v18_at (i j : Fin 4096) : val_main_v18 (F := Ideal) x1 (ix2 i j) = Spec.lm (labf x1) i j := by
  rw [val_main_v18_apply, val_main_v17_apply, val_main_v15_apply, val_main_v16_apply, val_main_v13_apply, val_main_v14_apply,
    show idx_main_v13 (idx_main_v15 (ix2 i j)) = ix1 i from idx1_ext rfl,
    show idx_main_v14 (idx_main_v16 (ix2 i j)) = ix1 j from idx1_ext rfl]
  exact uitofp_cmpi_eq _ _

/-- The self mask. -/
theorem v26_at (i j : Fin 4096) : val_main_v26 (F := Ideal) (ix2 i j) = Spec.sm i j := by
  rw [val_main_v26_apply, val_main_v25_apply, val_main_cst_2_apply, val_main_v24_apply, val_main_v23_apply, val_main_v22_apply,
    val_main_v19_apply, val_main_v20_apply, val_main_v21_apply, val_main_c_apply]
  show Ideal.ofBits .f32 0x3F800000#32 - FloatOps.uitofp (F := Ideal) .f32 (IntOp.cmpi .eq (BitVec.ofNat 32 i.val + 0#32) (BitVec.ofNat 32 j.val)) = _
  rw [Ideal.ofBits_one_f32, uitofp_cmpi_eq, BitVec.add_zero]
  unfold Spec.sm
  refine congrArg (fun t => (1 : EReal) - t) (if_congr ?_ rfl rfl)
  rw [ofNat_inj_of_lt i.isLt j.isLt, Fin.val_inj]

/-- The similarity columns' targets. -/
theorem v27_at (i j : Fin 4096) : val_main_v27 (F := Ideal) x1 (ix2 i j) = Spec.st (labf x1) i j := by
  rw [val_main_v27_apply, v18_at, v26_at]
  rfl

/-- The masked exponentials. -/
theorem v30_at (i j : Fin 4096) : val_main_v30 (F := Ideal) x0 (ix2 i j) = Spec.ex (qf x0) i j := by
  rw [val_main_v30_apply, val_main_v29_apply, v12_at, v26_at]
  rfl

/-- The similarity columns' part of the denominator. -/
theorem v32_at (i : Fin 4096) : val_main_v32 (F := Ideal) x0 (ix1 i) = ∑ j : Fin 4096, Spec.ex (qf x0) i j := by
  rw [val_main_v32_apply, val_main_cst_3_apply]
  show Ideal.ofBits .f32 0x00000000#32 + _ = _
  rw [Ideal.ofBits_zero_f32, zero_add]
  refine Finset.sum_congr rfl fun j _ => ?_
  rw [show idx_main_v32 (ix1 i) j = ix2 i j from idx2_ext rfl rfl, v30_at]

/-- The memory columns' part of the denominator. -/
theorem v34_at (i : Fin 4096) : val_main_v34 (F := Ideal) x2 (ix1 i) = ∑ k : Fin 8192, Ideal.exp (mlf x2 i k) := by
  rw [val_main_v34_apply, val_main_cst_4_apply]
  show Ideal.ofBits .f32 0x00000000#32 + _ = _
  rw [Ideal.ofBits_zero_f32, zero_add]
  refine Finset.sum_congr rfl fun k _ => ?_
  rw [show idx_main_v34 (ix1 i) k = ix2 i k from idx2_ext rfl rfl, val_main_v33_apply]
  rfl

/-- The logarithm of the denominator. -/
theorem v36_at (i : Fin 4096) : val_main_v36 (F := Ideal) x0 x2 (ix1 i) = Spec.lg (qf x0) (mlf x2) i := by
  rw [val_main_v36_apply, val_main_v35_apply, v32_at, v34_at]
  rfl

/-- The joined targets. -/
theorem v28_at (i : Fin 4096) (c : Fin 12288) :
    val_main_v28 (F := Ideal) x1 x3 (ix2 i c) = Spec.tg (labf x1) (mtf x3) i c := by
  unfold val_main_v28 Spec.tg
  by_cases h : c.val < 4096
  · rw [dif_pos h]
    refine (concatenate_pair_apply_left 1 _ _ concatenates_S4096x4096_S4096x8192_S4096x12288_d1 (ix2 i c) rfl (ix2 i (⟨c.val, h⟩ : Fin 4096))
      (fun b => by match b with | ⟨0, _⟩ => rfl | ⟨1, _⟩ => rfl)).trans ?_
    exact v27_at x1 i ⟨c.val, h⟩
  · rw [dif_neg h]
    have hc := c.isLt
    refine concatenate_pair_apply_right 1 _ _ concatenates_S4096x4096_S4096x8192_S4096x12288_d1 (ix2 i c) rfl rfl
      (ix2 i (⟨c.val - 4096, by omega⟩ : Fin 8192)) (fun b hb => by
        match b with
        | ⟨0, _⟩ => rfl
        | ⟨1, _⟩ => exact absurd rfl hb) ?_
    show c.val - 4096 + 4096 = c.val
    omega

/-- The joined logits. -/
theorem v31_at (i : Fin 4096) (c : Fin 12288) :
    val_main_v31 (F := Ideal) x0 x2 (ix2 i c) = Spec.lgt (qf x0) (mlf x2) i c := by
  unfold val_main_v31 Spec.lgt
  by_cases h : c.val < 4096
  · rw [dif_pos h]
    refine (concatenate_pair_apply_left 1 _ _ concatenates_S4096x4096_S4096x8192_S4096x12288_d1 (ix2 i c) rfl (ix2 i (⟨c.val, h⟩ : Fin 4096))
      (fun b => by match b with | ⟨0, _⟩ => rfl | ⟨1, _⟩ => rfl)).trans ?_
    exact v12_at x0 i ⟨c.val, h⟩
  · rw [dif_neg h]
    have hc := c.isLt
    refine concatenate_pair_apply_right 1 _ _ concatenates_S4096x4096_S4096x8192_S4096x12288_d1 (ix2 i c) rfl rfl
      (ix2 i (⟨c.val - 4096, by omega⟩ : Fin 8192)) (fun b hb => by
        match b with
        | ⟨0, _⟩ => rfl
        | ⟨1, _⟩ => exact absurd rfl hb) ?_
    show c.val - 4096 + 4096 = c.val
    omega

/-- Target times log-probability over the joined axis. -/
theorem v40_at (i : Fin 4096) (c : Fin 12288) :
    val_main_v40 (F := Ideal) x0 x1 x2 x3 (ix2 i c)
      = Spec.tg (labf x1) (mtf x3) i c * (Spec.lgt (qf x0) (mlf x2) i c - Spec.lg (qf x0) (mlf x2) i) := by
  rw [val_main_v40_apply, v28_at, val_main_v39_apply, v31_at, val_main_v38_apply,
    show idx_main_v38 (ix2 i c) = ix2 i (0 : Fin 1) from idx2_ext rfl rfl, val_main_v37_apply,
    show idx_main_v37 (ix2 i (0 : Fin 1)) = ix1 i from idx1_ext rfl, v36_at]
  rfl

/-- The rows' numerators. -/
theorem v41_at (i : Fin 4096) :
    val_main_v41 (F := Ideal) x0 x1 x2 x3 (ix1 i) = Spec.num (qf x0) (labf x1) (mlf x2) (mtf x3) i := by
  rw [val_main_v41_apply, val_main_cst_5_apply]
  show Ideal.ofBits .f32 0x00000000#32 + _ = _
  rw [Ideal.ofBits_zero_f32, zero_add]
  unfold Spec.num
  refine Finset.sum_congr rfl fun c _ => ?_
  rw [show idx_main_v41 (ix1 i) c = ix2 i c from idx2_ext rfl rfl, v40_at]

/-- The rows' target counts. -/
theorem v42_at (i : Fin 4096) : val_main_v42 (F := Ideal) x1 x3 (ix1 i) = Spec.cnt (labf x1) (mtf x3) i := by
  rw [val_main_v42_apply, val_main_cst_6_apply]
  show Ideal.ofBits .f32 0x00000000#32 + _ = _
  rw [Ideal.ofBits_zero_f32, zero_add]
  unfold Spec.cnt
  refine Finset.sum_congr rfl fun c _ => ?_
  rw [show idx_main_v42 (ix1 i) c = ix2 i c from idx2_ext rfl rfl, v28_at]

/-- The result. -/
theorem v46_at (j : S_.Idx) :
    val_main_v46 (F := Ideal) x0 x1 x2 x3 j = Spec.out (qf x0) (labf x1) (mlf x2) (mtf x3) := by
  rw [val_main_v46_apply, val_main_v45_apply, val_main_v44_apply, val_main_cst_7_apply, val_main_cst_8_apply]
  show -(Ideal.div (Ideal.ofBits .f32 0x00000000#32 + _) (Ideal.ofBits .f32 0x45800000#32)) = _
  rw [Ideal.ofBits_zero_f32, zero_add]
  unfold Spec.out
  rw [← Equiv.sum_comp (idxEquiv1 (n := 4096)).symm]
  refine congrArg (fun t => -(Ideal.div t (Ideal.ofBits .f32 0x45800000#32))) (Finset.sum_congr rfl fun i _ => ?_)
  show val_main_v43 (F := Ideal) x0 x1 x2 x3 (ix1 i) = _
  rw [val_main_v43_apply, v41_at, v42_at]
  rfl

end Stages

/-- The reference's result is the loss of the four arguments read by coordinates. -/
theorem res_eq (m : (ℓ : Loc nD τ sig) → Buf (Elt Ideal) ℓ) (c : Dev nD) :
    ValueP.res_out0 (F := Ideal) m c = fun _ => Cert.Spec.out
      (fun i d => m ((c.tc : Thread nD τ).loc main_arg0) (ValueIdx.ix2 i d))
      (fun i => m ((c.tc : Thread nD τ).loc main_arg1) (ValueIdx.ix1 i))
      (fun i k => m ((c.tc : Thread nD τ).loc main_arg2) (ValueIdx.ix2 i k))
      (fun i k => m ((c.tc : Thread nD τ).loc main_arg3) (ValueIdx.ix2 i k)) := by
  show ValueP.res_main_v46 m c = _
  rw [val_main_v46_eq]
  funext j
  exact v46_at _ _ _ _ j

end Cert.ReferenceIdeal.RefValue

end
-- ==== Proof.Acc.lean ====
import proofs.«174317_j67869073212268_1_alg».proof.Proof.Gen.KernelIdeal.Skeleton
import proofs.«174317_j67869073212268_1_alg».proof.Proof.Gen.KernelIdeal.Launch

/-! The two kernels' running statistics as pure functions.

Both kernels keep per-row statistics of a 512-row block in scratch between the eight column tiles of a row block:
the similarity kernel the running maximum, the rescaled sum of exponentials, the sum of target-weighted
similarities and the count of positives; the memory-bank kernel the sum of exponentials, the target-weighted
sum of logits and the sum of targets. One grid point maps the statistics before it to the statistics after it
(`step0`, `step1`), starting from the reset values at the first tile of each row block (`init0`, `init1`);
`acc0` / `acc1` fold the points of the grid in order. -/

noncomputable section

namespace Cert.KernelIdeal.Hand

open Idealize.ShloMosaic Idealize.SL.Sem
open Cert.KernelIdeal Cert.KernelIdeal.Gen

variable {F : FTy → Type} [FloatOps F] [Named F]

/-- Running maximum, sum of exponentials, weighted sum, positives count: one column of 512 rows each. -/
abbrev St0 (F : FTy → Type) [FloatOps F] : Type :=
  Vec F S512x1 .f32 × Vec F S512x1 .f32 × Vec F S512x1 .f32 × Vec F S512x1 .f32

/-- The reset at the first column tile: maximum −∞, the three sums zero. -/
def init0 : St0 F := (k0_pay1 (F := F), k0_pay2 (F := F), k0_pay3 (F := F), k0_pay4 (F := F))

/-- The new running maximum: the old one against the tile's row maxima of the scaled similarities. -/
def newM0 (x0 : Vec F S512x1024 .bf16) (x1 : Vec F S1024x512 .bf16) (am : Vec F S512x1 .f32) : Vec F S512x1 .f32 :=
  k0_pay12 (k0_pay8 x0 x1 am)

/-- The new sum of exponentials: the old one rescaled to the new maximum plus the tile's masked row sums. -/
def newE0 (i : grid0.Coords) (x0 : Vec F S512x1024 .bf16) (x1 : Vec F S1024x512 .bf16) (am ae : Vec F S512x1 .f32) : Vec F S512x1 .f32 :=
  k0_pay9 (k0_pay5 x0 x1) (k0_pay6 (F := F) i) (k0_pay8 x0 x1 am) am ae

/-- The new target-weighted sum of similarities. -/
def newS0 (i : grid0.Coords) (x0 : Vec F S512x1024 .bf16) (x1 : Vec F S1024x512 .bf16) (x2 : Vec F S512x1 .i32) (x3 : Vec F S1x512 .i32)
    (asum : Vec F S512x1 .f32) : Vec F S512x1 .f32 :=
  k0_pay10 (k0_pay5 x0 x1) (k0_pay7 i x2 x3) asum

/-- The new count of positives. -/
def newP0 (i : grid0.Coords) (x2 : Vec F S512x1 .i32) (x3 : Vec F S1x512 .i32) (ap : Vec F S512x1 .f32) : Vec F S512x1 .f32 :=
  k0_pay11 (k0_pay7 i x2 x3) ap

/-- One grid point of the similarity kernel on the statistics. -/
def step0 (i : grid0.Coords) (x0 : Vec F S512x1024 .bf16) (x1 : Vec F S1024x512 .bf16) (x2 : Vec F S512x1 .i32) (x3 : Vec F S1x512 .i32)
    (a : St0 F) : St0 F :=
  (newM0 x0 x1 a.1, newE0 i x0 x1 a.1 a.2.1, newS0 i x0 x1 x2 x3 a.2.2.1, newP0 i x2 x3 a.2.2.2)

/-- The statistics after point `n` of the 8 × 8 grid, from the blocks each point is handed: reset where the column
    tile is the first (`n % 8 = 0`), else continued from the point before. -/
def acc0 (b0 : Fin 64 → Vec F S512x1024 .bf16) (b1 : Fin 64 → Vec F S1024x512 .bf16) (b2 : Fin 64 → Vec F S512x1 .i32)
    (b3 : Fin 64 → Vec F S1x512 .i32) : (n : ℕ) → n < 64 → St0 F
  | 0, h => step0 (grid0.coords ⟨0, h⟩) (b0 ⟨0, h⟩) (b1 ⟨0, h⟩) (b2 ⟨0, h⟩) (b3 ⟨0, h⟩) init0
  | n + 1, h => step0 (grid0.coords ⟨n + 1, h⟩) (b0 ⟨n + 1, h⟩) (b1 ⟨n + 1, h⟩) (b2 ⟨n + 1, h⟩) (b3 ⟨n + 1, h⟩)
      (if (n + 1) % 8 = 0 then init0 else acc0 b0 b1 b2 b3 n (Nat.lt_of_succ_lt h))

/-- Sum of exponentials, target-weighted sum of logits, sum of targets: one column of 512 rows each. -/
abbrev St1 (F : FTy → Type) [FloatOps F] : Type :=
  Vec F S512x1 .f32 × Vec F S512x1 .f32 × Vec F S512x1 .f32

/-- The reset at the first column tile: three zeros. -/
def init1 : St1 F := (k1_pay1 (F := F), k1_pay2 (F := F), k1_pay3 (F := F))

/-- One grid point of the memory-bank kernel on the statistics. -/
def step1 (x0 x1 : Vec F S512x1024 .f32) (a : St1 F) : St1 F :=
  (k1_pay4 x0 a.1, k1_pay5 x0 x1 a.2.1, k1_pay6 x1 a.2.2)

/-- The statistics after point `n` of the 8 × 8 grid of the memory-bank kernel. -/
def acc1 (b0 b1 : Fin 64 → Vec F S512x1024 .f32) : (n : ℕ) → n < 64 → St1 F
  | 0, h => step1 (b0 ⟨0, h⟩) (b1 ⟨0, h⟩) init1
  | n + 1, h => step1 (b0 ⟨n + 1, h⟩) (b1 ⟨n + 1, h⟩)
      (if (n + 1) % 8 = 0 then init1 else acc1 b0 b1 n (Nat.lt_of_succ_lt h))

theorem acc0_reset (b0 : Fin 64 → Vec F S512x1024 .bf16) (b1 : Fin 64 → Vec F S1024x512 .bf16) (b2 : Fin 64 → Vec F S512x1 .i32)
    (b3 : Fin 64 → Vec F S1x512 .i32) (t : Fin 64) (h : t.val % 8 = 0) :
    acc0 b0 b1 b2 b3 t.val t.isLt = step0 (grid0.coords t) (b0 t) (b1 t) (b2 t) (b3 t) init0 := by
  obtain ⟨n, hn⟩ := t
  cases n with
  | zero => rfl
  | succ n => simp only [acc0]; rw [if_pos h]; rfl

theorem acc0_cont (b0 : Fin 64 → Vec F S512x1024 .bf16) (b1 : Fin 64 → Vec F S1024x512 .bf16) (b2 : Fin 64 → Vec F S512x1 .i32)
    (b3 : Fin 64 → Vec F S1x512 .i32) (t : Fin 64) (h : ¬ t.val % 8 = 0) :
    acc0 b0 b1 b2 b3 t.val t.isLt = step0 (grid0.coords t) (b0 t) (b1 t) (b2 t) (b3 t)
      (acc0 b0 b1 b2 b3 (t.val - 1) (Nat.lt_of_le_of_lt (Nat.sub_le _ _) t.isLt)) := by
  obtain ⟨n, hn⟩ := t
  cases n with
  | zero => exact absurd (Nat.zero_mod _) h
  | succ n => simp only [acc0]; rw [if_neg h]; rfl

theorem acc1_reset (b0 b1 : Fin 64 → Vec F S512x1024 .f32) (t : Fin 64) (h : t.val % 8 = 0) :
    acc1 b0 b1 t.val t.isLt = step1 (b0 t) (b1 t) init1 := by
  obtain ⟨n, hn⟩ := t
  cases n with
  | zero => rfl
  | succ n => simp only [acc1]; rw [if_pos h]

theorem acc1_cont (b0 b1 : Fin 64 → Vec F S512x1024 .f32) (t : Fin 64) (h : ¬ t.val % 8 = 0) :
    acc1 b0 b1 t.val t.isLt = step1 (b0 t) (b1 t)
      (acc1 b0 b1 (t.val - 1) (Nat.lt_of_le_of_lt (Nat.sub_le _ _) t.isLt)) := by
  obtain ⟨n, hn⟩ := t
  cases n with
  | zero => exact absurd (Nat.zero_mod _) h
  | succ n => simp only [acc1]; rw [if_neg h]; rfl

end Cert.KernelIdeal.Hand

end
-- ==== Proof.LibWholeStore.lean ====
import Idealize.ShloMosaic.Lib.Pipeline.FrameBody
import Idealize.ShloMosaic.Lib.Pipeline.Value

/-! A store through the whole-shape rectangle, read back.

A staging or scratch buffer that a kernel body overwrites with ONE store of the buffer's full shape at zero
offsets holds, afterwards, exactly the stored value — whatever it held before and whatever earlier stores of
the same run wrote. The lemmas here say so for the contents read through any view of the shape
(`View.read` of `View.writes`), which is the form a symbolic run of the body leaves them in. General: nothing
here mentions a particular kernel. -/

noncomputable section

namespace Idealize.ShloMosaic.View

variable {Val : EltTy → Type} {S : Shape} {e : EltTy}

/-- Reading a buffer after a list of stores whose LAST one (the list's head) is through the whole-shape rectangle at
    zero offsets gives that store's payload. -/
theorem read_writes_unit_zero [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (Piece Val S e)) :
    v.read Val (v.writes Val f ((⟨Rect.unit off S.size inb, w⟩ : Piece Val S e) :: L)) = w := by
  rw [View.read_writes_eq_canon v f _ (fun y => ⟨(⟨Rect.unit off S.size inb, w⟩ : Piece Val S e), List.mem_cons_self ..,
    View.mem_set_unit_zero h inb y⟩), View.canon_cons_unit_zero h]

/-- A load of the whole shape after a list of stores whose LAST one (the list's head) is through the whole-shape rectangle
    reads that store's payload: an accumulator reset, added to, and read back within one run of the body. -/
theorem readCov_cons_unit_zero [∀ e, Nonempty (Val e)] {sig : RefSig} {κ : Kind} {sp : Space} (v : View sig κ sp S e)
    {off : Fin S.rank → Nat} (h : off = fun _ => 0) (inb : ∀ a, off a + S.size a ≤ S.size a)
    (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨(⟨Rect.unit (fun _ => 0) S.size inb, w⟩ : Piece Val S e), List.mem_cons_self .., by
    show y ∈ (Rect.whole S).set; rw [Rect.set_whole]; exact Finset.mem_univ y⟩), canon_cons_unit_zero rfl, ld_unit_zero rfl]

/-- The zero offsets of a rank-two rectangle, as the printed programs spell them. -/
theorem zero_offsets_two : (![0, 0] : Fin 2 → ℕ) = fun _ => 0 := by funext a; fin_cases a <;> rfl

end Idealize.ShloMosaic.View

end
-- ==== Proof.Body0.lean ====
import proofs.«174317_j67869073212268_1_alg».proof.Proof.Acc
import proofs.«174317_j67869073212268_1_alg».proof.Proof.LibWholeStore
import proofs.«174317_j67869073212268_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The similarity kernel's body on whole staging buffers.

At a point whose column tile is the first, the body resets its four scratch columns (running maximum to −∞, the
sum of exponentials, the target-weighted sum and the count of positives to zero) and then folds the tile into them;
at any other point it folds the tile into what the point before left. Either way it ends with the four scratch
columns at `step0` of the four input blocks and of the statistics it started from, and copies them into the four
output blocks. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The zero offsets of a rank-two rectangle. -/
theorem hzero2 : (![0, 0] : Fin 2 → ℕ) = fun _ => 0 := View.zero_offsets_two

/-- The body's one branch: the column tile is the first of its row block. -/
abbrev cond0 (i : grid0.Coords) : Prop := (Scalar.cmpi .ne (Scalar.extui (Scalar.cmpi .eq (BitVec.ofNat 32 (i 1).val) 0#32)) 0#32) = 1#1

set_option maxHeartbeats 4000000 in
/-- A later column tile: the scratch columns hold the statistics `a` of the tiles before. -/
theorem body0_later (c : Dev nD) (i : grid0.Coords) (arg2 : Memref sig .tc .vmem S512x1024 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc : ¬cond0 i) (x0 : Vec F S512x1024 .bf16) (x1 : Vec F S1024x512 .bf16) (x2 : Vec F S512x1 .i32) (x3 : Vec F S1x512 .i32) (a : St0 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (step0 i x0 x1 x2 x3 a).1
            ∗ owns (c : Thread nD τ) arg7 fullShare (step0 i x0 x1 x2 x3 a).2.1
            ∗ owns (c : Thread nD τ) arg8 fullShare (step0 i x0 x1 x2 x3 a).2.2.1
            ∗ owns (c : Thread nD τ) arg9 fullShare (step0 i x0 x1 x2 x3 a).2.2.2
            ∗ owns (c : Thread nD τ) arg10 fullShare (step0 i x0 x1 x2 x3 a).1
            ∗ owns (c : Thread nD τ) arg11 fullShare (step0 i x0 x1 x2 x3 a).2.1
            ∗ owns (c : Thread nD τ) arg12 fullShare (step0 i x0 x1 x2 x3 a).2.2.1
            ∗ owns (c : Thread nD τ) arg13 fullShare (step0 i x0 x1 x2 x3 a).2.2.2) -∗ K ⟨⟩))
      ⊢ wp frame (wpE (defs₀ (F := F)) Variants.none c none) E (cc0__sim_kernel i arg2 harg2 arg3 harg3 arg4 harg4 arg5 harg5 arg6 harg6 arg7 harg7 arg8 harg8 arg9 harg9 arg10 harg10 arg11 harg11 arg12 harg12 arg13 harg13) K := by
  obtain ⟨s0, s1, s2, s3⟩ := a
  simp only [cc0__sim_kernel_eq_skeleton]; unfold cc0__sim_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H7]
  · iexists _; isplitr
    swap; · iexact H7
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H8]
  · iexists _; isplitr
    swap; · iexact H8
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H9]
  · iexists _; isplitr
    swap; · iexact H9
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H10]
  · iexists _; isplitr
    swap; · iexact H10
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H11]
  · iexists _; isplitr
    swap; · iexact H11
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H12]
  · iexists _; isplitr
    swap; · iexact H12
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  · iexists _; isplitr
    swap; · iexact H13
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]

set_option maxHeartbeats 4000000 in
/-- The first column tile of a row block: the scratch columns hold anything and are reset to `init0` first. -/
theorem body0_first (c : Dev nD) (i : grid0.Coords) (arg2 : Memref sig .tc .vmem S512x1024 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc : cond0 i) (x0 : Vec F S512x1024 .bf16) (x1 : Vec F S1024x512 .bf16) (x2 : Vec F S512x1 .i32) (x3 : Vec F S1x512 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (step0 i x0 x1 x2 x3 (init0 (F := F))).1
            ∗ owns (c : Thread nD τ) arg7 fullShare (step0 i x0 x1 x2 x3 (init0 (F := F))).2.1
            ∗ owns (c : Thread nD τ) arg8 fullShare (step0 i x0 x1 x2 x3 (init0 (F := F))).2.2.1
            ∗ owns (c : Thread nD τ) arg9 fullShare (step0 i x0 x1 x2 x3 (init0 (F := F))).2.2.2
            ∗ owns (c : Thread nD τ) arg10 fullShare (step0 i x0 x1 x2 x3 (init0 (F := F))).1
            ∗ owns (c : Thread nD τ) arg11 fullShare (step0 i x0 x1 x2 x3 (init0 (F := F))).2.1
            ∗ owns (c : Thread nD τ) arg12 fullShare (step0 i x0 x1 x2 x3 (init0 (F := F))).2.2.1
            ∗ owns (c : Thread nD τ) arg13 fullShare (step0 i x0 x1 x2 x3 (init0 (F := F))).2.2.2) -∗ K ⟨⟩))
      ⊢ wp frame (wpE (defs₀ (F := F)) Variants.none c none) E (cc0__sim_kernel i arg2 harg2 arg3 harg3 arg4 harg4 arg5 harg5 arg6 harg6 arg7 harg7 arg8 harg8 arg9 harg9 arg10 harg10 arg11 harg11 arg12 harg12 arg13 harg13) K := by
  simp only [cc0__sim_kernel_eq_skeleton]; unfold cc0__sim_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg2.eq_unread hf2; obtain rfl := harg3.eq_unread hf3; obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H7]
  · iexists _; isplitr
    swap; · iexact H7
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H8]
  · iexists _; isplitr
    swap; · iexact H8
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H9]
  · iexists _; isplitr
    swap; · iexact H9
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H10]
  · iexists _; isplitr
    swap; · iexact H10
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H11]
  · iexists _; isplitr
    swap; · iexact H11
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H12]
  · iexists _; isplitr
    swap; · iexact H12
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  · iexists _; isplitr
    swap; · iexact H13
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]

end Cert.KernelIdeal.Hand

end
-- ==== Proof.Dat0.lean ====
import proofs.«174317_j67869073212268_1_alg».proof.Proof.Body0
import Idealize.ShloMosaic.Lib.Pipeline.Frame
import Idealize.ShloMosaic.Lib.Pipeline.Regions
import Idealize.ShloMosaic.Lib.Pipeline.Kit

/-! The similarity region's proof data.

The region's grid is 8 row blocks by 8 column tiles, visited row block by row block. Its four scratch columns carry
the online-softmax statistics (running maximum, rescaled sum of exponentials, target-weighted sum, positives count)
from one column tile to the next, so the region's invariant names their contents: after point `n` they hold
`acc0` of the blocks the points up to `n` were handed. Each output window's staging buffer is overwritten with the
scratch contents at every point, so after point `t` it holds the same statistics; the pipeline writes it back when
the row block changes. The body obligation is the body's triple at the point's case. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
-- the core's unscoped buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The scratch columns as memrefs, and as the list the region's scoped rest is split at. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scL0 : List (Ref sig .tc) := [cc0_scratch0, cc0_scratch1, cc0_scratch2, cc0_scratch3]

/-- The class invariant with the scratch columns taken out of the scoped rest, each owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c scL0) ∗ (∃ r, prngReg c r)) := by
  unfold Pipeline.ΦA
  rw [Pipeline.scopedRest_split_of_list spec0 c scL0 (by decide) (by decide)]
  simp only [scM0_0, scM0_1, scM0_2, scM0_3, owns_whole]; try rfl

/-- The statistics after point `n`, from the blocks the region's windows hold at each point. -/
theorem N0eq : cfg0.N = 64 := N_0

def stat0 (c : Dev nD) (n : ℕ) (h : n < cfg0.N) : St0 F :=
  acc0 (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) n (lt_of_lt_of_eq h N0eq)

theorem stat0_reset (c : Dev nD) (t : Fin cfg0.N) (h : t.val % 8 = 0) :
    stat0 V c t.val t.isLt = step0 (grid0.coords t) (iblk0 V c 0 t) (iblk0 V c 1 t) (iblk0 V c 2 t) (iblk0 V c 3 t) (init0 (F := F)) :=
  acc0_reset (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) (Fin.cast N0eq t) h

theorem stat0_cont (c : Dev nD) (t : Fin cfg0.N) (h : ¬ t.val % 8 = 0) :
    stat0 V c t.val t.isLt = step0 (grid0.coords t) (iblk0 V c 0 t) (iblk0 V c 1 t) (iblk0 V c 2 t) (iblk0 V c 3 t) (stat0 V c (t.val - 1) (Nat.lt_of_le_of_lt (Nat.sub_le _ _) t.isLt)) :=
  acc0_cont (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) (Fin.cast N0eq t) h

/-- The region invariant before position `n`: before the first point the class's; afterwards the scratch columns at the
    statistics the point before left, the rest of the scoped buffers and the generator register at anything. -/
def PhiS0 (c : Dev nD) : (n : ℕ) → n ≤ cfg0.N → sProp 𝕄
  | 0, _ => Pipeline.ΦA spec0 c
  | n + 1, hn => iprop(((owns (c : Thread nD τ) scM0_0 fullShare (stat0 V c n hn).1 ∗ owns (c : Thread nD τ) scM0_1 fullShare (stat0 V c n hn).2.1 ∗ owns (c : Thread nD τ) scM0_2 fullShare (stat0 V c n hn).2.2.1 ∗ owns (c : Thread nD τ) scM0_3 fullShare (stat0 V c n hn).2.2.2)
          ∗ Pipeline.scopedRestBut (Ix := Unit) (Name := ℕ) (U := UR sig nD τ) (Lvl := ℕ) (Val := Elt F) spec0 c scL0) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (stat0 V c n hn).1 ∗ owns (c : Thread nD τ) scM0_1 fullShare (stat0 V c n hn).2.1 ∗ owns (c : Thread nD τ) scM0_2 fullShare (stat0 V c n hn).2.2.1 ∗ owns (c : Thread nD τ) scM0_3 fullShare (stat0 V c n hn).2.2.2)
          ∗ Pipeline.scopedRestBut (Ix := Unit) (Name := ℕ) (U := UR sig nD τ) (Lvl := ℕ) (Val := Elt F) spec0 c scL0) ∗ (∃ r, prngReg c r)) := rfl

theorem PhiS0_pos (c : Dev nD) (n : ℕ) (h : n ≤ cfg0.N) (hz : n ≠ 0) :
    PhiS0 V c n h = iprop(((owns (c : Thread nD τ) scM0_0 fullShare (stat0 V c (n - 1) (by omega)).1 ∗ owns (c : Thread nD τ) scM0_1 fullShare (stat0 V c (n - 1) (by omega)).2.1 ∗ owns (c : Thread nD τ) scM0_2 fullShare (stat0 V c (n - 1) (by omega)).2.2.1 ∗ owns (c : Thread nD τ) scM0_3 fullShare (stat0 V c (n - 1) (by omega)).2.2.2)
          ∗ Pipeline.scopedRestBut (Ix := Unit) (Name := ℕ) (U := UR sig nD τ) (Lvl := ℕ) (Val := Elt F) spec0 c scL0) ∗ (∃ r, prngReg c r)) := by
  cases n with
  | zero => exact absurd rfl hz
  | succ n => rfl

/-- The proof data of the region on core `c`: the arrays as the region finds them; after the body at point `t` each
    input's buffer at its block and each output's at the statistics after that point; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (stat0 V c t.val t.isLt).1
    | ⟨5, _⟩ => (stat0 V c t.val t.isLt).2.1
    | ⟨6, _⟩ => (stat0 V c t.val t.isLt).2.2.1
    | ⟨7, _⟩ => (stat0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (stat0 V c t.val t.isLt).1 := by dsimp only [dat0]
theorem after0_5 (c : Dev nD) (t : Fin cfg0.N) : (dat0 V c).after 5 t = (stat0 V c t.val t.isLt).2.1 := by dsimp only [dat0]
theorem after0_6 (c : Dev nD) (t : Fin cfg0.N) : (dat0 V c).after 6 t = (stat0 V c t.val t.isLt).2.2.1 := by dsimp only [dat0]
theorem after0_7 (c : Dev nD) (t : Fin cfg0.N) : (dat0 V c).after 7 t = (stat0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The body's branch is taken exactly at the first column tile of a row block. -/
theorem hcond0 : ∀ t : Fin cfg0.N, cond0 (grid0.coords t) ↔ t.val % 8 = 0 :=
  (by decide +kernel : ∀ t : Fin grid0.N, cond0 (grid0.coords t) ↔ t.val % 8 = 0)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the input buffers hold their blocks; at the first column tile of a row block the scratch
    columns hold anything and the body resets them, at a later tile they hold the statistics of the point before; the
    body leaves the new statistics in the scratch columns and in the output buffers. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val % 8 = 0
  · rw [stat0_reset V c t h0]
    have hpre : (dat0 V c).Φ t.castSucc ⊢ (iprop((((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c scL0) ∗ (∃ r, prngReg c r)) : sProp 𝕄) := by
      by_cases hz : t.val = 0
      · rw [PhiS0_castSucc V c t, PhiS0_zero V c _ _ hz, PhiA0_eq]
      · rw [PhiS0_castSucc V c t, PhiS0_pos V c _ _ hz]
        iintro ⟨⟨⟨HS0, HS1, HS2, HS3⟩, Hr⟩, Hg⟩
        isplitr [Hg]; swap; · iexact Hg
        isplitr [Hr]; swap; · iexact Hr
        isplitl [HS0]; · iexists _; iexact HS0
        isplitl [HS1]; · iexists _; iexact HS1
        isplitl [HS2]; · iexists _; iexact HS2
        iexists _; iexact HS3
    iintro ⟨HΦ, Ho, ⟨%d0, H0⟩, ⟨%d1, H1⟩, ⟨%d2, H2⟩, ⟨%d3, H3⟩, ⟨%e4, H4⟩, ⟨%e5, H5⟩, ⟨%e6, H6⟩, ⟨%e7, H7⟩⟩
    ihave HΦ' := hpre $$ HΦ
    icases HΦ' with ⟨⟨⟨HS0, HS1, HS2, HS3⟩, Hr⟩, Hg⟩
    iapply (body0_first c (grid0.coords t) _ _ _ _ _ _ _ _ _ _ _ _ _ _ _ _ _ _ _ _ _ _ _ _ ((hcond0 t).mpr h0) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr Hg]
    · isplitr [Hg]; swap; · iexact Hg
      isplitr [Hr]; swap; · iexact Hr
      isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [stat0_cont V c t h0]
    have hz : t.val ≠ 0 := fun h => h0 (by rw [h])
    rw [PhiS0_castSucc V c t, PhiS0_pos V c _ _ hz]
    iintro ⟨⟨⟨⟨HS0, HS1, HS2, HS3⟩, Hr⟩, Hg⟩, Ho, ⟨%d0, H0⟩, ⟨%d1, H1⟩, ⟨%d2, H2⟩, ⟨%d3, H3⟩, ⟨%e4, H4⟩, ⟨%e5, H5⟩, ⟨%e6, H6⟩, ⟨%e7, H7⟩⟩
    iapply (body0_later c (grid0.coords t) _ _ _ _ _ _ _ _ _ _ _ _ _ _ _ _ _ _ _ _ _ _ _ _ (fun h => h0 ((hcond0 t).mp h)) (iblk0 V c 0 t) (iblk0 V c 1 t) (iblk0 V c 2 t) (iblk0 V c 3 t)
      (stat0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr Hg]
    · isplitr [Hg]; swap; · iexact Hg
      isplitr [Hr]; swap; · iexact Hr
      isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch columns' contents are forgotten. -/
theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N0eq; omega), PhiA0_eq]
  iintro ⟨⟨⟨HS0, HS1, HS2, HS3⟩, Hr⟩, Hg⟩
  isplitr [Hg]; swap; · iexact Hg
  isplitr [Hr]; swap; · iexact Hr
  isplitl [HS0]; · iexists _; iexact HS0
  isplitl [HS1]; · iexists _; iexact HS1
  isplitl [HS2]; · iexists _; iexact HS2
  iexists _; iexact HS3

end

end Cert.KernelIdeal.Hand

end
-- ==== Proof.Body1.lean ====
import proofs.«174317_j67869073212268_1_alg».proof.Proof.Acc
import proofs.«174317_j67869073212268_1_alg».proof.Proof.LibWholeStore
import proofs.«174317_j67869073212268_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The memory-bank kernel's body on whole staging buffers.

At a point whose column tile is the first, the body resets its three scratch columns and then adds the tile's row
sums to them; at any other point it adds to what the point before left. Either way it ends with the three scratch
columns at `step1` of the two input blocks and of the statistics it started from, and copies them into the three
output blocks. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The zero offsets of a rank-two rectangle. -/
theorem hz2 : (![0, 0] : Fin 2 → ℕ) = fun _ => 0 := View.zero_offsets_two

/-- The body's one branch: the column tile is the first of its row block. -/
abbrev cond1 (i : grid1.Coords) : Prop := (Scalar.cmpi .ne (Scalar.extui (Scalar.cmpi .eq (BitVec.ofNat 32 (i 1).val) 0#32)) 0#32) = 1#1

set_option maxHeartbeats 4000000 in
/-- A later column tile: the scratch columns hold the statistics `a` of the tiles before. -/
theorem body1_later (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc : ¬cond1 i) (x0 x1 : Vec F S512x1024 .f32) (a : St1 F) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a.1 ∗ owns (c : Thread nD τ) arg8 fullShare a.2.1 ∗ owns (c : Thread nD τ) arg9 fullShare a.2.2
        ∗ (iprop(owns (c : Thread nD τ) arg2 fullShare x0 ∗ owns (c : Thread nD τ) arg3 fullShare x1
            ∗ owns (c : Thread nD τ) arg4 fullShare (step1 x0 x1 a).1 ∗ owns (c : Thread nD τ) arg5 fullShare (step1 x0 x1 a).2.1 ∗ owns (c : Thread nD τ) arg6 fullShare (step1 x0 x1 a).2.2
            ∗ owns (c : Thread nD τ) arg7 fullShare (step1 x0 x1 a).1 ∗ owns (c : Thread nD τ) arg8 fullShare (step1 x0 x1 a).2.1 ∗ owns (c : Thread nD τ) arg9 fullShare (step1 x0 x1 a).2.2) -∗ K ⟨⟩))
      ⊢ wp frame (wpE (defs₀ (F := F)) Variants.none c none) E (cc1__mem_kernel i arg2 harg2 arg3 harg3 arg4 harg4 arg5 harg5 arg6 harg6 arg7 harg7 arg8 harg8 arg9 harg9) K := by
  obtain ⟨s0, s1, s2⟩ := a
  simp only [cc1__mem_kernel_eq_skeleton]; unfold cc1__mem_kernel_skel
  unfold owns
  iintro ⟨⟨%f0, %hf0, H0⟩, ⟨%f1, %hf1, H1⟩, ⟨%d4, %f4, %hf4, H4⟩, ⟨%d5, %f5, %hf5, H5⟩, ⟨%d6, %f6, %hf6, H6⟩, ⟨%f7, %hf7, H7⟩, ⟨%f8, %hf8, H8⟩, ⟨%f9, %hf9, H9⟩, Hk⟩
  obtain rfl := harg2.eq_unread hf0; obtain rfl := harg3.eq_unread hf1
  obtain rfl := harg7.eq_unread hf7; obtain rfl := harg8.eq_unread hf8; obtain rfl := harg9.eq_unread hf9
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_unit_zero _ _ hz2]
    rw [View.readCov_unit_zero _ hz2]
    simp only [step1, k1_pay4, View.readAt_eq_ld, harg7.read_unread, harg2.read_unread, harg3.read_unread, View.ld_unit_zero (S := S512x1) hz2, View.ld_unit_zero (S := S512x1024) hz2]
  isplitl [H5]
  · iexists _; isplitr
    swap; · iexact H5
    ipureintro
    sl_unfold_words
    rw [View.read_writes_unit_zero _ _ hz2]
    rw [View.readCov_unit_zero _ hz2]
    simp only [step1, k1_pay5, View.readAt_eq_ld, harg8.read_unread, harg2.read_unread, harg3.read_unread, View.ld_unit_zero (S := S512x1) hz2, View.ld_unit_zero (S := S512x1024) hz2]
  isplitl [H6]
  · iexists _; isplitr
    swap; · iexact H6
    ipureintro
    sl_unfold_words
    rw [View.read_writes_unit_zero _ _ hz2]
    rw [View.readCov_unit_zero _ hz2]
    simp only [step1, k1_pay6, View.readAt_eq_ld, harg9.read_unread, harg2.read_unread, harg3.read_unread, View.ld_unit_zero (S := S512x1) hz2, View.ld_unit_zero (S := S512x1024) hz2]
  isplitl [H7]
  · iexists _; isplitr
    swap; · iexact H7
    ipureintro
    sl_unfold_words
    rw [View.read_writes_unit_zero _ _ hz2]
    simp only [step1, k1_pay4, View.readAt_eq_ld, harg7.read_unread, harg2.read_unread, harg3.read_unread, View.ld_unit_zero (S := S512x1) hz2, View.ld_unit_zero (S := S512x1024) hz2]
  isplitl [H8]
  · iexists _; isplitr
    swap; · iexact H8
    ipureintro
    sl_unfold_words
    rw [View.read_writes_unit_zero _ _ hz2]
    simp only [step1, k1_pay5, View.readAt_eq_ld, harg8.read_unread, harg2.read_unread, harg3.read_unread, View.ld_unit_zero (S := S512x1) hz2, View.ld_unit_zero (S := S512x1024) hz2]
  · iexists _; isplitr
    swap; · iexact H9
    ipureintro
    sl_unfold_words
    rw [View.read_writes_unit_zero _ _ hz2]
    simp only [step1, k1_pay6, View.readAt_eq_ld, harg9.read_unread, harg2.read_unread, harg3.read_unread, View.ld_unit_zero (S := S512x1) hz2, View.ld_unit_zero (S := S512x1024) hz2]

set_option maxHeartbeats 4000000 in
/-- The first column tile of a row block: the scratch columns hold anything and are reset to `init1` first. -/
theorem body1_first (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc : cond1 i) (x0 x1 : Vec F S512x1024 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare (step1 x0 x1 (init1 (F := F))).1 ∗ owns (c : Thread nD τ) arg5 fullShare (step1 x0 x1 (init1 (F := F))).2.1 ∗ owns (c : Thread nD τ) arg6 fullShare (step1 x0 x1 (init1 (F := F))).2.2
            ∗ owns (c : Thread nD τ) arg7 fullShare (step1 x0 x1 (init1 (F := F))).1 ∗ owns (c : Thread nD τ) arg8 fullShare (step1 x0 x1 (init1 (F := F))).2.1 ∗ owns (c : Thread nD τ) arg9 fullShare (step1 x0 x1 (init1 (F := F))).2.2) -∗ K ⟨⟩))
      ⊢ wp frame (wpE (defs₀ (F := F)) Variants.none c none) E (cc1__mem_kernel i arg2 harg2 arg3 harg3 arg4 harg4 arg5 harg5 arg6 harg6 arg7 harg7 arg8 harg8 arg9 harg9) K := by
  simp only [cc1__mem_kernel_eq_skeleton]; unfold cc1__mem_kernel_skel
  unfold owns
  iintro ⟨⟨%f0, %hf0, H0⟩, ⟨%f1, %hf1, H1⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg7.read_unread, harg2.read_unread, harg3.read_unread, View.ld_unit_zero (S := S512x1) hz2, View.ld_unit_zero (S := S512x1024) hz2]
  isplitl [H5]
  · iexists _; isplitr
    swap; · iexact H5
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg8.read_unread, harg2.read_unread, harg3.read_unread, View.ld_unit_zero (S := S512x1) hz2, View.ld_unit_zero (S := S512x1024) hz2]
  isplitl [H6]
  · iexists _; isplitr
    swap; · iexact H6
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg9.read_unread, harg2.read_unread, harg3.read_unread, View.ld_unit_zero (S := S512x1) hz2, View.ld_unit_zero (S := S512x1024) hz2]
  isplitl [H7]
  · iexists _; isplitr
    swap; · iexact H7
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg7.read_unread, harg2.read_unread, harg3.read_unread, View.ld_unit_zero (S := S512x1) hz2, View.ld_unit_zero (S := S512x1024) hz2]
  isplitl [H8]
  · iexists _; isplitr
    swap; · iexact H8
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg8.read_unread, harg2.read_unread, harg3.read_unread, View.ld_unit_zero (S := S512x1) hz2, View.ld_unit_zero (S := S512x1024) hz2]
  · iexists _; isplitr
    swap; · iexact H9
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg9.read_unread, harg2.read_unread, harg3.read_unread, View.ld_unit_zero (S := S512x1) hz2, View.ld_unit_zero (S := S512x1024) hz2]

end Cert.KernelIdeal.Hand

end
-- ==== Proof.Dat1.lean ====
import proofs.«174317_j67869073212268_1_alg».proof.Proof.Body1
import Idealize.ShloMosaic.Lib.Pipeline.Frame
import Idealize.ShloMosaic.Lib.Pipeline.Regions
import Idealize.ShloMosaic.Lib.Pipeline.Kit

/-! The memory-bank region's proof data.

The region's grid is 8 row blocks by 8 column tiles, visited row block by row block. Its three scratch columns carry
the row statistics from one column tile to the next, so the region's invariant names their contents: after point
`n` they hold `acc1` of the blocks the points up to `n` were handed. Each output window's staging buffer is
overwritten with the scratch contents at every point, so after point `t` it holds the same statistics; the pipeline
writes it back when the row block changes. The body obligation is the body's triple at the point's case. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
-- the core's unscoped buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scratch columns as memrefs, and as the list the region's scoped rest is split at. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2
abbrev scL1 : List (Ref sig .tc) := [cc1_scratch0, cc1_scratch1, cc1_scratch2]

/-- The class invariant with the scratch columns taken out of the scoped rest, each owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c scL1) ∗ (∃ r, prngReg c r)) := by
  unfold Pipeline.ΦA
  rw [Pipeline.scopedRest_split_of_list spec1 c scL1 (by decide) (by decide)]
  simp only [scM1_0, scM1_1, scM1_2, owns_whole]; try rfl

/-- The statistics after point `n`, from the blocks the region's windows hold at each point. -/
theorem N1eq : cfg1.N = 64 := N_1

def stat1 (c : Dev nD) (n : ℕ) (h : n < cfg1.N) : St1 F :=
  acc1 (fun t => iblk1 V c 0 (Fin.cast N1eq.symm t)) (fun t => iblk1 V c 1 (Fin.cast N1eq.symm t)) n (lt_of_lt_of_eq h N1eq)

theorem stat1_reset (c : Dev nD) (t : Fin cfg1.N) (h : t.val % 8 = 0) :
    stat1 V c t.val t.isLt = step1 (iblk1 V c 0 t) (iblk1 V c 1 t) (init1 (F := F)) :=
  acc1_reset (fun t => iblk1 V c 0 (Fin.cast N1eq.symm t)) (fun t => iblk1 V c 1 (Fin.cast N1eq.symm t)) (Fin.cast N1eq t) h

theorem stat1_cont (c : Dev nD) (t : Fin cfg1.N) (h : ¬ t.val % 8 = 0) :
    stat1 V c t.val t.isLt = step1 (iblk1 V c 0 t) (iblk1 V c 1 t) (stat1 V c (t.val - 1) (Nat.lt_of_le_of_lt (Nat.sub_le _ _) t.isLt)) :=
  acc1_cont (fun t => iblk1 V c 0 (Fin.cast N1eq.symm t)) (fun t => iblk1 V c 1 (Fin.cast N1eq.symm t)) (Fin.cast N1eq t) h

/-- The region invariant before position `n`: before the first point the class's; afterwards the scratch columns at the
    statistics the point before left, the rest of the scoped buffers and the generator register at anything. -/
def PhiS1 (c : Dev nD) : (n : ℕ) → n ≤ cfg1.N → sProp 𝕄
  | 0, _ => Pipeline.ΦA spec1 c
  | n + 1, hn => iprop(((owns (c : Thread nD τ) scM1_0 fullShare (stat1 V c n hn).1 ∗ owns (c : Thread nD τ) scM1_1 fullShare (stat1 V c n hn).2.1 ∗ owns (c : Thread nD τ) scM1_2 fullShare (stat1 V c n hn).2.2)
          ∗ Pipeline.scopedRestBut (Ix := Unit) (Name := ℕ) (U := UR sig nD τ) (Lvl := ℕ) (Val := Elt F) spec1 c scL1) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (stat1 V c n hn).1 ∗ owns (c : Thread nD τ) scM1_1 fullShare (stat1 V c n hn).2.1 ∗ owns (c : Thread nD τ) scM1_2 fullShare (stat1 V c n hn).2.2)
          ∗ Pipeline.scopedRestBut (Ix := Unit) (Name := ℕ) (U := UR sig nD τ) (Lvl := ℕ) (Val := Elt F) spec1 c scL1) ∗ (∃ r, prngReg c r)) := rfl

theorem PhiS1_pos (c : Dev nD) (n : ℕ) (h : n ≤ cfg1.N) (hz : n ≠ 0) :
    PhiS1 V c n h = iprop(((owns (c : Thread nD τ) scM1_0 fullShare (stat1 V c (n - 1) (by omega)).1 ∗ owns (c : Thread nD τ) scM1_1 fullShare (stat1 V c (n - 1) (by omega)).2.1 ∗ owns (c : Thread nD τ) scM1_2 fullShare (stat1 V c (n - 1) (by omega)).2.2)
          ∗ Pipeline.scopedRestBut (Ix := Unit) (Name := ℕ) (U := UR sig nD τ) (Lvl := ℕ) (Val := Elt F) spec1 c scL1) ∗ (∃ r, prngReg c r)) := by
  cases n with
  | zero => exact absurd rfl hz
  | succ n => rfl

/-- The proof data of the region on core `c`: the arrays as the region finds them; after the body at point `t` each
    input's buffer at its block and each output's at the statistics after that point; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (stat1 V c t.val t.isLt).1
    | ⟨3, _⟩ => (stat1 V c t.val t.isLt).2.1
    | ⟨4, _⟩ => (stat1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (stat1 V c t.val t.isLt).1 := by dsimp only [dat1]
theorem after1_3 (c : Dev nD) (t : Fin cfg1.N) : (dat1 V c).after 3 t = (stat1 V c t.val t.isLt).2.1 := by dsimp only [dat1]
theorem after1_4 (c : Dev nD) (t : Fin cfg1.N) : (dat1 V c).after 4 t = (stat1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The body's branch is taken exactly at the first column tile of a row block. -/
theorem hcond1 : ∀ t : Fin cfg1.N, cond1 (grid1.coords t) ↔ t.val % 8 = 0 :=
  (by decide +kernel : ∀ t : Fin grid1.N, cond1 (grid1.coords t) ↔ t.val % 8 = 0)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the input buffers hold their blocks; at the first column tile of a row block the scratch
    columns hold anything and the body resets them, at a later tile they hold the statistics of the point before; the
    body leaves the new statistics in the scratch columns and in the output buffers. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 8 = 0
  · rw [stat1_reset V c t h0]
    have hpre : (dat1 V c).Φ t.castSucc ⊢ (iprop((((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c scL1) ∗ (∃ r, prngReg c r)) : sProp 𝕄) := by
      by_cases hz : t.val = 0
      · rw [PhiS1_castSucc V c t, PhiS1_zero V c _ _ hz, PhiA1_eq]
      · rw [PhiS1_castSucc V c t, PhiS1_pos V c _ _ hz]
        iintro ⟨⟨⟨HS0, HS1, HS2⟩, Hr⟩, Hg⟩
        isplitr [Hg]; swap; · iexact Hg
        isplitr [Hr]; swap; · iexact Hr
        isplitl [HS0]; · iexists _; iexact HS0
        isplitl [HS1]; · iexists _; iexact HS1
        iexists _; iexact HS2
    iintro ⟨HΦ, Ho, ⟨%d0, H0⟩, ⟨%d1, H1⟩, ⟨%e2, H2⟩, ⟨%e3, H3⟩, ⟨%e4, H4⟩⟩
    ihave HΦ' := hpre $$ HΦ
    icases HΦ' with ⟨⟨⟨HS0, HS1, HS2⟩, Hr⟩, Hg⟩
    iapply (body1_first c (grid1.coords t) _ _ _ _ _ _ _ _ _ _ _ _ _ _ _ _ ((hcond1 t).mpr h0) (iblk1 V c 0 t) (iblk1 V c 1 t) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitr [Hg]; swap; · iexact Hg
      isplitr [Hr]; swap; · iexact Hr
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4
  · rw [stat1_cont V c t h0]
    have hz : t.val ≠ 0 := fun h => h0 (by rw [h])
    rw [PhiS1_castSucc V c t, PhiS1_pos V c _ _ hz]
    iintro ⟨⟨⟨⟨HS0, HS1, HS2⟩, Hr⟩, Hg⟩, Ho, ⟨%d0, H0⟩, ⟨%d1, H1⟩, ⟨%e2, H2⟩, ⟨%e3, H3⟩, ⟨%e4, H4⟩⟩
    iapply (body1_later c (grid1.coords t) _ _ _ _ _ _ _ _ _ _ _ _ _ _ _ _ (fun h => h0 ((hcond1 t).mp h)) (iblk1 V c 0 t) (iblk1 V c 1 t)
      (stat1 V c (t.val - 1) (Nat.lt_of_le_of_lt (Nat.sub_le _ _) t.isLt)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitr [Hg]; swap; · iexact Hg
      isplitr [Hr]; swap; · iexact Hr
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch columns' contents are forgotten. -/
theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N1eq; omega), PhiA1_eq]
  iintro ⟨⟨⟨HS0, HS1, HS2⟩, Hr⟩, Hg⟩
  isplitr [Hg]; swap; · iexact Hg
  isplitr [Hr]; swap; · iexact Hr
  isplitl [HS0]; · iexists _; iexact HS0
  isplitl [HS1]; · iexists _; iexact HS1
  iexists _; iexact HS2

end

end Cert.KernelIdeal.Hand

end
-- ==== Proof.Run.lean ====
import proofs.«174317_j67869073212268_1_alg».proof.Proof.Dat0
import proofs.«174317_j67869073212268_1_alg».proof.Proof.Dat1
import proofs.«174317_j67869073212268_1_alg».proof.Proof.Gen.KernelIdeal.Regions
import Idealize.ShloMosaic.Lib.Pipeline.RegionsLoop
import Idealize.ShloMosaic.Lib.Pipeline.FrameSuffix

/-! The kernel program's run: its two regions and two host stretches as segments, and the launch.

@main is a stretch of host operations (the row normalisation and the label reshapes), the similarity region, the
memory-bank region, and a stretch of host operations (the recombination of the row statistics into the loss). Between
segments the core's unscoped buffers are held at contents that are a fold from the launch memory: a host stretch
applies its operations, a region replaces its windows' arrays by what its write-backs leave. Each region is entered
from and left at that thread state; its invariant takes the scoped rest and the generator register in and gives them
back. The run's post reads every unscoped buffer at the last boundary's contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the similarity region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the similarity region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the memory-bank region's exit (no host operation stands between the two regions). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-- `main_arg0` reaches the end as launched: no host stretch writes it and no region's write-backs touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host stretch writes it and no region's write-backs touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host stretch writes it and no region's write-backs touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := (W3_arr m c 0).trans (((dat1 (V2 m) c).arrAt_in 0 rfl _).trans (A_eq1 (V2 m) c 0))
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host stretch writes it and no region's write-backs touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := (W3_arr m c 1).trans (((dat1 (V2 m) c).arrAt_in 1 rfl _).trans (A_eq1 (V2 m) c 1))
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers and put back at the exit contents; the generator register and the scoped rest go
    into the region's invariant and come back out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hΦ : (pdats m 0 c).Φ (Fin.last _) ⊢ Pipeline.ΦA spec0 c := Phi0_out (V1 m) c
    exact hΦ.trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers and put back at the exit contents; the generator register and the scoped rest go
    into the region's invariant and come back out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m 1 c).Φ (Fin.last _) ⊢ Pipeline.ΦA spec1 c := Phi1_out (V2 m) c
    exact hΦ.trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents `W4`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W4 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c _ (mem_uc b hb))

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W4_main_arg0 m c), (h c main_arg1 (by decide)).trans (W4_main_arg1 m c),
     (h c main_arg2 (by decide)).trans (W4_main_arg2 m c), (h c main_arg3 (by decide)).trans (W4_main_arg3 m c)⟩) (run_all m ρ)

end Cert.KernelIdeal.Hand

end
-- ==== Proof.ArrVal0.lean ====
import proofs.«174317_j67869073212268_1_alg».proof.Proof.Dat0
import Idealize.ShloMosaic.Lib.Pipeline.Frame
import Idealize.ShloMosaic.Lib.Pipeline.Regions
import Idealize.ShloMosaic.Lib.Pipeline.Kit
import Idealize.ShloMosaic.Lib.Pipeline.Value
import Idealize.ShloMosaic.Lib.ValueIdx

/-! From blocks to the arrays, for the similarity region.

The region's grid is 8 row blocks by 8 column tiles; point `t` is row block `t / 8`, column tile `t % 8`. The
row-blocked input windows (the normalized rows, the row labels) hold at point `t` rows `512 (t / 8) …` of their
arrays, the column-tiled ones (the transposed rows, the column labels) columns `512 (t % 8) …`: a block's coordinate
in the array is the block index times the block extent plus the coordinate inside the block. Each of the four output
columns of 4096 rows is written back one block of 512 rows at a time, at the last column tile of a row block, so after
the region row `r` holds what the point `8 (r / 512) + 7` left at row `r % 512` of the block: every point's
write-back is its block of that one whole-array function, and the eight flushed blocks cover the array. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

section
-- the core's unscoped buffer contents when the region is entered
variable (V : (c : Dev nD) → (b : Ref sig .tc) → Buf (Elt F) ((c : Thread nD τ).loc b))

/-! ## The windows' block indices over the grid -/

/-- Point `t` of the 8 × 8 grid is row block `t / 8`, column tile `t % 8`: the row-blocked windows sit at block
    `(t / 8, 0)`, the column-tiled ones at `(0, t % 8)`. -/
theorem idx0_in : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-! ## The input blocks at an entry -/

theorem blk0_0 (c : Dev nD) (t : Fin cfg0.N) (p : Fin 512) (d : Fin 1024) :
    iblk0 V c 0 t (ix2 p d) = (V c main_v8 : Vec F S4096x1024 .bf16)
      (ix2 (⟨512 * (t.val / 8) + p.val, by have := t.isLt; have : cfg0.N = 64 := N0eq; have := p.isLt; omega⟩ : Fin 4096) d) := by
  obtain ⟨e0, e1, -⟩ := idx0_in t
  show (V c main_v8 : Vec F S4096x1024 .bf16) (((cfg0.win 0).blk t).view.emb (ix2 p d)) = _
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 1024 + 1 * d.val = d.val; omega

theorem blk0_1 (c : Dev nD) (t : Fin cfg0.N) (d : Fin 1024) (q : Fin 512) :
    iblk0 V c 1 t (ix2 d q) = (V c main_v9 : Vec F S1024x4096 .bf16)
      (ix2 d (⟨512 * (t.val % 8) + q.val, by have := q.isLt; omega⟩ : Fin 4096)) := by
  obtain ⟨-, -, e0, e1, -⟩ := idx0_in t
  show (V c main_v9 : Vec F S1024x4096 .bf16) (((cfg0.win 1).blk t).view.emb (ix2 d q)) = _
  refine congrArg _ (funext fun a => Fin.ext ?_)
  match a with
  | ⟨0, _⟩ => show win0_1.index t (0 : Fin 2) * 1024 + 1 * d.val = d.val; omega
  | ⟨1, _⟩ => show win0_1.index t (1 : Fin 2) * 512 + 1 * q.val = 512 * (t.val % 8) + q.val; omega

theorem blk0_2 (c : Dev nD) (t : Fin cfg0.N) (p : Fin 512) :
    iblk0 V c 2 t (ix2 p (0 : Fin 1)) = (V c main_v10 : Vec F S4096x1 .i32)
      (ix2 (⟨512 * (t.val / 8) + p.val, by have := t.isLt; have : cfg0.N = 64 := N0eq; have := p.isLt; omega⟩ : Fin 4096) (0 : Fin 1)) := by
  obtain ⟨-, -, -, -, e0, e1, -⟩ := idx0_in t
  show (V c main_v10 : Vec F S4096x1 .i32) (((cfg0.win 2).blk t).view.emb (ix2 p (0 : Fin 1))) = _
  refine congrArg _ (funext fun a => Fin.ext ?_)
  match a with
  | ⟨0, _⟩ => show win0_2.index t (0 : Fin 2) * 512 + 1 * p.val = 512 * (t.val / 8) + p.val; omega
  | ⟨1, _⟩ => show win0_2.index t (1 : Fin 2) * 1 + 1 * 0 = 0; omega

theorem blk0_3 (c : Dev nD) (t : Fin cfg0.N) (q : Fin 512) :
    iblk0 V c 3 t (ix2 (0 : Fin 1) q) = (V c main_v11 : Vec F S1x4096 .i32)
      (ix2 (0 : Fin 1) (⟨512 * (t.val % 8) + q.val, by have := q.isLt; omega⟩ : Fin 4096)) := by
  obtain ⟨-, -, -, -, -, -, e0, e1⟩ := idx0_in t
  show (V c main_v11 : Vec F S1x4096 .i32) (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = 512 * (t.val % 8) + q.val; omega

end

/-! ## The output arrays after the region -/

/-- The output windows' blocks are the row blocks: block `(t / 8, 0)` at point `t`. -/
theorem idx0_out : ∀ t : Fin cfg0.N,
    (win0_4.index t (0 : Fin 2) = t.val / 8 ∧ win0_4.index t (1 : Fin 2) = 0)
    ∧ (win0_5.index t (0 : Fin 2) = t.val / 8 ∧ win0_5.index t (1 : Fin 2) = 0)
    ∧ (win0_6.index t (0 : Fin 2) = t.val / 8 ∧ win0_6.index t (1 : Fin 2) = 0)
    ∧ (win0_7.index t (0 : Fin 2) = t.val / 8 ∧ win0_7.index t (1 : Fin 2) = 0) :=
  (by decide +kernel : ∀ t : Fin grid0.N, _)

/-- A point-indexed family read at equal points and equal indices. -/
theorem stat_congr (S : (n : ℕ) → n < cfg0.N → Vec F S512x1 .f32) {n n' : ℕ} (e : n = n') (h : n < cfg0.N) (h' : n' < cfg0.N)
    {x x' : S512x1.Idx} (ex : x = x') : S n h x = S n' h' x' := by
  subst e; subst ex; rfl

section Out
variable {c : Dev nD} (dat : Dat τ (Elt F) Unit ℕ (UR sig nD τ) ℕ cfg0 c)

/-! ### Output window 4 -/

/-- Every point of a flushed block's rows reads its row block's last point: the whole-array contents. -/
def G0_4 (S : (n : ℕ) → n < cfg0.N → Vec F S512x1 .f32) : Vec F S4096x1 .f32 := fun i =>
  S (8 * ((i 0).val / 512) + 7) (by have := idx2_lt0 i; have : cfg0.N = 64 := N0eq; omega)
    (ix2 (⟨(i 0).val % 512, Nat.mod_lt _ (by decide)⟩ : Fin 512) (0 : Fin 1))

/-- WHAT A FLUSHING POINT WRITES BACK is its block of `G0_4`. -/
theorem flushed0_4_eq (S : (n : ℕ) → n < cfg0.N → Vec F S512x1 .f32) (hafter : ∀ t, dat.after 4 t = S t.val t.isLt)
    (t : Fin cfg0.N) (hf : t.val % 8 = 7) :
    dat.flushed 4 t = ((cfg0.win 4).blk t).view.read (Elt F) (G0_4 S) := by
  show dat.after 4 t = _
  rw [hafter]
  obtain ⟨e0, e1⟩ := (idx0_out t).1
  funext y
  show S t.val t.isLt y = G0_4 S (((cfg0.win 4).blk t).view.emb y)
  have hy0 : (y 0).val < 512 := (y 0).isLt
  have hy1 : (y 1).val < 1 := (y 1).isLt
  have h0 : ((((cfg0.win 4).blk t).view.emb y) 0).val = win0_4.index t (0 : Fin 2) * 512 + 1 * (y 0).val := rfl
  unfold G0_4
  refine stat_congr S ?_ _ _ (funext fun a => Fin.ext ?_)
  · rw [h0, e0]; omega
  · match a with
    | ⟨0, _⟩ => show (y 0).val = (win0_4.index t (0 : Fin 2) * 512 + 1 * (y 0).val) % 512; rw [e0]; omega
    | ⟨1, _⟩ => show (y 1).val = 0; omega

/-- An index of the array is in point `t`'s block iff each coordinate is in the block's range on its axis. -/
theorem mem_blk0_4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v12_0).slice (win0_4.rect t)).set ↔ _
  rw [View.set_slice_whole, Rect.mem_set_unit]
  exact Iff.rfl

/-- Row `r` is in the block the last point of its row block writes back. -/
theorem cover0_4 (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 64 := N0eq
  refine ⟨⟨8 * ((i 0).val / 512) + 7, by omega⟩, (flush0_4 _).mpr (by show (8 * ((i 0).val / 512) + 7) % 8 = 7; omega), ?_⟩
  rw [mem_blk0_4]
  obtain ⟨e0, e1⟩ := (idx0_out (⟨8 * ((i 0).val / 512) + 7, by omega⟩ : Fin cfg0.N)).1
  intro a
  match a with
  | ⟨0, _⟩ =>
    show win0_4.index _ (0 : Fin 2) * 512 ≤ (i 0).val ∧ (i 0).val < win0_4.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_4.index _ (1 : Fin 2) * 1 ≤ (i 1).val ∧ (i 1).val < win0_4.index _ (1 : Fin 2) * 1 + 1
    rw [e1]; omega

/-- THE ARRAY after the region, at row `r`: what the last point of `r`'s row block left, at `r`'s row inside the block. -/
theorem arr0_4_of (S : (n : ℕ) → n < cfg0.N → Vec F S512x1 .f32) (hafter : ∀ t, dat.after 4 t = S t.val t.isLt) (r : Fin 4096) :
    (dat.arrAt 4 cfg0.N : Vec F S4096x1 .f32) (ix2 r (0 : Fin 1))
      = S (8 * (r.val / 512) + 7) (by have := r.isLt; have : cfg0.N = 64 := N0eq; omega)
          (ix2 (⟨r.val % 512, Nat.mod_lt _ (by decide)⟩ : Fin 512) (0 : Fin 1)) := by
  rw [dat.arrAt_eq_of_cover 4 (G0_4 S) (fun t hf => flushed0_4_eq dat S hafter t ((flush0_4 t).mp hf)) cover0_4]
  rfl

/-! ### Output window 5 -/

/-- Every point of a flushed block's rows reads its row block's last point: the whole-array contents. -/
def G0_5 (S : (n : ℕ) → n < cfg0.N → Vec F S512x1 .f32) : Vec F S4096x1 .f32 := fun i =>
  S (8 * ((i 0).val / 512) + 7) (by have := idx2_lt0 i; have : cfg0.N = 64 := N0eq; omega)
    (ix2 (⟨(i 0).val % 512, Nat.mod_lt _ (by decide)⟩ : Fin 512) (0 : Fin 1))

/-- WHAT A FLUSHING POINT WRITES BACK is its block of `G0_5`. -/
theorem flushed0_5_eq (S : (n : ℕ) → n < cfg0.N → Vec F S512x1 .f32) (hafter : ∀ t, dat.after 5 t = S t.val t.isLt)
    (t : Fin cfg0.N) (hf : t.val % 8 = 7) :
    dat.flushed 5 t = ((cfg0.win 5).blk t).view.read (Elt F) (G0_5 S) := by
  show dat.after 5 t = _
  rw [hafter]
  obtain ⟨e0, e1⟩ := (idx0_out t).2.1
  funext y
  show S t.val t.isLt y = G0_5 S (((cfg0.win 5).blk t).view.emb y)
  have hy0 : (y 0).val < 512 := (y 0).isLt
  have hy1 : (y 1).val < 1 := (y 1).isLt
  have h0 : ((((cfg0.win 5).blk t).view.emb y) 0).val = win0_5.index t (0 : Fin 2) * 512 + 1 * (y 0).val := rfl
  unfold G0_5
  refine stat_congr S ?_ _ _ (funext fun a => Fin.ext ?_)
  · rw [h0, e0]; omega
  · match a with
    | ⟨0, _⟩ => show (y 0).val = (win0_5.index t (0 : Fin 2) * 512 + 1 * (y 0).val) % 512; rw [e0]; omega
    | ⟨1, _⟩ => show (y 1).val = 0; omega

/-- An index of the array is in point `t`'s block iff each coordinate is in the block's range on its axis. -/
theorem mem_blk0_5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v12_1).slice (win0_5.rect t)).set ↔ _
  rw [View.set_slice_whole, Rect.mem_set_unit]
  exact Iff.rfl

/-- Row `r` is in the block the last point of its row block writes back. -/
theorem cover0_5 (i : S4096x1.Idx) : ∃ t : Fin cfg0.N, (cfg0.win 5).flush t = true ∧ i ∈ ((cfg0.win 5).blk t).view.set := by
  have hi0 : (i 0).val < 4096 := idx2_lt0 i
  have hi1 : (i 1).val < 1 := idx2_lt1 i
  have hN : cfg0.N = 64 := N0eq
  refine ⟨⟨8 * ((i 0).val / 512) + 7, by omega⟩, (flush0_5 _).mpr (by show (8 * ((i 0).val / 512) + 7) % 8 = 7; omega), ?_⟩
  rw [mem_blk0_5]
  obtain ⟨e0, e1⟩ := (idx0_out (⟨8 * ((i 0).val / 512) + 7, by omega⟩ : Fin cfg0.N)).2.1
  intro a
  match a with
  | ⟨0, _⟩ =>
    show win0_5.index _ (0 : Fin 2) * 512 ≤ (i 0).val ∧ (i 0).val < win0_5.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_5.index _ (1 : Fin 2) * 1 ≤ (i 1).val ∧ (i 1).val < win0_5.index _ (1 : Fin 2) * 1 + 1
    rw [e1]; omega

/-- THE ARRAY after the region, at row `r`: what the last point of `r`'s row block left, at `r`'s row inside the block. -/
theorem arr0_5_of (S : (n : ℕ) → n < cfg0.N → Vec F S512x1 .f32) (hafter : ∀ t, dat.after 5 t = S t.val t.isLt) (r : Fin 4096) :
    (dat.arrAt 5 cfg0.N : Vec F S4096x1 .f32) (ix2 r (0 : Fin 1))
      = S (8 * (r.val / 512) + 7) (by have := r.isLt; have : cfg0.N = 64 := N0eq; omega)
          (ix2 (⟨r.val % 512, Nat.mod_lt _ (by decide)⟩ : Fin 512) (0 : Fin 1)) := by
  rw [dat.arrAt_eq_of_cover 5 (G0_5 S) (fun t hf => flushed0_5_eq dat S hafter t ((flush0_5 t).mp hf)) cover0_5]
  rfl

/-! ### Output window 6 -/

/-- Every point of a flushed block's rows reads its row block's last point: the whole-array contents. -/
def G0_6 (S : (n : ℕ) → n < cfg0.N → Vec F S512x1 .f32) : Vec F S4096x1 .f32 := fun i =>
  S (8 * ((i 0).val / 512) + 7) (by have := idx2_lt0 i; have : cfg0.N = 64 := N0eq; omega)
    (ix2 (⟨(i 0).val % 512, Nat.mod_lt _ (by decide)⟩ : Fin 512) (0 : Fin 1))

/-- WHAT A FLUSHING POINT WRITES BACK is its block of `G0_6`. -/
theorem flushed0_6_eq (S : (n : ℕ) → n < cfg0.N → Vec F S512x1 .f32) (hafter : ∀ t, dat.after 6 t = S t.val t.isLt)
    (t : Fin cfg0.N) (hf : t.val % 8 = 7) :
    dat.flushed 6 t = ((cfg0.win 6).blk t).view.read (Elt F) (G0_6 S) := by
  show dat.after 6 t = _
  rw [hafter]
  obtain ⟨e0, e1⟩ := (idx0_out t).2.2.1
  funext y
  show S t.val t.isLt y = G0_6 S (((cfg0.win 6).blk t).view.emb y)
  have hy0 : (y 0).val < 512 := (y 0).isLt
  have hy1 : (y 1).val < 1 := (y 1).isLt
  have h0 : ((((cfg0.win 6).blk t).view.emb y) 0).val = win0_6.index t (0 : Fin 2) * 512 + 1 * (y 0).val := rfl
  unfold G0_6
  refine stat_congr S ?_ _ _ (funext fun a => Fin.ext ?_)
  · rw [h0, e0]; omega
  · match a with
    | ⟨0, _⟩ => show (y 0).val = (win0_6.index t (0 : Fin 2) * 512 + 1 * (y 0).val) % 512; rw [e0]; omega
    | ⟨1, _⟩ => show (y 1).val = 0; omega

/-- An index of the array is in point `t`'s block iff each coordinate is in the block's range on its axis. -/
theorem mem_blk0_6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v12_2).slice (win0_6.rect t)).set ↔ _
  rw [View.set_slice_whole, Rect.mem_set_unit]
  exact Iff.rfl

/-- Row `r` is in the block the last point of its row block writes back. -/
theorem cover0_6 (i : S4096x1.Idx) : ∃ t : Fin cfg0.N, (cfg0.win 6).flush t = true ∧ i ∈ ((cfg0.win 6).blk t).view.set := by
  have hi0 : (i 0).val < 4096 := idx2_lt0 i
  have hi1 : (i 1).val < 1 := idx2_lt1 i
  have hN : cfg0.N = 64 := N0eq
  refine ⟨⟨8 * ((i 0).val / 512) + 7, by omega⟩, (flush0_6 _).mpr (by show (8 * ((i 0).val / 512) + 7) % 8 = 7; omega), ?_⟩
  rw [mem_blk0_6]
  obtain ⟨e0, e1⟩ := (idx0_out (⟨8 * ((i 0).val / 512) + 7, by omega⟩ : Fin cfg0.N)).2.2.1
  intro a
  match a with
  | ⟨0, _⟩ =>
    show win0_6.index _ (0 : Fin 2) * 512 ≤ (i 0).val ∧ (i 0).val < win0_6.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_6.index _ (1 : Fin 2) * 1 ≤ (i 1).val ∧ (i 1).val < win0_6.index _ (1 : Fin 2) * 1 + 1
    rw [e1]; omega

/-- THE ARRAY after the region, at row `r`: what the last point of `r`'s row block left, at `r`'s row inside the block. -/
theorem arr0_6_of (S : (n : ℕ) → n < cfg0.N → Vec F S512x1 .f32) (hafter : ∀ t, dat.after 6 t = S t.val t.isLt) (r : Fin 4096) :
    (dat.arrAt 6 cfg0.N : Vec F S4096x1 .f32) (ix2 r (0 : Fin 1))
      = S (8 * (r.val / 512) + 7) (by have := r.isLt; have : cfg0.N = 64 := N0eq; omega)
          (ix2 (⟨r.val % 512, Nat.mod_lt _ (by decide)⟩ : Fin 512) (0 : Fin 1)) := by
  rw [dat.arrAt_eq_of_cover 6 (G0_6 S) (fun t hf => flushed0_6_eq dat S hafter t ((flush0_6 t).mp hf)) cover0_6]
  rfl

/-! ### Output window 7 -/

/-- Every point of a flushed block's rows reads its row block's last point: the whole-array contents. -/
def G0_7 (S : (n : ℕ) → n < cfg0.N → Vec F S512x1 .f32) : Vec F S4096x1 .f32 := fun i =>
  S (8 * ((i 0).val / 512) + 7) (by have := idx2_lt0 i; have : cfg0.N = 64 := N0eq; omega)
    (ix2 (⟨(i 0).val % 512, Nat.mod_lt _ (by decide)⟩ : Fin 512) (0 : Fin 1))

/-- WHAT A FLUSHING POINT WRITES BACK is its block of `G0_7`. -/
theorem flushed0_7_eq (S : (n : ℕ) → n < cfg0.N → Vec F S512x1 .f32) (hafter : ∀ t, dat.after 7 t = S t.val t.isLt)
    (t : Fin cfg0.N) (hf : t.val % 8 = 7) :
    dat.flushed 7 t = ((cfg0.win 7).blk t).view.read (Elt F) (G0_7 S) := by
  show dat.after 7 t = _
  rw [hafter]
  obtain ⟨e0, e1⟩ := (idx0_out t).2.2.2
  funext y
  show S t.val t.isLt y = G0_7 S (((cfg0.win 7).blk t).view.emb y)
  have hy0 : (y 0).val < 512 := (y 0).isLt
  have hy1 : (y 1).val < 1 := (y 1).isLt
  have h0 : ((((cfg0.win 7).blk t).view.emb y) 0).val = win0_7.index t (0 : Fin 2) * 512 + 1 * (y 0).val := rfl
  unfold G0_7
  refine stat_congr S ?_ _ _ (funext fun a => Fin.ext ?_)
  · rw [h0, e0]; omega
  · match a with
    | ⟨0, _⟩ => show (y 0).val = (win0_7.index t (0 : Fin 2) * 512 + 1 * (y 0).val) % 512; rw [e0]; omega
    | ⟨1, _⟩ => show (y 1).val = 0; omega

/-- An index of the array is in point `t`'s block iff each coordinate is in the block's range on its axis. -/
theorem mem_blk0_7 (t : Fin cfg0.N) (i : S4096x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v12_3).slice (win0_7.rect t)).set ↔ _
  rw [View.set_slice_whole, Rect.mem_set_unit]
  exact Iff.rfl

/-- Row `r` is in the block the last point of its row block writes back. -/
theorem cover0_7 (i : S4096x1.Idx) : ∃ t : Fin cfg0.N, (cfg0.win 7).flush t = true ∧ i ∈ ((cfg0.win 7).blk t).view.set := by
  have hi0 : (i 0).val < 4096 := idx2_lt0 i
  have hi1 : (i 1).val < 1 := idx2_lt1 i
  have hN : cfg0.N = 64 := N0eq
  refine ⟨⟨8 * ((i 0).val / 512) + 7, by omega⟩, (flush0_7 _).mpr (by show (8 * ((i 0).val / 512) + 7) % 8 = 7; omega), ?_⟩
  rw [mem_blk0_7]
  obtain ⟨e0, e1⟩ := (idx0_out (⟨8 * ((i 0).val / 512) + 7, by omega⟩ : Fin cfg0.N)).2.2.2
  intro a
  match a with
  | ⟨0, _⟩ =>
    show win0_7.index _ (0 : Fin 2) * 512 ≤ (i 0).val ∧ (i 0).val < win0_7.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_7.index _ (1 : Fin 2) * 1 ≤ (i 1).val ∧ (i 1).val < win0_7.index _ (1 : Fin 2) * 1 + 1
    rw [e1]; omega

/-- THE ARRAY after the region, at row `r`: what the last point of `r`'s row block left, at `r`'s row inside the block. -/
theorem arr0_7_of (S : (n : ℕ) → n < cfg0.N → Vec F S512x1 .f32) (hafter : ∀ t, dat.after 7 t = S t.val t.isLt) (r : Fin 4096) :
    (dat.arrAt 7 cfg0.N : Vec F S4096x1 .f32) (ix2 r (0 : Fin 1))
      = S (8 * (r.val / 512) + 7) (by have := r.isLt; have : cfg0.N = 64 := N0eq; omega)
          (ix2 (⟨r.val % 512, Nat.mod_lt _ (by decide)⟩ : Fin 512) (0 : Fin 1)) := by
  rw [dat.arrAt_eq_of_cover 7 (G0_7 S) (fun t hf => flushed0_7_eq dat S hafter t ((flush0_7 t).mp hf)) cover0_7]
  rfl

end Out

/-! ## The region's own data -/

section
variable (V : (c : Dev nD) → (b : Ref sig .tc) → Buf (Elt F) ((c : Thread nD τ).loc b))

/-- Output column 0 after the region, at row `r`. -/
theorem arr0_4 (c : Dev nD) (r : Fin 4096) :
    ((dat0 V c).arrAt 4 cfg0.N : Vec F S4096x1 .f32) (ix2 r (0 : Fin 1))
      = (stat0 V c (8 * (r.val / 512) + 7) (by have := r.isLt; have : cfg0.N = 64 := N0eq; omega)).1
          (ix2 ⟨r.val % 512, Nat.mod_lt _ (by decide)⟩ (0 : Fin 1)) :=
  arr0_4_of (dat0 V c) (fun n h => (stat0 V c n h).1) (after0_4 V c) r

/-- Output column 1 after the region, at row `r`. -/
theorem arr0_5 (c : Dev nD) (r : Fin 4096) :
    ((dat0 V c).arrAt 5 cfg0.N : Vec F S4096x1 .f32) (ix2 r (0 : Fin 1))
      = (stat0 V c (8 * (r.val / 512) + 7) (by have := r.isLt; have : cfg0.N = 64 := N0eq; omega)).2.1
          (ix2 ⟨r.val % 512, Nat.mod_lt _ (by decide)⟩ (0 : Fin 1)) :=
  arr0_5_of (dat0 V c) (fun n h => (stat0 V c n h).2.1) (after0_5 V c) r

/-- Output column 2 after the region, at row `r`. -/
theorem arr0_6 (c : Dev nD) (r : Fin 4096) :
    ((dat0 V c).arrAt 6 cfg0.N : Vec F S4096x1 .f32) (ix2 r (0 : Fin 1))
      = (stat0 V c (8 * (r.val / 512) + 7) (by have := r.isLt; have : cfg0.N = 64 := N0eq; omega)).2.2.1
          (ix2 ⟨r.val % 512, Nat.mod_lt _ (by decide)⟩ (0 : Fin 1)) :=
  arr0_6_of (dat0 V c) (fun n h => (stat0 V c n h).2.2.1) (after0_6 V c) r

/-- Output column 3 after the region, at row `r`. -/
theorem arr0_7 (c : Dev nD) (r : Fin 4096) :
    ((dat0 V c).arrAt 7 cfg0.N : Vec F S4096x1 .f32) (ix2 r (0 : Fin 1))
      = (stat0 V c (8 * (r.val / 512) + 7) (by have := r.isLt; have : cfg0.N = 64 := N0eq; omega)).2.2.2
          (ix2 ⟨r.val % 512, Nat.mod_lt _ (by decide)⟩ (0 : Fin 1)) :=
  arr0_7_of (dat0 V c) (fun n h => (stat0 V c n h).2.2.2) (after0_7 V c) r

end

end Cert.KernelIdeal.Hand

end
-- ==== Proof.ArrVal1.lean ====
import proofs.«174317_j67869073212268_1_alg».proof.Proof.Dat1
import Idealize.ShloMosaic.Lib.Pipeline.Frame
import Idealize.ShloMosaic.Lib.Pipeline.Regions
import Idealize.ShloMosaic.Lib.Pipeline.Kit
import Idealize.ShloMosaic.Lib.Pipeline.Value
import Idealize.ShloMosaic.Lib.ValueIdx

/-! The memory-bank region, from blocks to arrays.

The region's grid is 8 row blocks by 8 column tiles; point `t` is row block `t / 8`, column tile `t % 8`. An input
window's block at point `t` is rows `512 (t / 8) …`, columns `1024 (t % 8) …` of its array. An output window's block is
rows `512 (t / 8) …` of its one-column array, written back at the last column tile of each row block, so after the
region row `r` of each output array holds the statistic that the last point of row block `r / 512` left for row
`r % 512` of the block. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

section
variable (V : (c : Dev nD) → (b : Ref sig .tc) → Buf (Elt F) ((c : Thread nD τ).loc b))

/-! ## The input windows' blocks -/

/-- The input windows' block indices, decided over the grid: row block `t / 8`, column tile `t % 8`. -/
theorem idx1_in : ∀ t : Fin cfg1.N, win1_0.index t (0 : Fin 2) = t.val / 8 ∧ win1_0.index t (1 : Fin 2) = t.val % 8
    ∧ win1_1.index t (0 : Fin 2) = t.val / 8 ∧ win1_1.index t (1 : Fin 2) = t.val % 8 :=
  (by decide +kernel : ∀ t : Fin grid1.N, win1_0.index t (0 : Fin 2) = t.val / 8 ∧ win1_0.index t (1 : Fin 2) = t.val % 8
    ∧ win1_1.index t (0 : Fin 2) = t.val / 8 ∧ win1_1.index t (1 : Fin 2) = t.val % 8)

/-- The logits' block at point `t`, entry (p, k), is the array at row `512 (t / 8) + p`, column `1024 (t % 8) + k`. -/
theorem blk1_0 (c : Dev nD) (t : Fin cfg1.N) (p : Fin 512) (k : Fin 1024) :
    iblk1 V c 0 t (ix2 p k)
      = (V c main_arg2 : Vec F S4096x8192 .f32)
          (ix2 (⟨512 * (t.val / 8) + p.val, by have := t.isLt; have : cfg1.N = 64 := N1eq; omega⟩ : Fin 4096)
            (⟨1024 * (t.val % 8) + k.val, by omega⟩ : Fin 8192)) := by
  obtain ⟨e0, e1, -, -⟩ := idx1_in t
  unfold iblk1
  rw [View.read_apply]
  show V c main_arg2 (((cfg1.win 0).blk t).view.emb (ix2 p k)) = _
  refine congrArg (V c main_arg2) (funext fun a => Fin.ext ?_)
  match a with
  | ⟨0, _⟩ => show win1_0.index t (0 : Fin 2) * 512 + 1 * p.val = 512 * (t.val / 8) + p.val; rw [e0]; omega
  | ⟨1, _⟩ => show win1_0.index t (1 : Fin 2) * 1024 + 1 * k.val = 1024 * (t.val % 8) + k.val; rw [e1]; omega

/-- The targets' block at point `t`, entry (p, k), likewise. -/
theorem blk1_1 (c : Dev nD) (t : Fin cfg1.N) (p : Fin 512) (k : Fin 1024) :
    iblk1 V c 1 t (ix2 p k)
      = (V c main_arg3 : Vec F S4096x8192 .f32)
          (ix2 (⟨512 * (t.val / 8) + p.val, by have := t.isLt; have : cfg1.N = 64 := N1eq; omega⟩ : Fin 4096)
            (⟨1024 * (t.val % 8) + k.val, by omega⟩ : Fin 8192)) := by
  obtain ⟨-, -, e0, e1⟩ := idx1_in t
  unfold iblk1
  rw [View.read_apply]
  show V c main_arg3 (((cfg1.win 1).blk t).view.emb (ix2 p k)) = _
  refine congrArg (V c main_arg3) (funext fun a => Fin.ext ?_)
  match a with
  | ⟨0, _⟩ => show win1_1.index t (0 : Fin 2) * 512 + 1 * p.val = 512 * (t.val / 8) + p.val; rw [e0]; omega
  | ⟨1, _⟩ => show win1_1.index t (1 : Fin 2) * 1024 + 1 * k.val = 1024 * (t.val % 8) + k.val; rw [e1]; omega

/-! ## The output windows' arrays -/

theorem stat1_congr (c : Dev nD) {n n' : ℕ} (e : n = n') (h : n < cfg1.N) (h' : n' < cfg1.N) :
    stat1 V c n h = stat1 V c n' h' := by
  subst e; rfl

/-- The output windows' block indices, decided over the grid: row block `t / 8` of the one column. -/
theorem idx1_out_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx1_out_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)
theorem idx1_out_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- What output array 0 ends holding: at row `r`, the sum of exponentials that the last point of row block `r / 512` left for row
    `r % 512` of the block. -/
def G1_2 (c : Dev nD) : S4096x1.Idx → Elt F .f32 := fun i =>
  (stat1 V c (8 * ((i 0).val / 512) + 7) (by have : (i 0).val < 4096 := (i 0).isLt; have : cfg1.N = 64 := N1eq; omega)).1
    (ix2 (⟨(i 0).val % 512, Nat.mod_lt _ (by decide)⟩ : Fin 512) (0 : Fin 1))

/-- `G1_2` at a row of row block `n / 8`, for a point `n` that is the last column tile of its row block. -/
theorem G1_2_at (c : Dev nD) (n : ℕ) (hn : n < cfg1.N) (h7 : n % 8 = 7) (q : Fin 512) (u : Fin 1) (i : S4096x1.Idx)
    (hi : (i 0).val = 512 * (n / 8) + q.val) : G1_2 V c i = (stat1 V c n hn).1 (ix2 q u) := by
  have e1 : 8 * ((i 0).val / 512) + 7 = n := by have := q.isLt; omega
  have e2 : (i 0).val % 512 = q.val := by have := q.isLt; omega
  have eu : (0 : Fin 1) = u := Subsingleton.elim _ _
  unfold G1_2
  rw [stat1_congr V c e1 _ hn]
  exact congrArg ((stat1 V c n hn).1) (congrArg₂ (ix2 (n0 := 512) (n1 := 1)) (Fin.ext e2) eu)

/-- What a flushing point writes back to output array 0 is its block of `G1_2`. -/
theorem flushed1_2_eq (c : Dev nD) (t : Fin cfg1.N) (hf : (cfg1.win 2).flush t = true) :
    (dat1 V c).flushed 2 t = ((cfg1.win 2).blk t).view.read (Elt F) (G1_2 V c) := by
  have h7 : t.val % 8 = 7 := (flush1_2 t).mp hf
  obtain ⟨e0, -⟩ := idx1_out_2 t
  show (cfg1.win 2).cut (grid1.coords t) ((dat1 V c).after 2 t) = _
  rw [after1_2]
  funext y
  obtain ⟨q, u, rfl⟩ : ∃ (q : Fin 512) (u : Fin 1), y = ix2 q u := ⟨y 0, y 1, eq_ix2 y⟩
  rw [View.read_apply]
  refine Eq.symm (G1_2_at V c t.val t.isLt h7 q u _ ?_)
  show win1_2.index t (0 : Fin 2) * 512 + 1 * q.val = 512 * (t.val / 8) + q.val
  rw [e0]; omega

/-- An index of output array 0 is in point `t`'s block iff each coordinate is in the block's range on its axis. -/
theorem mem_blk1_2 (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v13_0).slice (win1_2.rect t)).set ↔ _
  rw [View.set_slice_whole, Rect.mem_set_unit]
  exact Iff.rfl

/-- Output array 0 after the region, at row `r`: the sum of exponentials after the last column tile of row block `r / 512`,
    at row `r % 512` of the block. -/
theorem arr1_2 (c : Dev nD) (r : Fin 4096) :
    ((dat1 V c).arrAt 2 cfg1.N : Vec F S4096x1 .f32) (ix2 r (0 : Fin 1))
      = (stat1 V c (8 * (r.val / 512) + 7) (by have := r.isLt; have : cfg1.N = 64 := N1eq; omega)).1
          (ix2 (⟨r.val % 512, Nat.mod_lt _ (by decide)⟩ : Fin 512) (0 : Fin 1)) := by
  have hN : cfg1.N = 64 := N1eq
  have hr := r.isLt
  have ht : 8 * (r.val / 512) + 7 < cfg1.N := by omega
  obtain ⟨e0, e1⟩ := idx1_out_2 ⟨8 * (r.val / 512) + 7, ht⟩
  have hf : (cfg1.win 2).flush ⟨8 * (r.val / 512) + 7, ht⟩ = true :=
    (flush1_2 ⟨8 * (r.val / 512) + 7, ht⟩).mpr (by show (8 * (r.val / 512) + 7) % 8 = 7; omega)
  refine ((dat1 V c).arrAt_apply_of_mem 2 (G1_2 V c) (flushed1_2_eq V c) cfg1.N ⟨8 * (r.val / 512) + 7, ht⟩
    (ix2 r (0 : Fin 1)) ht hf ?_).trans rfl
  rw [mem_blk1_2]
  intro a
  match a with
  | ⟨0, _⟩ =>
    show win1_2.index ⟨8 * (r.val / 512) + 7, ht⟩ (0 : Fin 2) * 512 ≤ r.val
      ∧ r.val < win1_2.index ⟨8 * (r.val / 512) + 7, ht⟩ (0 : Fin 2) * 512 + 512
    rw [e0]; show (8 * (r.val / 512) + 7) / 8 * 512 ≤ r.val ∧ r.val < (8 * (r.val / 512) + 7) / 8 * 512 + 512; omega
  | ⟨1, _⟩ =>
    show win1_2.index ⟨8 * (r.val / 512) + 7, ht⟩ (1 : Fin 2) * 1 ≤ 0
      ∧ 0 < win1_2.index ⟨8 * (r.val / 512) + 7, ht⟩ (1 : Fin 2) * 1 + 1
    rw [e1]; omega

/-- What output array 1 ends holding: at row `r`, the target-weighted sum of logits that the last point of row block `r / 512` left for row
    `r % 512` of the block. -/
def G1_3 (c : Dev nD) : S4096x1.Idx → Elt F .f32 := fun i =>
  (stat1 V c (8 * ((i 0).val / 512) + 7) (by have : (i 0).val < 4096 := (i 0).isLt; have : cfg1.N = 64 := N1eq; omega)).2.1
    (ix2 (⟨(i 0).val % 512, Nat.mod_lt _ (by decide)⟩ : Fin 512) (0 : Fin 1))

/-- `G1_3` at a row of row block `n / 8`, for a point `n` that is the last column tile of its row block. -/
theorem G1_3_at (c : Dev nD) (n : ℕ) (hn : n < cfg1.N) (h7 : n % 8 = 7) (q : Fin 512) (u : Fin 1) (i : S4096x1.Idx)
    (hi : (i 0).val = 512 * (n / 8) + q.val) : G1_3 V c i = (stat1 V c n hn).2.1 (ix2 q u) := by
  have e1 : 8 * ((i 0).val / 512) + 7 = n := by have := q.isLt; omega
  have e2 : (i 0).val % 512 = q.val := by have := q.isLt; omega
  have eu : (0 : Fin 1) = u := Subsingleton.elim _ _
  unfold G1_3
  rw [stat1_congr V c e1 _ hn]
  exact congrArg ((stat1 V c n hn).2.1) (congrArg₂ (ix2 (n0 := 512) (n1 := 1)) (Fin.ext e2) eu)

/-- What a flushing point writes back to output array 1 is its block of `G1_3`. -/
theorem flushed1_3_eq (c : Dev nD) (t : Fin cfg1.N) (hf : (cfg1.win 3).flush t = true) :
    (dat1 V c).flushed 3 t = ((cfg1.win 3).blk t).view.read (Elt F) (G1_3 V c) := by
  have h7 : t.val % 8 = 7 := (flush1_3 t).mp hf
  obtain ⟨e0, -⟩ := idx1_out_3 t
  show (cfg1.win 3).cut (grid1.coords t) ((dat1 V c).after 3 t) = _
  rw [after1_3]
  funext y
  obtain ⟨q, u, rfl⟩ : ∃ (q : Fin 512) (u : Fin 1), y = ix2 q u := ⟨y 0, y 1, eq_ix2 y⟩
  rw [View.read_apply]
  refine Eq.symm (G1_3_at V c t.val t.isLt h7 q u _ ?_)
  show win1_3.index t (0 : Fin 2) * 512 + 1 * q.val = 512 * (t.val / 8) + q.val
  rw [e0]; omega

/-- An index of output array 1 is in point `t`'s block iff each coordinate is in the block's range on its axis. -/
theorem mem_blk1_3 (t : Fin cfg1.N) (i : S4096x1.Idx) :
    i ∈ ((cfg1.win 3).blk t).view.set ↔ ∀ a : Fin 2, win1_3.index t a * S512x1.size a ≤ (i a).val ∧ (i a).val < win1_3.index t a * S512x1.size a + S512x1.size a := by
  show i ∈ ((View.whole main_v13_1).slice (win1_3.rect t)).set ↔ _
  rw [View.set_slice_whole, Rect.mem_set_unit]
  exact Iff.rfl

/-- Output array 1 after the region, at row `r`: the target-weighted sum of logits after the last column tile of row block `r / 512`,
    at row `r % 512` of the block. -/
theorem arr1_3 (c : Dev nD) (r : Fin 4096) :
    ((dat1 V c).arrAt 3 cfg1.N : Vec F S4096x1 .f32) (ix2 r (0 : Fin 1))
      = (stat1 V c (8 * (r.val / 512) + 7) (by have := r.isLt; have : cfg1.N = 64 := N1eq; omega)).2.1
          (ix2 (⟨r.val % 512, Nat.mod_lt _ (by decide)⟩ : Fin 512) (0 : Fin 1)) := by
  have hN : cfg1.N = 64 := N1eq
  have hr := r.isLt
  have ht : 8 * (r.val / 512) + 7 < cfg1.N := by omega
  obtain ⟨e0, e1⟩ := idx1_out_3 ⟨8 * (r.val / 512) + 7, ht⟩
  have hf : (cfg1.win 3).flush ⟨8 * (r.val / 512) + 7, ht⟩ = true :=
    (flush1_3 ⟨8 * (r.val / 512) + 7, ht⟩).mpr (by show (8 * (r.val / 512) + 7) % 8 = 7; omega)
  refine ((dat1 V c).arrAt_apply_of_mem 3 (G1_3 V c) (flushed1_3_eq V c) cfg1.N ⟨8 * (r.val / 512) + 7, ht⟩
    (ix2 r (0 : Fin 1)) ht hf ?_).trans rfl
  rw [mem_blk1_3]
  intro a
  match a with
  | ⟨0, _⟩ =>
    show win1_3.index ⟨8 * (r.val / 512) + 7, ht⟩ (0 : Fin 2) * 512 ≤ r.val
      ∧ r.val < win1_3.index ⟨8 * (r.val / 512) + 7, ht⟩ (0 : Fin 2) * 512 + 512
    rw [e0]; show (8 * (r.val / 512) + 7) / 8 * 512 ≤ r.val ∧ r.val < (8 * (r.val / 512) + 7) / 8 * 512 + 512; omega
  | ⟨1, _⟩ =>
    show win1_3.index ⟨8 * (r.val / 512) + 7, ht⟩ (1 : Fin 2) * 1 ≤ 0
      ∧ 0 < win1_3.index ⟨8 * (r.val / 512) + 7, ht⟩ (1 : Fin 2) * 1 + 1
    rw [e1]; omega

/-- What output array 2 ends holding: at row `r`, the sum of targets that the last point of row block `r / 512` left for row
    `r % 512` of the block. -/
def G1_4 (c : Dev nD) : S4096x1.Idx → Elt F .f32 := fun i =>
  (stat1 V c (8 * ((i 0).val / 512) + 7) (by have : (i 0).val < 4096 := (i 0).isLt; have : cfg1.N = 64 := N1eq; omega)).2.2
    (ix2 (⟨(i 0).val % 512, Nat.mod_lt _ (by decide)⟩ : Fin 512) (0 : Fin 1))

/-- `G1_4` at a row of row block `n / 8`, for a point `n` that is the last column tile of its row block. -/
theorem G1_4_at (c : Dev nD) (n : ℕ) (hn : n < cfg1.N) (h7 : n % 8 = 7) (q : Fin 512) (u : Fin 1) (i : S4096x1.Idx)
    (hi : (i 0).val = 512 * (n / 8) + q.val) : G1_4 V c i = (stat1 V c n hn).2.2 (ix2 q u) := by
  have e1 : 8 * ((i 0).val / 512) + 7 = n := by have := q.isLt; omega
  have e2 : (i 0).val % 512 = q.val := by have := q.isLt; omega
  have eu : (0 : Fin 1) = u := Subsingleton.elim _ _
  unfold G1_4
  rw [stat1_congr V c e1 _ hn]
  exact congrArg ((stat1 V c n hn).2.2) (congrArg₂ (ix2 (n0 := 512) (n1 := 1)) (Fin.ext e2) eu)

/-- What a flushing point writes back to output array 2 is its block of `G1_4`. -/
theorem flushed1_4_eq (c : Dev nD) (t : Fin cfg1.N) (hf : (cfg1.win 4).flush t = true) :
    (dat1 V c).flushed 4 t = ((cfg1.win 4).blk t).view.read (Elt F) (G1_4 V c) := by
  have h7 : t.val % 8 = 7 := (flush1_4 t).mp hf
  obtain ⟨e0, -⟩ := idx1_out_4 t
  show (cfg1.win 4).cut (grid1.coords t) ((dat1 V c).after 4 t) = _
  rw [after1_4]
  funext y
  obtain ⟨q, u, rfl⟩ : ∃ (q : Fin 512) (u : Fin 1), y = ix2 q u := ⟨y 0, y 1, eq_ix2 y⟩
  rw [View.read_apply]
  refine Eq.symm (G1_4_at V c t.val t.isLt h7 q u _ ?_)
  show win1_4.index t (0 : Fin 2) * 512 + 1 * q.val = 512 * (t.val / 8) + q.val
  rw [e0]; omega

/-- An index of output array 2 is in point `t`'s block iff each coordinate is in the block's range on its axis. -/
theorem mem_blk1_4 (t : Fin cfg1.N) (i : S4096x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v13_2).slice (win1_4.rect t)).set ↔ _
  rw [View.set_slice_whole, Rect.mem_set_unit]
  exact Iff.rfl

/-- Output array 2 after the region, at row `r`: the sum of targets after the last column tile of row block `r / 512`,
    at row `r % 512` of the block. -/
theorem arr1_4 (c : Dev nD) (r : Fin 4096) :
    ((dat1 V c).arrAt 4 cfg1.N : Vec F S4096x1 .f32) (ix2 r (0 : Fin 1))
      = (stat1 V c (8 * (r.val / 512) + 7) (by have := r.isLt; have : cfg1.N = 64 := N1eq; omega)).2.2
          (ix2 (⟨r.val % 512, Nat.mod_lt _ (by decide)⟩ : Fin 512) (0 : Fin 1)) := by
  have hN : cfg1.N = 64 := N1eq
  have hr := r.isLt
  have ht : 8 * (r.val / 512) + 7 < cfg1.N := by omega
  obtain ⟨e0, e1⟩ := idx1_out_4 ⟨8 * (r.val / 512) + 7, ht⟩
  have hf : (cfg1.win 4).flush ⟨8 * (r.val / 512) + 7, ht⟩ = true :=
    (flush1_4 ⟨8 * (r.val / 512) + 7, ht⟩).mpr (by show (8 * (r.val / 512) + 7) % 8 = 7; omega)
  refine ((dat1 V c).arrAt_apply_of_mem 4 (G1_4 V c) (flushed1_4_eq V c) cfg1.N ⟨8 * (r.val / 512) + 7, ht⟩
    (ix2 r (0 : Fin 1)) ht hf ?_).trans rfl
  rw [mem_blk1_4]
  intro a
  match a with
  | ⟨0, _⟩ =>
    show win1_4.index ⟨8 * (r.val / 512) + 7, ht⟩ (0 : Fin 2) * 512 ≤ r.val
      ∧ r.val < win1_4.index ⟨8 * (r.val / 512) + 7, ht⟩ (0 : Fin 2) * 512 + 512
    rw [e0]; show (8 * (r.val / 512) + 7) / 8 * 512 ≤ r.val ∧ r.val < (8 * (r.val / 512) + 7) / 8 * 512 + 512; omega
  | ⟨1, _⟩ =>
    show win1_4.index ⟨8 * (r.val / 512) + 7, ht⟩ (1 : Fin 2) * 1 ≤ 0
      ∧ 0 < win1_4.index ⟨8 * (r.val / 512) + 7, ht⟩ (1 : Fin 2) * 1 + 1
    rw [e1]; omega

end

end Cert.KernelIdeal.Hand

end
-- ==== Proof.Val0Defs.lean ====
import proofs.«174317_j67869073212268_1_alg».proof.Proof.Acc
import Idealize.ShloMosaic.PureOps.Ideal
import Idealize.ShloMosaic.Lib.ValueIdx

/-! The similarity kernel's four row statistics in closed form, at the ideal values.

For a row r of the 4096 normalised rows: the scaled similarity to every column c (the inner product of row r with
column c of the transposed array, times the inverse temperature), the largest of them, the sum of the exponentials of their
distances to that largest one over the columns other than r itself, the sum of the similarities to the other columns that carry
r's label, and the number of those columns. The 4096 columns are addressed as 8 tiles of 512. -/

noncomputable section

open scoped BigOperators

namespace Cert.KernelIdeal.Val0

open Idealize.ShloMosaic Idealize.ShloMosaic.ValueIdx
open Cert.KernelIdeal

/-- The scaled similarity of row r to column c. -/
def S (A8 : Vec Ideal S4096x1024 .bf16) (A9 : Vec Ideal S1024x4096 .bf16) (r c : Fin 4096) : EReal :=
  (∑ d : Fin 1024, A8 (ix2 r d) * A9 (ix2 d c)) * ((134217728 / 9395241 : ℝ) : EReal)

/-- Column q of column tile j. -/
def col (j : Fin 8) (q : Fin 512) : Fin 4096 := ⟨512 * j.val + q.val, by omega⟩

/-- Row p of row block I. -/
def row (I : Fin 8) (p : Fin 512) : Fin 4096 := ⟨512 * I.val + p.val, by omega⟩

/-- The self mask: 0 on the diagonal, 1 elsewhere. -/
def sm (r c : Fin 4096) : EReal := if r = c then 0 else 1

/-- The label match: 1 where row r's label is column c's, 0 elsewhere. -/
def lm (L10 : Vec Ideal S4096x1 .i32) (L11 : Vec Ideal S1x4096 .i32) (r c : Fin 4096) : EReal :=
  if L10 (ix2 r (0 : Fin 1)) = L11 (ix2 (0 : Fin 1) c) then 1 else 0

/-- The row maximum of the scaled similarities: the largest over the tiles of the largest within a tile. -/
def kM (A8 : Vec Ideal S4096x1024 .bf16) (A9 : Vec Ideal S1024x4096 .bf16) (r : Fin 4096) : EReal :=
  Finset.univ.sup fun j : Fin 8 => Finset.univ.sup fun q : Fin 512 => S A8 A9 r (col j q)

/-- The sum of exponentials of the similarities' distances to the row maximum, off the diagonal. -/
def kE (A8 : Vec Ideal S4096x1024 .bf16) (A9 : Vec Ideal S1024x4096 .bf16) (r : Fin 4096) : EReal :=
  ∑ j : Fin 8, ∑ q : Fin 512, Ideal.exp (S A8 A9 r (col j q) - kM A8 A9 r) * sm r (col j q)

/-- The sum of the similarities to the other columns of the same label. -/
def kS (A8 : Vec Ideal S4096x1024 .bf16) (A9 : Vec Ideal S1024x4096 .bf16) (L10 : Vec Ideal S4096x1 .i32)
    (L11 : Vec Ideal S1x4096 .i32) (r : Fin 4096) : EReal :=
  ∑ j : Fin 8, ∑ q : Fin 512, (lm L10 L11 r (col j q) * sm r (col j q)) * S A8 A9 r (col j q)

/-- The number of other columns of the same label. -/
def kP (L10 : Vec Ideal S4096x1 .i32) (L11 : Vec Ideal S1x4096 .i32) (r : Fin 4096) : EReal :=
  ∑ j : Fin 8, ∑ q : Fin 512, lm L10 L11 r (col j q) * sm r (col j q)

end Cert.KernelIdeal.Val0

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Val0a.lean ====
import proofs.«174317_j67869073212268_1_alg».proof.Proof.Acc
import Idealize.ShloMosaic.PureOps.Ideal.Laws
import Idealize.ShloMosaic.Lib.ValueIdx
import Idealize.ShloMosaic.Lib.Pipeline.Value
import Idealize.ShloMosaic.Lib.ValueLayout
import proofs.«174317_j67869073212268_1_alg».proof.Proof.LibPlainMatmul

noncomputable section

open scoped BigOperators

namespace Cert.KernelIdeal.Val0

open Idealize.ShloMosaic Idealize.ShloMosaic.ValueIdx
open Cert.KernelIdeal Cert.KernelIdeal.Gen Cert.KernelIdeal.Hand

/-! The similarity kernel's payloads read at one entry, at the ideal values: the tile of scaled similarities, the reset values,
the new running maximum, the new rescaled sum of exponentials, the new weighted sum and the new count of positives, each at row p
of the block, as a function of the values at row p. -/

/-! ## Layout operations of a column of row statistics -/

/-- A vector [a] viewed as a column [a, 1] reads, at (i, u), the vector at i. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column at (p, 0). -/
theorem colSpread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a row reduction reads: row p, column q. -/
theorem lift_row (h : S512x512.Reduces [1] S512) (p q : Fin 512) : h.lift (ix1 p) q = ix2 p q := by
  funext a; refine Fin.ext ?_
  match a with
  | ⟨0, _⟩ => rfl
  | ⟨1, _⟩ => rfl

/-- A row sum kept as a column: at (p, 0), the sum over the row's 512 columns. -/
theorem rowSum_apply (v : FVec Ideal S512x512 .f32) (p : Fin 512) :
    shapeCast S512x1 (multiReduction (F := Ideal) .add [1] S512 v 0x00000000#32 reduces_S512x512_S512 (.inl rfl) rfl)
      shapeCasts_S512_S512x1 (ix2 p (0 : Fin 1)) = ∑ q : Fin 512, v (ix2 p q) := by
  rw [colCast_apply]
  refine (Ideal.multiReduction_add_single v 0x00000000#32 reduces_S512x512_S512 (.inl rfl) rfl (ix1 p)).trans ?_
  exact Finset.sum_congr rfl fun q _ => congrArg v (lift_row _ p q)

/-- The word 0xFF800000 is −∞. -/
theorem ofBits_neg_inf : Ideal.ofBits .f32 0xFF800000#32 = (⊥ : EReal) := by
  simp [Ideal.ofBits, Ideal.ieee]

/-- A row maximum kept as a column: at (p, 0), the largest of the row's 512 entries. -/
theorem rowMax_apply (v : FVec Ideal S512x512 .f32) (p : Fin 512) :
    shapeCast S512x1 (multiReduction (F := Ideal) .maximumf [1] S512 v 0xFF800000#32 reduces_S512x512_S512 (.inl rfl) rfl)
      shapeCasts_S512_S512x1 (ix2 p (0 : Fin 1)) = Finset.univ.sup fun q : Fin 512 => v (ix2 p q) := by
  rw [colCast_apply]
  refine (Ideal.multiReduction_maximumf_single v 0xFF800000#32 reduces_S512x512_S512 (.inl rfl) rfl (ix1 p)).trans ?_
  have hb : (FloatOps.ofBits (F := Ideal) .f32 0xFF800000#32) = (⊥ : EReal) := ofBits_neg_inf
  rw [hb]
  have hf : (v ∘ reduces_S512x512_S512.lift (ix1 p)) = fun q : Fin 512 => v (ix2 p q) :=
    funext fun q => congrArg v (lift_row _ p q)
  rw [hf]
  rfl

/-! ## The payloads read at an entry -/

/-- The named inverse temperature is the rational 134217728 / 9395241. -/
theorem invT_eq : Named.named (F := Ideal) κ "inv_temperature" (φ := .f32) 0x41649249#32 = ((134217728 / 9395241 : ℝ) : EReal) :=
  IdealRules.named_const.ideal_named_scalar _ _ _ _ rfl

/-- The tile of scaled similarities at (p, q): the inner product of row p and column q times the inverse temperature. -/
theorem pay5_apply (x0 : FVec Ideal S512x1024 .bf16) (x1 : FVec Ideal S1024x512 .bf16) (p q : Fin 512) :
    k0_pay5 (F := Ideal) x0 x1 (ix2 p q)
      = (∑ d : Fin 1024, x0 (ix2 p d) * x1 (ix2 d q)) * ((134217728 / 9395241 : ℝ) : EReal) := by
  have hm := Cert.Lib.PlainMatmul.apply dot_S512x1024_S1024x512_S512x512_1_0_0_1_n_n rfl rfl rfl rfl rfl rfl none x0 x1 p q
  unfold k0_pay5
  simp only [shapeCast_self]
  show _ * _ = _
  rw [← hm, ← invT_eq]
  rfl

/-- The reset values at (p, 0): −∞ for the maximum … -/
theorem pay1_apply (p : Fin 512) : k0_pay1 (F := Ideal) (ix2 p (0 : Fin 1)) = (⊥ : EReal) := by
  unfold k0_pay1
  simp only [shapeCast_self]
  exact ofBits_neg_inf

/-- … and zero for the three sums. -/
theorem pay2_apply (p : Fin 512) : k0_pay2 (F := Ideal) (ix2 p (0 : Fin 1)) = (0 : EReal) := by
  unfold k0_pay2
  simp only [shapeCast_self]
  exact Ideal.ofBits_zero_f32
theorem pay3_apply (p : Fin 512) : k0_pay3 (F := Ideal) (ix2 p (0 : Fin 1)) = (0 : EReal) := by
  unfold k0_pay3
  simp only [shapeCast_self]
  exact Ideal.ofBits_zero_f32
theorem pay4_apply (p : Fin 512) : k0_pay4 (F := Ideal) (ix2 p (0 : Fin 1)) = (0 : EReal) := by
  unfold k0_pay4
  simp only [shapeCast_self]
  exact Ideal.ofBits_zero_f32

/-- The new running maximum at (p, 0): the old one against the largest entry of row p of the tile. -/
theorem pay8_apply (x0 : FVec Ideal S512x1024 .bf16) (x1 : FVec Ideal S1024x512 .bf16) (am : FVec Ideal S512x1 .f32) (p : Fin 512) :
    k0_pay8 (F := Ideal) x0 x1 am (ix2 p (0 : Fin 1))
      = max (am (ix2 p (0 : Fin 1))) (Finset.univ.sup fun q : Fin 512 => k0_pay5 (F := Ideal) x0 x1 (ix2 p q)) := by
  unfold k0_pay8
  exact congrArg (max (am (ix2 p (0 : Fin 1)))) (rowMax_apply _ p)

/-- The stored maximum is the new maximum. -/
theorem pay12_eq (v36 : FVec Ideal S512x1 .f32) : k0_pay12 (F := Ideal) v36 = v36 := by
  unfold k0_pay12
  exact shapeCast_self _ _

/-- The new sum of exponentials at (p, 0). -/
theorem pay9_apply (v9 v22 : FVec Ideal S512x512 .f32) (v36 v37 v44 : FVec Ideal S512x1 .f32) (p : Fin 512) :
    k0_pay9 (F := Ideal) v9 v22 v36 v37 v44 (ix2 p (0 : Fin 1))
      = Ideal.exp (v37 (ix2 p (0 : Fin 1)) - v36 (ix2 p (0 : Fin 1))) * v44 (ix2 p (0 : Fin 1))
        + ∑ q : Fin 512, Ideal.exp (v9 (ix2 p q) - v36 (ix2 p (0 : Fin 1))) * v22 (ix2 p q) := by
  unfold k0_pay9
  simp only [shapeCast_self]
  refine (congrArg (Ideal.exp (v37 (ix2 p (0 : Fin 1)) - v36 (ix2 p (0 : Fin 1))) * v44 (ix2 p (0 : Fin 1)) + ·) (rowSum_apply _ p)).trans ?_
  refine congrArg (Ideal.exp (v37 (ix2 p (0 : Fin 1)) - v36 (ix2 p (0 : Fin 1))) * v44 (ix2 p (0 : Fin 1)) + ·) (Finset.sum_congr rfl fun q _ => ?_)
  show Ideal.exp (v9 (ix2 p q) - broadcastTo S512x512 v36 broadcasts_S512x1_S512x512 (ix2 p q)) * v22 (ix2 p q) = _
  rw [colSpread_apply]

/-- The new weighted sum at (p, 0). -/
theorem pay10_apply (v9 v32 : FVec Ideal S512x512 .f32) (v52 : FVec Ideal S512x1 .f32) (p : Fin 512) :
    k0_pay10 (F := Ideal) v9 v32 v52 (ix2 p (0 : Fin 1))
      = v52 (ix2 p (0 : Fin 1)) + ∑ q : Fin 512, v32 (ix2 p q) * v9 (ix2 p q) := by
  unfold k0_pay10
  simp only [shapeCast_self]
  exact congrArg (v52 (ix2 p (0 : Fin 1)) + ·) (rowSum_apply _ p)

/-- The new count of positives at (p, 0). -/
theorem pay11_apply (v32 : FVec Ideal S512x512 .f32) (v60 : FVec Ideal S512x1 .f32) (p : Fin 512) :
    k0_pay11 (F := Ideal) v32 v60 (ix2 p (0 : Fin 1)) = v60 (ix2 p (0 : Fin 1)) + ∑ q : Fin 512, v32 (ix2 p q) := by
  unfold k0_pay11
  simp only [shapeCast_self]
  exact congrArg (v60 (ix2 p (0 : Fin 1)) + ·) (rowSum_apply _ p)

end Cert.KernelIdeal.Val0
end
-- ==== Proof.Val0b.lean ====
import Idealize.ShloMosaic.PureOps.Ideal

/-! The online row maximum and rescaled sum of exponentials, over abstract tiles.

A row of similarities is cut into tiles `x : ι` of columns `q : κ`. For a set `A` of tiles already visited, `tM A` is the
largest entry seen and `tE A m` the sum of `exp (s − m) · μ` over the entries seen. Visiting one more tile `x` replaces the
maximum `m` by `m' = max m (the tile's maximum)` and the sum `E` by `exp (m − m') · E + (the tile's sum at m')`; because
`exp (m − m') · exp (s − m) = exp (s − m')` on real numbers, the result is again the one-pass sum at the new maximum. Before
the first tile the maximum is −∞ and the sum is zero, and the same step applies, as the old sum is zero. -/

noncomputable section

open scoped BigOperators

namespace Cert.KernelIdeal.Online

open Idealize.ShloMosaic

/-- The coercion of a finite sum of reals is the sum of the coercions. -/
theorem coe_sum {ι : Type*} (A : Finset ι) (f : ι → ℝ) : ((∑ i ∈ A, f i : ℝ) : EReal) = ∑ i ∈ A, (f i : EReal) := by
  classical
  induction A using Finset.induction_on with
  | empty => simp
  | insert a s ha ih => rw [Finset.sum_insert ha, Finset.sum_insert ha, EReal.coe_add, ih]

variable {ι κ : Type*} [DecidableEq ι] [Fintype κ] [Nonempty κ]

/-- The largest entry of the tiles in `A` (−∞ for no tile). -/
def tM (s : ι → κ → EReal) (A : Finset ι) : EReal := A.sup fun x => Finset.univ.sup fun q => s x q

/-- The sum of `exp (s − m) · μ` over the entries of the tiles in `A`. -/
def tE (s μ : ι → κ → EReal) (A : Finset ι) (m : EReal) : EReal := ∑ x ∈ A, ∑ q, Ideal.exp (s x q - m) * μ x q

theorem tM_empty (s : ι → κ → EReal) : tM s ∅ = ⊥ := Finset.sup_empty

/-- One more tile: the old maximum against the tile's. -/
theorem tM_insert (s : ι → κ → EReal) (A : Finset ι) (x : ι) :
    tM s (insert x A) = max (tM s A) (Finset.univ.sup fun q => s x q) := by
  unfold tM; rw [Finset.sup_insert]; exact max_comm _ _

/-- Over real entries the maximum of a non-empty set of tiles is a real number. -/
theorem tM_real (s : ι → κ → EReal) (hs : ∀ x q, ∃ r : ℝ, s x q = (r : EReal)) (A : Finset ι) (hA : A.Nonempty) :
    ∃ m : ℝ, tM s A = (m : EReal) := by
  obtain ⟨x, _, hx⟩ := Finset.exists_mem_eq_sup A hA fun x => Finset.univ.sup fun q => s x q
  obtain ⟨q, _, hq⟩ := Finset.exists_mem_eq_sup (Finset.univ : Finset κ) Finset.univ_nonempty fun q => s x q
  obtain ⟨r, hr⟩ := hs x q
  exact ⟨r, by unfold tM; rw [hx, hq, hr]⟩

/-- Moving the reference point of the exponentials from `a` to `b`, on real entries. -/
theorem tE_rescale (s μ : ι → κ → EReal) (hs : ∀ x q, ∃ r : ℝ, s x q = (r : EReal)) (hμ : ∀ x q, ∃ r : ℝ, μ x q = (r : EReal))
    (A : Finset ι) (a b : ℝ) : Ideal.exp ((a : EReal) - (b : EReal)) * tE s μ A a = tE s μ A b := by
  choose sR hsR using hs
  choose μR hμR using hμ
  unfold tE
  simp only [hsR, hμR, ← EReal.coe_sub, Ideal.exp_coe, ← EReal.coe_mul, ← coe_sum]
  congr 1
  rw [Finset.mul_sum]
  refine Finset.sum_congr rfl fun x _ => ?_
  rw [Finset.mul_sum]
  refine Finset.sum_congr rfl fun q _ => ?_
  rw [← mul_assoc, ← Real.exp_add]
  congr 2
  ring

/-- The sum at any reference point is a non-negative real, for real entries and non-negative real weights. -/
theorem tE_real (s μ : ι → κ → EReal) (hs : ∀ x q, ∃ r : ℝ, s x q = (r : EReal)) (hμ : ∀ x q, ∃ r : ℝ, 0 ≤ r ∧ μ x q = (r : EReal))
    (A : Finset ι) (m : ℝ) : ∃ e : ℝ, 0 ≤ e ∧ tE s μ A m = (e : EReal) := by
  choose sR hsR using hs
  choose μR hμ0 hμR using hμ
  refine ⟨∑ x ∈ A, ∑ q, Real.exp (sR x q - m) * μR x q, ?_, ?_⟩
  · exact Finset.sum_nonneg fun x _ => Finset.sum_nonneg fun q _ => mul_nonneg (Real.exp_pos _).le (hμ0 x q)
  · unfold tE
    simp only [hsR, hμR, ← EReal.coe_sub, Ideal.exp_coe, ← EReal.coe_mul, ← coe_sum]

/-- THE ONLINE STEP: the old sum rescaled to the new maximum plus the new tile's sum is the sum over all tiles at the new maximum. -/
theorem tE_step (s μ : ι → κ → EReal) (hs : ∀ x q, ∃ r : ℝ, s x q = (r : EReal)) (hμ : ∀ x q, ∃ r : ℝ, μ x q = (r : EReal))
    (A : Finset ι) (x : ι) (hx : x ∉ A) :
    Ideal.exp (tM s A - tM s (insert x A)) * tE s μ A (tM s A) + ∑ q, Ideal.exp (s x q - tM s (insert x A)) * μ x q
      = tE s μ (insert x A) (tM s (insert x A)) := by
  have hR : tE s μ (insert x A) (tM s (insert x A))
      = tE s μ A (tM s (insert x A)) + ∑ q, Ideal.exp (s x q - tM s (insert x A)) * μ x q := by
    unfold tE; rw [Finset.sum_insert hx, add_comm]
  rw [hR]
  congr 1
  rcases A.eq_empty_or_nonempty with rfl | hA
  · simp [tE]
  · obtain ⟨a, ha⟩ := tM_real s hs A hA
    obtain ⟨b, hb⟩ := tM_real s hs (insert x A) (Finset.insert_nonempty x A)
    rw [ha, hb]
    exact tE_rescale s μ hs hμ A a b

end Cert.KernelIdeal.Online

end
-- ==== Proof.Val0Mask.lean ====
import proofs.«174317_j67869073212268_1_alg».proof.Proof.Acc
import Idealize.ShloMosaic.Lib.ValueIdx
import Idealize.ShloMosaic.Lib.Pipeline.Value

/-! The similarity kernel's two masks, read at one element.

At grid point (I, j) the element (p, q) of the 512 × 512 tile sits at row 512·I + p and column 512·j + q of the full
similarity matrix. The first mask is 0 on the diagonal of the full matrix (row = column) and 1 elsewhere; the second
is the indicator that the row's label equals the column's label, times the first. Both row and column numbers are
below 4096, so their 32-bit words never wrap and comparing the words is comparing the naturals; a one-bit condition
widened to a word and converted to a float is 0 or 1. -/

noncomputable section

namespace Cert.KernelIdeal.Val0

open Idealize.ShloMosaic Idealize.ShloMosaic.ValueIdx Idealize.SL.Sem
open Cert.KernelIdeal Cert.KernelIdeal.Gen

/-- The word 512·a + p for a block number a < 8 and an offset p < 512: no product or sum wraps at 32 bits. -/
theorem word_lin (a p : ℕ) (ha : a < 8) (hp : p < 512) :
    IntOp.addi (Scalar.muli (BitVec.ofNat 32 a) 512#32) (BitVec.ofNat 32 p) = BitVec.ofNat 32 (512 * a + p) := by
  apply BitVec.eq_of_toNat_eq
  show ((BitVec.ofNat 32 a * 512#32) + BitVec.ofNat 32 p).toNat = _
  rw [BitVec.toNat_add, BitVec.toNat_mul, BitVec.toNat_ofNat, BitVec.toNat_ofNat, BitVec.toNat_ofNat, BitVec.toNat_ofNat]
  norm_num
  omega

/-- Below 4096 two naturals have the same 32-bit word exactly when they are equal. -/
theorem ofNat_inj (m n : ℕ) (hm : m < 4096) (hn : n < 4096) : BitVec.ofNat 32 m = BitVec.ofNat 32 n ↔ m = n := by
  constructor
  · intro h
    have := congrArg BitVec.toNat h
    rw [BitVec.toNat_ofNat, BitVec.toNat_ofNat] at this
    omega
  · rintro rfl; rfl

/-- The "not equal" compare of two such words is the bit of m ≠ n. -/
theorem ne_word (m n : ℕ) (hm : m < 4096) (hn : n < 4096) :
    IntOp.cmpi .ne (BitVec.ofNat 32 m) (BitVec.ofNat 32 n) = if m = n then 0#1 else 1#1 := by
  by_cases h : m = n
  · subst h; simp [IntOp.cmpi]
  · rw [if_neg h]
    have hb : (BitVec.ofNat 32 m != BitVec.ofNat 32 n) = true :=
      bne_iff_ne.mpr fun e => h ((ofNat_inj m n hm hn).mp e)
    show BitVec.ofBool (BitVec.ofNat 32 m != BitVec.ofNat 32 n) = 1#1
    rw [hb]; rfl

/-- The "equal" compare of two words is the bit of their equality. -/
theorem eq_word (x y : BitVec 32) : IntOp.cmpi .eq x y = if x = y then 1#1 else 0#1 := by
  by_cases h : x = y
  · subst h; simp [IntOp.cmpi]
  · rw [if_neg h]
    have hb : (x == y) = false := beq_eq_false_iff_ne.mpr h
    show BitVec.ofBool (x == y) = 0#1
    rw [hb]; rfl

/-- A bit widened to 32 bits and converted signed is the extended real 0 or 1. -/
theorem bit_f32 (b : BitVec 1) :
    (FloatOps.sitofp (F := Ideal) .f32 (b.setWidth 32) : EReal) = if b = 0#1 then 0 else 1 := by
  rcases BitVec.eq_zero_or_eq_one b with rfl | rfl
  · show ((((0#1 : BitVec 1).setWidth 32).toInt : ℝ) : EReal) = _
    simp
  · show ((((1#1 : BitVec 1).setWidth 32).toInt : ℝ) : EReal) = _
    simp

/-- A column of 512 rows spread over 512 columns reads its row's entry. -/
theorem bcast_col {α : Type} (x : S512x1.Idx → α) (p q : Fin 512) :
    broadcastTo S512x512 x broadcasts_S512x1_S512x512 (ix2 p q) = x (ix2 p (0 : Fin 1)) :=
  broadcastTo_apply x _ (ix2 p q) (ix2 p (0 : Fin 1)) (fun a => match a with | ⟨0, _⟩ => rfl | ⟨1, _⟩ => rfl)

/-- A row of 512 columns spread over 512 rows reads its column's entry. -/
theorem bcast_row {α : Type} (x : S1x512.Idx → α) (p q : Fin 512) :
    broadcastTo S512x512 x broadcasts_S1x512_S512x512 (ix2 p q) = x (ix2 (0 : Fin 1) q) :=
  broadcastTo_apply x _ (ix2 p q) (ix2 (0 : Fin 1) q) (fun a => match a with | ⟨0, _⟩ => rfl | ⟨1, _⟩ => rfl)

/-- The off-diagonal mask at (p, q) of tile (I, j): 0 where row 512·I + p is column 512·j + q, else 1. -/
theorem pay6_apply (i : grid0.Coords) (p q : Fin 512) :
    k0_pay6 (F := Ideal) i (ValueIdx.ix2 p q)
      = if 512 * (i 0).val + p.val = 512 * (i 1).val + q.val then (0 : EReal) else 1 := by
  have h0 : (i 0).val < 8 := (i 0).isLt
  have h1 : (i 1).val < 8 := (i 1).isLt
  have hp := p.isLt
  have hq := q.isLt
  show (FloatOps.sitofp (F := Ideal) .f32 ((IntOp.cmpi .ne
      (broadcastTo S512x512 (addi (broadcast S512x1 (Scalar.muli (BitVec.ofNat 32 (i 0).val) 512#32))
        (iota .tc S512x1 32 [0] iota_S512x1_d0_w32)) broadcasts_S512x1_S512x512 (ix2 p q))
      (broadcastTo S512x512 (addi (broadcast S1x512 (Scalar.muli (BitVec.ofNat 32 (i 1).val) 512#32))
        (iota .tc S1x512 32 [1] iota_S1x512_d1_w32)) broadcasts_S1x512_S512x512 (ix2 p q))).setWidth 32) : EReal) = _
  rw [bcast_col, bcast_row]
  show (FloatOps.sitofp (F := Ideal) .f32 ((IntOp.cmpi .ne
      (IntOp.addi (Scalar.muli (BitVec.ofNat 32 (i 0).val) 512#32)
        (iota .tc S512x1 32 [0] iota_S512x1_d0_w32 (ix2 p (0 : Fin 1))))
      (IntOp.addi (Scalar.muli (BitVec.ofNat 32 (i 1).val) 512#32)
        (iota .tc S1x512 32 [1] iota_S1x512_d1_w32 (ix2 (0 : Fin 1) q)))).setWidth 32) : EReal) = _
  rw [iota_single_apply, iota_single_apply]
  show (FloatOps.sitofp (F := Ideal) .f32 ((IntOp.cmpi .ne
      (IntOp.addi (Scalar.muli (BitVec.ofNat 32 (i 0).val) 512#32) (BitVec.ofNat 32 p.val))
      (IntOp.addi (Scalar.muli (BitVec.ofNat 32 (i 1).val) 512#32) (BitVec.ofNat 32 q.val))).setWidth 32) : EReal) = _
  rw [word_lin _ _ h0 hp, word_lin _ _ h1 hq, ne_word _ _ (by omega) (by omega), bit_f32]
  by_cases h : 512 * (i 0).val + p.val = 512 * (i 1).val + q.val
  · rw [if_pos h, if_pos h, if_pos rfl]
  · rw [if_neg h, if_neg h, if_neg (by decide)]

/-- The positives mask at (p, q): the indicator that row p's label is column q's label, times the off-diagonal mask. -/
theorem pay7_apply (i : grid0.Coords) (x2 : Vec Ideal S512x1 .i32) (x3 : Vec Ideal S1x512 .i32) (p q : Fin 512) :
    k0_pay7 (F := Ideal) i x2 x3 (ValueIdx.ix2 p q)
      = (if x2 (ValueIdx.ix2 p (0 : Fin 1)) = x3 (ValueIdx.ix2 (0 : Fin 1) q) then (1 : EReal) else 0)
          * k0_pay6 (F := Ideal) i (ValueIdx.ix2 p q) := by
  show (FloatOps.sitofp (F := Ideal) .f32 ((IntOp.cmpi .eq
      (broadcastTo S512x512 (shapeCast S512x1 x2 shapeCasts_S512x1_S512x1) broadcasts_S512x1_S512x512 (ix2 p q))
      (broadcastTo S512x512 (shapeCast S1x512 x3 shapeCasts_S1x512_S1x512) broadcasts_S1x512_S512x512 (ix2 p q))).setWidth 32) : EReal)
        * k0_pay6 (F := Ideal) i (ValueIdx.ix2 p q) = _
  rw [bcast_col, bcast_row, shapeCast_self, shapeCast_self, eq_word, bit_f32]
  congr 1
  by_cases h : x2 (ValueIdx.ix2 p (0 : Fin 1)) = x3 (ValueIdx.ix2 (0 : Fin 1) q)
  · rw [if_pos h, if_pos h, if_neg (by decide)]
  · rw [if_neg h, if_neg h, if_pos rfl]

end Cert.KernelIdeal.Val0

end
-- ==== Proof.Val0.lean ====
import proofs.«174317_j67869073212268_1_alg».proof.Proof.Acc
import proofs.«174317_j67869073212268_1_alg».proof.Proof.Val0Defs
import proofs.«174317_j67869073212268_1_alg».proof.Proof.Val0a
import proofs.«174317_j67869073212268_1_alg».proof.Proof.Val0b
import proofs.«174317_j67869073212268_1_alg».proof.Proof.Val0Mask
import Idealize.ShloMosaic.PureOps.Ideal.Laws
import Idealize.ShloMosaic.Lib.ValueIdx

/-! The similarity kernel's running statistics after the last column tile of a row block are the closed forms.

For one row r = 512·I + p, the statistics after column tile j are the maximum, the sum of exponentials at that maximum, the
weighted sum and the count over the tiles 0 … j: one grid point takes the statistics over a set of tiles to the statistics over
that set with its own tile added (the reset values are the statistics over no tile), and the eight points of a row block add the
eight tiles in order. -/

noncomputable section

open scoped BigOperators

namespace Cert.KernelIdeal.Val0

open Idealize.ShloMosaic Idealize.ShloMosaic.ValueIdx
open Cert.KernelIdeal Cert.KernelIdeal.Gen Cert.KernelIdeal.Hand Cert.KernelIdeal.Online

/-! ## The grid point's coordinates -/

/-- Point t of the 8 × 8 grid is in row block t / 8 … -/
theorem coords0 (t : Fin 64) : (grid0.coords t 0).val = t.val / 8 := by
  show t.val / grid0.stride 0 % 8 = t.val / 8
  have h : grid0.stride 0 = 8 := by decide
  rw [h]; have := t.isLt; omega

/-- … and at column tile t % 8. -/
theorem coords1 (t : Fin 64) : (grid0.coords t 1).val = t.val % 8 := by
  show t.val / grid0.stride 1 % 8 = t.val % 8
  have h : grid0.stride 1 = 1 := by decide
  rw [h, Nat.div_one]

/-! ## One row's entries by tile -/

/-- Row r's scaled similarities, by tile and column within the tile. -/
def sT (A8 : Vec Ideal S4096x1024 .bf16) (A9 : Vec Ideal S1024x4096 .bf16) (r : Fin 4096) : Fin 8 → Fin 512 → EReal :=
  fun x q => S A8 A9 r (col x q)
/-- Row r's self mask, by tile. -/
def mT (r : Fin 4096) : Fin 8 → Fin 512 → EReal := fun x q => sm r (col x q)
/-- Row r's positives (same label, not itself), by tile. -/
def wT (L10 : Vec Ideal S4096x1 .i32) (L11 : Vec Ideal S1x4096 .i32) (r : Fin 4096) : Fin 8 → Fin 512 → EReal :=
  fun x q => lm L10 L11 r (col x q) * sm r (col x q)

/-- A scaled similarity of real rows is a real number. -/
theorem S_real (A8 : Vec Ideal S4096x1024 .bf16) (A9 : Vec Ideal S1024x4096 .bf16)
    (hA8 : ∀ i, ∃ x : ℝ, A8 i = (x : EReal)) (hA9 : ∀ i, ∃ x : ℝ, A9 i = (x : EReal)) (r c : Fin 4096) :
    ∃ x : ℝ, S A8 A9 r c = (x : EReal) := by
  choose f8 h8 using hA8
  choose f9 h9 using hA9
  refine ⟨(∑ d : Fin 1024, f8 (ix2 r d) * f9 (ix2 d c)) * (134217728 / 9395241 : ℝ), ?_⟩
  unfold S
  simp only [h8, h9, ← EReal.coe_mul, ← coe_sum]

/-- The self mask is 0 or 1, a non-negative real. -/
theorem sm_real (r c : Fin 4096) : ∃ x : ℝ, 0 ≤ x ∧ sm r c = (x : EReal) := by
  unfold sm
  split
  · exact ⟨0, le_refl _, EReal.coe_zero.symm⟩
  · exact ⟨1, zero_le_one, EReal.coe_one.symm⟩

/-! ## The statistics over a set of tiles, and one grid point -/

/-- The statistics of row r, read at row p of the block, are those over the tiles in `A`. -/
def Inv (A8 : Vec Ideal S4096x1024 .bf16) (A9 : Vec Ideal S1024x4096 .bf16) (L10 : Vec Ideal S4096x1 .i32)
    (L11 : Vec Ideal S1x4096 .i32) (r : Fin 4096) (p : Fin 512) (A : Finset (Fin 8)) (a : St0 Ideal) : Prop :=
  a.1 (ix2 p (0 : Fin 1)) = tM (sT A8 A9 r) A ∧
  a.2.1 (ix2 p (0 : Fin 1)) = tE (sT A8 A9 r) (mT r) A (tM (sT A8 A9 r) A) ∧
  a.2.2.1 (ix2 p (0 : Fin 1)) = ∑ x ∈ A, ∑ q, wT L10 L11 r x q * sT A8 A9 r x q ∧
  a.2.2.2 (ix2 p (0 : Fin 1)) = ∑ x ∈ A, ∑ q, wT L10 L11 r x q

/-- The reset values are the statistics over no tile. -/
theorem inv_init (A8 : Vec Ideal S4096x1024 .bf16) (A9 : Vec Ideal S1024x4096 .bf16) (L10 : Vec Ideal S4096x1 .i32)
    (L11 : Vec Ideal S1x4096 .i32) (r : Fin 4096) (p : Fin 512) : Inv A8 A9 L10 L11 r p ∅ (init0 (F := Ideal)) := by
  refine ⟨?_, ?_, ?_, ?_⟩
  · exact (pay1_apply p).trans (tM_empty _).symm
  · exact (pay2_apply p).trans (by unfold tE; rw [Finset.sum_empty])
  · exact (pay3_apply p).trans (by rw [Finset.sum_empty])
  · exact (pay4_apply p).trans (by rw [Finset.sum_empty])

section Main
variable (A8 : Vec Ideal S4096x1024 .bf16) (A9 : Vec Ideal S1024x4096 .bf16)
  (L10 : Vec Ideal S4096x1 .i32) (L11 : Vec Ideal S1x4096 .i32)
  (b0 : Fin 64 → Vec Ideal S512x1024 .bf16) (b1 : Fin 64 → Vec Ideal S1024x512 .bf16)
  (b2 : Fin 64 → Vec Ideal S512x1 .i32) (b3 : Fin 64 → Vec Ideal S1x512 .i32)
  (hb0 : ∀ (t : Fin 64) (p : Fin 512) (d : Fin 1024), b0 t (ix2 p d) = A8 (ix2 (⟨512 * (t.val / 8) + p.val, by omega⟩ : Fin 4096) d))
  (hb1 : ∀ (t : Fin 64) (d : Fin 1024) (q : Fin 512), b1 t (ix2 d q) = A9 (ix2 d (⟨512 * (t.val % 8) + q.val, by omega⟩ : Fin 4096)))
  (hb2 : ∀ (t : Fin 64) (p : Fin 512), b2 t (ix2 p (0 : Fin 1)) = L10 (ix2 (⟨512 * (t.val / 8) + p.val, by omega⟩ : Fin 4096) (0 : Fin 1)))
  (hb3 : ∀ (t : Fin 64) (q : Fin 512), b3 t (ix2 (0 : Fin 1) q) = L11 (ix2 (0 : Fin 1) (⟨512 * (t.val % 8) + q.val, by omega⟩ : Fin 4096)))
  (hA8 : ∀ i, ∃ x : ℝ, A8 i = (x : EReal)) (hA9 : ∀ i, ∃ x : ℝ, A9 i = (x : EReal))

include hb0 hb1 in
/-- The tile of scaled similarities the point t computes, at (p, q), is row r's similarity to column q of tile x. -/
theorem tile_S (t : Fin 64) (I x : Fin 8) (hI : t.val / 8 = I.val) (hx : t.val % 8 = x.val) (p q : Fin 512) :
    k0_pay5 (F := Ideal) (b0 t) (b1 t) (ix2 p q) = sT A8 A9 (row I p) x q := by
  rw [pay5_apply]
  unfold sT S
  congr 1
  refine Finset.sum_congr rfl fun d _ => ?_
  rw [hb0 t p d, hb1 t d q]
  have e0 : (⟨512 * (t.val / 8) + p.val, by omega⟩ : Fin 4096) = row I p := Fin.ext (by show 512 * (t.val / 8) + p.val = 512 * I.val + p.val; rw [hI])
  have e1 : (⟨512 * (t.val % 8) + q.val, by omega⟩ : Fin 4096) = col x q := Fin.ext (by show 512 * (t.val % 8) + q.val = 512 * x.val + q.val; rw [hx])
  rw [e0, e1]

/-- The self mask the point t computes, at (p, q). -/
theorem tile_m (t : Fin 64) (I x : Fin 8) (hI : t.val / 8 = I.val) (hx : t.val % 8 = x.val) (p q : Fin 512) :
    k0_pay6 (F := Ideal) (grid0.coords t) (ix2 p q) = mT (row I p) x q := by
  rw [pay6_apply, coords0, coords1, hI, hx]
  unfold mT sm row col
  simp only [Fin.ext_iff]

include hb2 hb3 in
/-- The positives the point t computes, at (p, q). -/
theorem tile_w (t : Fin 64) (I x : Fin 8) (hI : t.val / 8 = I.val) (hx : t.val % 8 = x.val) (p q : Fin 512) :
    k0_pay7 (F := Ideal) (grid0.coords t) (b2 t) (b3 t) (ix2 p q) = wT L10 L11 (row I p) x q := by
  rw [pay7_apply, tile_m t I x hI hx p q, hb2 t p, hb3 t q]
  have e0 : (⟨512 * (t.val / 8) + p.val, by omega⟩ : Fin 4096) = row I p := Fin.ext (by show 512 * (t.val / 8) + p.val = 512 * I.val + p.val; rw [hI])
  have e1 : (⟨512 * (t.val % 8) + q.val, by omega⟩ : Fin 4096) = col x q := Fin.ext (by show 512 * (t.val % 8) + q.val = 512 * x.val + q.val; rw [hx])
  rw [e0, e1]
  rfl

include hb0 hb1 hb2 hb3 hA8 hA9 in
/-- ONE GRID POINT: from the statistics over the tiles in `A` to those over `A` with the point's tile x. -/
theorem inv_step (t : Fin 64) (I x : Fin 8) (hI : t.val / 8 = I.val) (hx : t.val % 8 = x.val) (p : Fin 512)
    (A : Finset (Fin 8)) (hxA : x ∉ A) (a : St0 Ideal) (ha : Inv A8 A9 L10 L11 (row I p) p A a) :
    Inv A8 A9 L10 L11 (row I p) p (insert x A) (step0 (grid0.coords t) (b0 t) (b1 t) (b2 t) (b3 t) a) := by
  obtain ⟨hM, hE, hS, hP⟩ := ha
  have hs : ∀ x q, ∃ r : ℝ, sT A8 A9 (row I p) x q = (r : EReal) := fun x q => S_real A8 A9 hA8 hA9 _ _
  have hμ : ∀ x q, ∃ r : ℝ, mT (row I p) x q = (r : EReal) := fun x q => (sm_real _ _).imp fun _ h => h.2
  have h5 : (fun q : Fin 512 => k0_pay5 (F := Ideal) (b0 t) (b1 t) (ix2 p q)) = fun q => sT A8 A9 (row I p) x q :=
    funext fun q => tile_S A8 A9 b0 b1 hb0 hb1 t I x hI hx p q
  have hM' : k0_pay8 (F := Ideal) (b0 t) (b1 t) a.1 (ix2 p (0 : Fin 1)) = tM (sT A8 A9 (row I p)) (insert x A) := by
    rw [pay8_apply, h5, hM, tM_insert]
  refine ⟨?_, ?_, ?_, ?_⟩
  · show k0_pay12 (F := Ideal) (k0_pay8 (F := Ideal) (b0 t) (b1 t) a.1) (ix2 p (0 : Fin 1)) = _
    rw [pay12_eq]; exact hM'
  · show k0_pay9 (F := Ideal) (k0_pay5 (F := Ideal) (b0 t) (b1 t)) (k0_pay6 (F := Ideal) (grid0.coords t))
      (k0_pay8 (F := Ideal) (b0 t) (b1 t) a.1) a.1 a.2.1 (ix2 p (0 : Fin 1)) = _
    have hsum : (∑ q : Fin 512, Ideal.exp (k0_pay5 (F := Ideal) (b0 t) (b1 t) (ix2 p q) - tM (sT A8 A9 (row I p)) (insert x A))
          * k0_pay6 (F := Ideal) (grid0.coords t) (ix2 p q))
        = ∑ q : Fin 512, Ideal.exp (sT A8 A9 (row I p) x q - tM (sT A8 A9 (row I p)) (insert x A)) * mT (row I p) x q :=
      Finset.sum_congr rfl fun q _ => by
        rw [tile_S A8 A9 b0 b1 hb0 hb1 t I x hI hx p q, tile_m t I x hI hx p q]
    rw [pay9_apply, hM', hM, hE, hsum]
    exact tE_step _ _ hs hμ A x hxA
  · show k0_pay10 (F := Ideal) (k0_pay5 (F := Ideal) (b0 t) (b1 t)) (k0_pay7 (F := Ideal) (grid0.coords t) (b2 t) (b3 t)) a.2.2.1
      (ix2 p (0 : Fin 1)) = _
    rw [pay10_apply, hS, Finset.sum_insert hxA, add_comm]
    refine congrArg (· + _) (Finset.sum_congr rfl fun q _ => ?_)
    rw [tile_S A8 A9 b0 b1 hb0 hb1 t I x hI hx p q, tile_w L10 L11 b2 b3 hb2 hb3 t I x hI hx p q]
  · show k0_pay11 (F := Ideal) (k0_pay7 (F := Ideal) (grid0.coords t) (b2 t) (b3 t)) a.2.2.2 (ix2 p (0 : Fin 1)) = _
    rw [pay11_apply, hP, Finset.sum_insert hxA, add_comm]
    refine congrArg (· + _) (Finset.sum_congr rfl fun q _ => ?_)
    rw [tile_w L10 L11 b2 b3 hb2 hb3 t I x hI hx p q]

/-! ## The eight points of a row block -/

/-- The column tiles 0 … j. -/
def upto (j : ℕ) : Finset (Fin 8) := Finset.univ.filter fun x => x.val ≤ j

theorem upto_zero : upto 0 = insert (0 : Fin 8) ∅ := by
  ext x; simp only [upto, Finset.mem_filter, Finset.mem_univ, true_and, Finset.mem_insert, Finset.notMem_empty, or_false, Fin.ext_iff]
  show x.val ≤ 0 ↔ x.val = 0
  omega

theorem upto_succ (j : ℕ) (hj : j + 1 < 8) : upto (j + 1) = insert (⟨j + 1, hj⟩ : Fin 8) (upto j) := by
  ext x; simp only [upto, Finset.mem_filter, Finset.mem_univ, true_and, Finset.mem_insert, Fin.ext_iff]
  omega

theorem not_mem_upto (j : ℕ) (hj : j + 1 < 8) : (⟨j + 1, hj⟩ : Fin 8) ∉ upto j := by
  simp only [upto, Finset.mem_filter, Finset.mem_univ, true_and]
  omega

theorem upto_last : upto 7 = Finset.univ := by
  ext x; simp only [upto, Finset.mem_filter, Finset.mem_univ, true_and, iff_true]
  have := x.isLt; omega

/-- The running statistics depend on the point's number only. -/
theorem acc0_idx (n n' : ℕ) (h : n < 64) (h' : n' < 64) (e : n = n') :
    acc0 b0 b1 b2 b3 n h = acc0 b0 b1 b2 b3 n' h' := by subst e; rfl

include hb0 hb1 hb2 hb3 hA8 hA9 in
/-- After column tile j of row block I the statistics are those over the tiles 0 … j. -/
theorem inv_tiles (I : Fin 8) (p : Fin 512) : ∀ (j : ℕ) (hj : j < 8),
    Inv A8 A9 L10 L11 (row I p) p (upto j) (acc0 b0 b1 b2 b3 (8 * I.val + j) (by omega)) := by
  intro j
  induction j with
  | zero =>
    intro hj
    have hr := acc0_reset b0 b1 b2 b3 (⟨8 * I.val + 0, by omega⟩ : Fin 64) (by show (8 * I.val + 0) % 8 = 0; omega)
    have hr' : acc0 b0 b1 b2 b3 (8 * I.val + 0) (by omega) = _ := hr
    rw [hr', upto_zero]
    exact inv_step A8 A9 L10 L11 b0 b1 b2 b3 hb0 hb1 hb2 hb3 hA8 hA9 _ I 0 (by show (8 * I.val + 0) / 8 = I.val; omega)
      (by show (8 * I.val + 0) % 8 = 0; omega) p ∅ (Finset.notMem_empty _) _ (inv_init A8 A9 L10 L11 _ p)
  | succ j ih =>
    intro hj
    have hc := acc0_cont b0 b1 b2 b3 (⟨8 * I.val + (j + 1), by omega⟩ : Fin 64) (by show ¬ (8 * I.val + (j + 1)) % 8 = 0; omega)
    have hc' : acc0 b0 b1 b2 b3 (8 * I.val + (j + 1)) (by omega) = _ := hc
    rw [hc', upto_succ j hj]
    refine inv_step A8 A9 L10 L11 b0 b1 b2 b3 hb0 hb1 hb2 hb3 hA8 hA9 _ I ⟨j + 1, hj⟩ (by show (8 * I.val + (j + 1)) / 8 = I.val; omega)
      (by show (8 * I.val + (j + 1)) % 8 = j + 1; omega) p (upto j) (not_mem_upto j hj) _ ?_
    rw [acc0_idx b0 b1 b2 b3 _ (8 * I.val + j) _ (by omega) (by show 8 * I.val + (j + 1) - 1 = 8 * I.val + j; omega)]
    exact ih (by omega)

/-! ## The closed forms -/

omit hb0 hb1 hb2 hb3 in
include hA8 hA9 in
/-- The row maximum is a real number. -/
theorem kM_real (r : Fin 4096) : ∃ x : ℝ, kM A8 A9 r = (x : EReal) :=
  tM_real (sT A8 A9 r) (fun x q => S_real A8 A9 hA8 hA9 _ _) Finset.univ Finset.univ_nonempty

include hA8 hA9 in
/-- The sum of exponentials is a non-negative real number. -/
theorem kE_real (r : Fin 4096) : ∃ x : ℝ, 0 ≤ x ∧ kE A8 A9 r = (x : EReal) := by
  obtain ⟨m, hm⟩ := kM_real A8 A9 hA8 hA9 r
  have h : kE A8 A9 r = tE (sT A8 A9 r) (mT r) Finset.univ (kM A8 A9 r) := rfl
  rw [h, hm]
  exact tE_real (sT A8 A9 r) (mT r) (fun x q => S_real A8 A9 hA8 hA9 _ _) (fun x q => sm_real _ _) Finset.univ m

include hb0 hb1 hb2 hb3 hA8 hA9 in
theorem acc0_M (I : Fin 8) (p : Fin 512) (h : 8 * I.val + 7 < 64) :
    (acc0 b0 b1 b2 b3 (8 * I.val + 7) h).1 (ix2 p (0 : Fin 1)) = kM A8 A9 (row I p) := by
  have := (inv_tiles A8 A9 L10 L11 b0 b1 b2 b3 hb0 hb1 hb2 hb3 hA8 hA9 I p 7 (by omega)).1
  rw [upto_last] at this
  exact this

include hb0 hb1 hb2 hb3 hA8 hA9 in
theorem acc0_E (I : Fin 8) (p : Fin 512) (h : 8 * I.val + 7 < 64) :
    (acc0 b0 b1 b2 b3 (8 * I.val + 7) h).2.1 (ix2 p (0 : Fin 1)) = kE A8 A9 (row I p) := by
  have := (inv_tiles A8 A9 L10 L11 b0 b1 b2 b3 hb0 hb1 hb2 hb3 hA8 hA9 I p 7 (by omega)).2.1
  rw [upto_last] at this
  exact this

include hb0 hb1 hb2 hb3 hA8 hA9 in
theorem acc0_S (I : Fin 8) (p : Fin 512) (h : 8 * I.val + 7 < 64) :
    (acc0 b0 b1 b2 b3 (8 * I.val + 7) h).2.2.1 (ix2 p (0 : Fin 1)) = kS A8 A9 L10 L11 (row I p) := by
  have := (inv_tiles A8 A9 L10 L11 b0 b1 b2 b3 hb0 hb1 hb2 hb3 hA8 hA9 I p 7 (by omega)).2.2.1
  rw [upto_last] at this
  exact this

include hb0 hb1 hb2 hb3 hA8 hA9 in
theorem acc0_P (I : Fin 8) (p : Fin 512) (h : 8 * I.val + 7 < 64) :
    (acc0 b0 b1 b2 b3 (8 * I.val + 7) h).2.2.2 (ix2 p (0 : Fin 1)) = kP L10 L11 (row I p) := by
  have := (inv_tiles A8 A9 L10 L11 b0 b1 b2 b3 hb0 hb1 hb2 hb3 hA8 hA9 I p 7 (by omega)).2.2.2
  rw [upto_last] at this
  exact this

end Main

end Cert.KernelIdeal.Val0

end
-- ==== Proof.TailMath.lean ====
/-
  The loss from per-row statistics: pure mathematics on the extended reals.

  Every quantity of the reference's levels is a real number once the inputs are real: the sum of squares is a
  nonnegative real, its root a real, the floored norm a positive real, the normalized entries, the similarities and
  their quotients by the temperature reals; the row maximum is attained at a column, so it is a real; the shifted
  logits, the masks, the masked exponentials (nonnegative) are reals; the memory columns' exponentials sum to a
  positive real, so the denominator is a positive real and its logarithm a real. On reals the extended reals'
  arithmetic is the field's, and the row's sum of target times log-probability rearranges to

     (∑ st·sc − mx·∑ st) − lg·(∑ st + ∑ mt) + ∑ mt·ml,

  and the row's count is ∑ st + ∑ mt. No property of the quotient at a zero count is used: both sides are the same
  expression of the same two row functions.
-/
import proofs.«174317_j67869073212268_1_alg».proof.Proof.Spec
import Mathlib.Data.EReal.Basic
import Mathlib.Data.EReal.Operations
import Mathlib.Data.EReal.Inv
import Mathlib.Analysis.SpecialFunctions.Log.Basic
import Mathlib.Analysis.SpecialFunctions.Sqrt
import Mathlib.Algebra.Order.BigOperators.Group.Finset

noncomputable section

open scoped BigOperators

namespace Cert.TailMath

open Idealize.ShloMosaic

/-! ### Finite sums of reals in the extended reals -/

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of reals is a real. -/
theorem sum_real {ι : Type*} (s : Finset ι) (f : ι → EReal) (h : ∀ i, ∃ x : ℝ, f i = (x : EReal)) :
    ∃ x : ℝ, ∑ i ∈ s, f i = (x : EReal) := by
  choose g hg using h
  exact ⟨∑ i ∈ s, g i, by rw [coe_sum]; exact Finset.sum_congr rfl fun i _ => hg i⟩

/-- A finite sum of nonnegative reals is a nonnegative real. -/
theorem sum_real_nonneg {ι : Type*} (s : Finset ι) (f : ι → EReal)
    (h : ∀ i, ∃ x : ℝ, 0 ≤ x ∧ f i = (x : EReal)) : ∃ x : ℝ, 0 ≤ x ∧ ∑ i ∈ s, f i = (x : EReal) := by
  choose g hg0 hg using h
  exact ⟨∑ i ∈ s, g i, Finset.sum_nonneg fun i _ => hg0 i,
    by rw [coe_sum]; exact Finset.sum_congr rfl fun i _ => hg i⟩

/-- A nonempty finite sum of positive reals is a positive real. -/
theorem sum_real_pos {ι : Type*} (s : Finset ι) (hs : s.Nonempty) (f : ι → EReal)
    (h : ∀ i, ∃ x : ℝ, 0 < x ∧ f i = (x : EReal)) : ∃ x : ℝ, 0 < x ∧ ∑ i ∈ s, f i = (x : EReal) := by
  choose g hg0 hg using h
  exact ⟨∑ i ∈ s, g i, Finset.sum_pos (fun i _ => hg0 i) hs,
    by rw [coe_sum]; exact Finset.sum_congr rfl fun i _ => hg i⟩

/-! ### The two constants -/

/-- The norm's floor is a positive real. -/
theorem eps_real : ∃ x : ℝ, 0 < x ∧ Spec.eps = (x : EReal) := by
  unfold Spec.eps
  simp [Ideal.ofBits, Ideal.ieee, -EReal.coe_mul]

/-- The temperature is a positive real. -/
theorem temp_real : ∃ x : ℝ, 0 < x ∧ Spec.temp = (x : EReal) := by
  unfold Spec.temp
  simp [Ideal.ofBits, Ideal.ieee, -EReal.coe_mul]

/-- The quotient of a real by a nonzero real is a real. -/
theorem div_real (x y : ℝ) (hy : y ≠ 0) : Ideal.div (x : EReal) (y : EReal) = ((x * (1 / y) : ℝ) : EReal) := by
  rw [Ideal.div_coe hy, ← EReal.coe_mul]

/-! ### The levels are reals -/

section
variable (q : Fin 4096 → Fin 1024 → EReal) (lab : Fin 4096 → BitVec 32) (ml mt : Fin 4096 → Fin 8192 → EReal)
variable (hq : ∀ i d, ∃ x : ℝ, q i d = (x : EReal))
variable (hml : ∀ i k, ∃ x : ℝ, ml i k = (x : EReal))

include hq in
/-- The sum of squares is a nonnegative real. -/
theorem ssq_real (i : Fin 4096) : ∃ x : ℝ, 0 ≤ x ∧ Spec.ssq q i = (x : EReal) := by
  unfold Spec.ssq
  refine sum_real_nonneg _ _ fun d => ?_
  obtain ⟨x, hx⟩ := hq i d
  exact ⟨x * x, mul_self_nonneg x, by rw [hx, ← EReal.coe_mul]⟩

include hq in
/-- The floored norm is a positive real. -/
theorem den_real (i : Fin 4096) : ∃ x : ℝ, 0 < x ∧ Spec.den q i = (x : EReal) := by
  obtain ⟨s, hs0, hs⟩ := ssq_real q hq i
  obtain ⟨e, he0, he⟩ := eps_real
  refine ⟨max (Real.sqrt s) e, lt_max_of_lt_right he0, ?_⟩
  unfold Spec.den
  rw [hs, he, Ideal.sqrt_coe, if_neg (not_lt.mpr hs0)]
  exact (EReal.coe_strictMono.monotone.map_max).symm

include hq in
/-- The normalized entries are reals. -/
theorem qn_real (i : Fin 4096) (d : Fin 1024) : ∃ x : ℝ, Spec.qn q i d = (x : EReal) := by
  obtain ⟨x, hx⟩ := hq i d
  obtain ⟨n, hn0, hn⟩ := den_real q hq i
  exact ⟨x * (1 / n), by unfold Spec.qn; rw [hx, hn, div_real x n (ne_of_gt hn0)]⟩

include hq in
/-- The similarities are reals. -/
theorem sims_real (i j : Fin 4096) : ∃ x : ℝ, Spec.sims q i j = (x : EReal) := by
  unfold Spec.sims
  refine sum_real _ _ fun d => ?_
  obtain ⟨x, hx⟩ := qn_real q hq i d
  obtain ⟨y, hy⟩ := qn_real q hq j d
  exact ⟨x * y, by rw [hx, hy, ← EReal.coe_mul]⟩

include hq in
/-- The similarities over the temperature are reals. -/
theorem sc_real (i j : Fin 4096) : ∃ x : ℝ, Spec.sc q i j = (x : EReal) := by
  obtain ⟨s, hs⟩ := sims_real q hq i j
  obtain ⟨t, ht0, ht⟩ := temp_real
  exact ⟨s * (1 / t), by unfold Spec.sc; rw [hs, ht, div_real s t (ne_of_gt ht0)]⟩

include hq in
/-- The row maximum is attained at a column, so it is a real. -/
theorem mx_real (i : Fin 4096) : ∃ x : ℝ, Spec.mx q i = (x : EReal) := by
  rw [Spec.mx_eq_sup]
  obtain ⟨j, -, hj⟩ := Finset.exists_mem_eq_sup (Finset.univ : Finset (Fin 4096)) ⟨0, Finset.mem_univ _⟩
    (fun j => Spec.sc q i j)
  rw [hj]
  exact sc_real q hq i j

include hq in
/-- The shifted logits are reals. -/
theorem sl_real (i j : Fin 4096) : ∃ x : ℝ, Spec.sl q i j = (x : EReal) := by
  obtain ⟨c, hc⟩ := sc_real q hq i j
  obtain ⟨m, hm⟩ := mx_real q hq i
  exact ⟨c - m, by unfold Spec.sl; rw [hc, hm, ← EReal.coe_sub]⟩

/-- The label mask is a real. -/
theorem lm_real (i j : Fin 4096) : ∃ x : ℝ, Spec.lm lab i j = (x : EReal) := by
  unfold Spec.lm
  by_cases h : lab i = lab j
  · exact ⟨1, by rw [if_pos h, EReal.coe_one]⟩
  · exact ⟨0, by rw [if_neg h, EReal.coe_zero]⟩

/-- The self mask is a nonnegative real. -/
theorem sm_real (i j : Fin 4096) : ∃ x : ℝ, 0 ≤ x ∧ Spec.sm i j = (x : EReal) := by
  unfold Spec.sm
  by_cases h : i = j
  · exact ⟨1 - 1, by norm_num, by rw [if_pos h, EReal.coe_sub, EReal.coe_one]⟩
  · exact ⟨1 - 0, by norm_num, by rw [if_neg h, EReal.coe_sub, EReal.coe_one, EReal.coe_zero]⟩

/-- The similarity columns' targets are reals. -/
theorem st_real (i j : Fin 4096) : ∃ x : ℝ, Spec.st lab i j = (x : EReal) := by
  obtain ⟨a, ha⟩ := lm_real lab i j
  obtain ⟨b, -, hb⟩ := sm_real i j
  exact ⟨a * b, by unfold Spec.st; rw [ha, hb, ← EReal.coe_mul]⟩

include hq in
/-- The masked exponentials are nonnegative reals. -/
theorem ex_real (i j : Fin 4096) : ∃ x : ℝ, 0 ≤ x ∧ Spec.ex q i j = (x : EReal) := by
  obtain ⟨s, hs⟩ := sl_real q hq i j
  obtain ⟨b, hb0, hb⟩ := sm_real i j
  exact ⟨Real.exp s * b, mul_nonneg (Real.exp_pos s).le hb0,
    by unfold Spec.ex; rw [hs, hb, Ideal.exp_coe, ← EReal.coe_mul]⟩

include hq in
/-- The similarity columns' masked exponentials sum to a nonnegative real. -/
theorem sum_ex_real (i : Fin 4096) : ∃ x : ℝ, 0 ≤ x ∧ ∑ j : Fin 4096, Spec.ex q i j = (x : EReal) :=
  sum_real_nonneg _ _ fun j => ex_real q hq i j

include hml in
/-- The memory columns' exponentials sum to a positive real. -/
theorem sum_exp_ml_real (i : Fin 4096) :
    ∃ x : ℝ, 0 < x ∧ ∑ k : Fin 8192, Ideal.exp (ml i k) = (x : EReal) := by
  refine sum_real_pos _ ⟨0, Finset.mem_univ _⟩ _ fun k => ?_
  obtain ⟨l, hl⟩ := hml i k
  exact ⟨Real.exp l, Real.exp_pos l, by rw [hl, Ideal.exp_coe]⟩

include hq hml in
/-- The row's denominator is a positive real. -/
theorem dn_real (i : Fin 4096) : ∃ x : ℝ, 0 < x ∧ Spec.dn q ml i = (x : EReal) := by
  obtain ⟨a, ha0, ha⟩ := sum_ex_real q hq i
  obtain ⟨b, hb0, hb⟩ := sum_exp_ml_real ml hml i
  exact ⟨a + b, add_pos_of_nonneg_of_pos ha0 hb0, by unfold Spec.dn; rw [ha, hb, ← EReal.coe_add]⟩

include hq hml in
/-- Its logarithm is a real. -/
theorem lg_real (i : Fin 4096) : ∃ x : ℝ, Spec.lg q ml i = (x : EReal) := by
  obtain ⟨x, hx0, hx⟩ := dn_real q ml hq hml i
  exact ⟨Real.log x, by unfold Spec.lg; rw [hx, Ideal.log_coe, if_neg (not_le.mpr hx0)]⟩

end

/-! ### The rearrangement -/

/-- The rearrangement over the reals. -/
theorem real_alg (a c : Fin 4096 → ℝ) (t l : Fin 8192 → ℝ) (m L : ℝ) :
    (∑ j : Fin 4096, a j * (c j - m - L)) + ∑ k : Fin 8192, t k * (l k - L)
      = ((∑ j : Fin 4096, a j * c j) - m * ∑ j : Fin 4096, a j)
          - L * ((∑ j : Fin 4096, a j) + ∑ k : Fin 8192, t k) + ∑ k : Fin 8192, t k * l k := by
  simp only [mul_sub, Finset.sum_sub_distrib, ← Finset.sum_mul]
  ring

/-- The rearrangement over the extended reals, at real arguments. -/
theorem ereal_alg (a c : Fin 4096 → ℝ) (t l : Fin 8192 → ℝ) (m L : ℝ) :
    (∑ j : Fin 4096, (a j : EReal) * ((c j : EReal) - (m : EReal) - (L : EReal)))
        + ∑ k : Fin 8192, (t k : EReal) * ((l k : EReal) - (L : EReal))
      = ((∑ j : Fin 4096, (a j : EReal) * (c j : EReal)) - (m : EReal) * ∑ j : Fin 4096, (a j : EReal))
          - (L : EReal) * ((∑ j : Fin 4096, (a j : EReal)) + ∑ k : Fin 8192, (t k : EReal))
          + ∑ k : Fin 8192, (t k : EReal) * (l k : EReal) := by
  simp only [← EReal.coe_mul, ← EReal.coe_sub, ← EReal.coe_add, ← coe_sum]
  exact congrArg _ (real_alg a c t l m L)

section
variable (q : Fin 4096 → Fin 1024 → EReal) (lab : Fin 4096 → BitVec 32) (ml mt : Fin 4096 → Fin 8192 → EReal)
variable (hq : ∀ i d, ∃ x : ℝ, q i d = (x : EReal))
variable (hml : ∀ i k, ∃ x : ℝ, ml i k = (x : EReal))
variable (hmt : ∀ i k, ∃ x : ℝ, mt i k = (x : EReal))

include hq hml hmt in
/-- A row's sum of target times log-probability, from its statistics. -/
theorem row_num (i : Fin 4096) :
    (∑ j : Fin 4096, Spec.st lab i j * Spec.sc q i j) - Spec.mx q i * (∑ j : Fin 4096, Spec.st lab i j)
        - Ideal.log ((∑ j : Fin 4096, Spec.ex q i j) + ∑ k : Fin 8192, Ideal.exp (ml i k))
            * ((∑ j : Fin 4096, Spec.st lab i j) + ∑ k : Fin 8192, mt i k)
        + ∑ k : Fin 8192, mt i k * ml i k
      = Spec.num q lab ml mt i := by
  rw [Spec.num_split]
  change _ - Spec.lg q ml i * _ + _ = _
  choose a ha using fun j => st_real lab i j
  choose c hc using fun j => sc_real q hq i j
  obtain ⟨m, hm⟩ := mx_real q hq i
  obtain ⟨L, hL⟩ := lg_real q ml hq hml i
  choose t ht using hmt i
  choose l hl using hml i
  simp only [Spec.sl, ha, hc, hm, hL, ht, hl]
  exact (ereal_alg a c t l m L).symm

/-- A row's sum of targets, from its statistics. -/
theorem row_cnt (i : Fin 4096) :
    (∑ j : Fin 4096, Spec.st lab i j) + ∑ k : Fin 8192, mt i k = Spec.cnt lab mt i :=
  (Spec.cnt_split lab mt i).symm

end

/-- The loss from the seven per-row statistics. -/
theorem out_of_stats (q : Fin 4096 → Fin 1024 → EReal) (lab : Fin 4096 → BitVec 32)
    (ml mt : Fin 4096 → Fin 8192 → EReal)
    (hq : ∀ i d, ∃ x : ℝ, q i d = (x : EReal)) (hml : ∀ i k, ∃ x : ℝ, ml i k = (x : EReal))
    (hmt : ∀ i k, ∃ x : ℝ, mt i k = (x : EReal))
    (M E S1 P EM S2 PM : Fin 4096 → EReal)
    (hM : ∀ i, M i = Spec.mx q i) (hE : ∀ i, E i = ∑ j : Fin 4096, Spec.ex q i j)
    (hS1 : ∀ i, S1 i = ∑ j : Fin 4096, Spec.st lab i j * Spec.sc q i j)
    (hP : ∀ i, P i = ∑ j : Fin 4096, Spec.st lab i j)
    (hEM : ∀ i, EM i = ∑ k : Fin 8192, Ideal.exp (ml i k))
    (hS2 : ∀ i, S2 i = ∑ k : Fin 8192, mt i k * ml i k) (hPM : ∀ i, PM i = ∑ k : Fin 8192, mt i k) :
    -(Ideal.div (∑ i : Fin 4096, Ideal.div (S1 i - M i * P i - Ideal.log (E i + EM i) * (P i + PM i) + S2 i)
        (P i + PM i)) (Ideal.ofBits .f32 0x45800000#32)) = Spec.out q lab ml mt := by
  unfold Spec.out
  have h : ∀ i : Fin 4096,
      Ideal.div (S1 i - M i * P i - Ideal.log (E i + EM i) * (P i + PM i) + S2 i) (P i + PM i)
        = Ideal.div (Spec.num q lab ml mt i) (Spec.cnt lab mt i) := by
    intro i
    rw [hM i, hE i, hS1 i, hP i, hEM i, hS2 i, hPM i, row_num q lab ml mt hq hml hmt i, row_cnt lab mt i]
  rw [Finset.sum_congr rfl fun i _ => h i]

end Cert.TailMath

end
-- ==== Proof.Conn.lean ====
/-
  The kernel's four similarity-side row statistics, in the tiled form (eight tiles of 512 columns), are the
  reference's row quantities: the nested maximum is the row maximum, and the three tiled sums are the sums over the
  4096 columns of the masked exponentials, of target times scaled similarity, and of the targets.

  The one arithmetic fact: the temperature is the real 9395241 / 134217728, so the quotient by it is the product with
  134217728 / 9395241. The rest is reindexing: a sum (a supremum) over eight tiles of 512 columns is the sum (the
  supremum) over the 4096 columns, and likewise eight tiles of 1024 are the 8192 memory columns.
-/
import proofs.«174317_j67869073212268_1_alg».proof.Proof.Val0Defs
import proofs.«174317_j67869073212268_1_alg».proof.Proof.TailMath
import Idealize.ShloMosaic.PureOps.Ideal.Laws
import Idealize.ShloMosaic.Lib.ValueIdx
import Mathlib.Logic.Equiv.Fin.Basic
import Mathlib.Algebra.BigOperators.Fin

noncomputable section

open scoped BigOperators

namespace Cert.KernelIdeal.Conn

open Idealize.ShloMosaic Idealize.ShloMosaic.ValueIdx
open Cert.KernelIdeal Cert.KernelIdeal.Gen Cert.KernelIdeal.Hand

/-! ### Sums and suprema over tiles -/

/-- A sum over `m` tiles of `n` columns each is the sum over the `m * n` columns. -/
theorem sum_tiles {M : Type*} [AddCommMonoid M] (m n : ℕ) (f : Fin (m * n) → M) :
    ∑ j : Fin m, ∑ q : Fin n, f (finProdFinEquiv (j, q)) = ∑ c : Fin (m * n), f c := by
  rw [← Fintype.sum_prod_type']
  exact Fintype.sum_equiv finProdFinEquiv _ _ fun _ => rfl

/-- Eight tiles of 512 columns are the 4096 columns. -/
theorem sum_tiles8_512 (f : Fin 4096 → EReal) :
    ∑ j : Fin 8, ∑ q : Fin 512, f ⟨512 * j.val + q.val, by omega⟩ = ∑ c : Fin 4096, f c := by
  rw [← sum_tiles 8 512 f]
  refine Finset.sum_congr rfl fun j _ => Finset.sum_congr rfl fun q _ => congrArg f (Fin.ext ?_)
  simp [finProdFinEquiv]; omega

/-- Eight tiles of 1024 columns are the 8192 columns. -/
theorem sum_tiles8_1024 (f : Fin 8192 → EReal) :
    ∑ j : Fin 8, ∑ k : Fin 1024, f ⟨1024 * j.val + k.val, by omega⟩ = ∑ c : Fin 8192, f c := by
  rw [← sum_tiles 8 1024 f]
  refine Finset.sum_congr rfl fun j _ => Finset.sum_congr rfl fun q _ => congrArg f (Fin.ext ?_)
  simp [finProdFinEquiv]; omega

/-- The supremum over eight tiles of the suprema over a tile's 512 columns is the supremum over the 4096 columns. -/
theorem sup_tiles8_512 (f : Fin 4096 → EReal) :
    (Finset.univ.sup fun j : Fin 8 => Finset.univ.sup fun q : Fin 512 => f ⟨512 * j.val + q.val, by omega⟩)
      = Finset.univ.sup f := by
  apply le_antisymm
  · exact Finset.sup_le fun j _ => Finset.sup_le fun q _ => Finset.le_sup (f := f) (Finset.mem_univ _)
  · refine Finset.sup_le fun c _ => ?_
    have hc : c = (⟨512 * (⟨c.val / 512, by omega⟩ : Fin 8).val + (⟨c.val % 512, by omega⟩ : Fin 512).val, by
        have := c.isLt; simp only; omega⟩ : Fin 4096) := Fin.ext (by simp only; omega)
    rw [hc]
    exact le_trans
      (Finset.le_sup (f := fun q : Fin 512 => f ⟨512 * (⟨c.val / 512, by omega⟩ : Fin 8).val + q.val, by omega⟩)
        (Finset.mem_univ (⟨c.val % 512, by omega⟩ : Fin 512)))
      (Finset.le_sup (f := fun j : Fin 8 => Finset.univ.sup fun q : Fin 512 => f ⟨512 * j.val + q.val, by omega⟩)
        (Finset.mem_univ (⟨c.val / 512, by omega⟩ : Fin 8)))

/-! ### The temperature's value -/

/-- The temperature is the real 9395241 / 134217728. -/
theorem temp_val : Spec.temp = ((9395241 / 134217728 : ℝ) : EReal) := by
  unfold Spec.temp
  simp [Ideal.ofBits, Ideal.ieee, -EReal.coe_mul]; norm_num

/-- The quotient by the temperature is the product with its reciprocal. -/
theorem div_temp (x : EReal) : Ideal.div x Spec.temp = x * ((134217728 / 9395241 : ℝ) : EReal) := by
  rw [temp_val, Ideal.div_coe (by norm_num)]
  norm_num

/-! ### The masks -/

/-- The self mask, in its two spellings. -/
theorem sm_eq (r c : Fin 4096) : Val0.sm r c = Spec.sm r c := by
  unfold Val0.sm Spec.sm
  by_cases h : r = c
  · rw [if_pos h, if_pos h, ← EReal.coe_one, ← EReal.coe_sub, sub_self, EReal.coe_zero]
  · rw [if_neg h, if_neg h, ← EReal.coe_one, ← EReal.coe_zero, ← EReal.coe_sub, sub_zero]

section
variable (q : Fin 4096 → Fin 1024 → EReal) (lab : Fin 4096 → BitVec 32)
variable (A8 : Vec Ideal S4096x1024 .bf16) (A9 : Vec Ideal S1024x4096 .bf16)
  (L10 : Vec Ideal S4096x1 .i32) (L11 : Vec Ideal S1x4096 .i32)
variable (hq : ∀ i d, ∃ x : ℝ, q i d = (x : EReal))
variable (hA8 : ∀ i d, A8 (ix2 i d) = Spec.qn q i d) (hA9 : ∀ d i, A9 (ix2 d i) = Spec.qn q i d)
variable (hL10 : ∀ i, L10 (ix2 i (0 : Fin 1)) = lab i) (hL11 : ∀ i, L11 (ix2 (0 : Fin 1) i) = lab i)

include hL10 hL11 in
/-- The label mask, in its two spellings. -/
theorem lm_eq (r c : Fin 4096) : Val0.lm L10 L11 r c = Spec.lm lab r c := by
  unfold Val0.lm Spec.lm
  rw [hL10 r, hL11 c]

include hA8 hA9 in
/-- The scaled similarity is the similarity over the temperature. -/
theorem S_eq (r c : Fin 4096) : Val0.S A8 A9 r c = Spec.sc q r c := by
  unfold Val0.S Spec.sc Spec.sims
  rw [div_temp]
  simp only [hA8, hA9]

include hA8 hA9 in
/-- The nested row maximum is the row maximum. -/
theorem conn_M (r : Fin 4096) : Val0.kM A8 A9 r = Spec.mx q r := by
  unfold Val0.kM
  simp only [S_eq q A8 A9 hA8 hA9]
  rw [Spec.mx_eq_sup]
  exact sup_tiles8_512 fun c => Spec.sc q r c

include hA8 hA9 in
/-- The tiled sum of masked exponentials is the row's. -/
theorem conn_E (r : Fin 4096) : Val0.kE A8 A9 r = ∑ j : Fin 4096, Spec.ex q r j := by
  unfold Val0.kE
  simp only [S_eq q A8 A9 hA8 hA9, conn_M q A8 A9 hA8 hA9, sm_eq]
  exact sum_tiles8_512 fun c => Spec.ex q r c

include hA8 hA9 hL10 hL11 in
/-- The tiled sum of target times scaled similarity is the row's. -/
theorem conn_S (r : Fin 4096) :
    Val0.kS A8 A9 L10 L11 r = ∑ j : Fin 4096, Spec.st lab r j * Spec.sc q r j := by
  unfold Val0.kS
  simp only [S_eq q A8 A9 hA8 hA9, sm_eq, lm_eq lab L10 L11 hL10 hL11]
  exact sum_tiles8_512 fun c => Spec.st lab r c * Spec.sc q r c

include hL10 hL11 in
/-- The tiled sum of targets is the row's. -/
theorem conn_P (r : Fin 4096) : Val0.kP L10 L11 r = ∑ j : Fin 4096, Spec.st lab r j := by
  unfold Val0.kP
  simp only [sm_eq, lm_eq lab L10 L11 hL10 hL11]
  exact sum_tiles8_512 fun c => Spec.st lab r c

include hq hA8 in
/-- The first operand's entries are reals. -/
theorem A8_real (i : S4096x1024.Idx) : ∃ x : ℝ, A8 i = (x : EReal) := by
  have h : i = ix2 (n0 := 4096) (n1 := 1024) (i 0) (i 1) := eq_ix2 (n0 := 4096) (n1 := 1024) i
  obtain ⟨x, hx⟩ := TailMath.qn_real q hq (i 0) (i 1)
  exact ⟨x, (congrArg A8 h).trans ((hA8 (i 0) (i 1)).trans hx)⟩

include hq hA9 in
/-- The second operand's entries are reals. -/
theorem A9_real (i : S1024x4096.Idx) : ∃ x : ℝ, A9 i = (x : EReal) := by
  have h : i = ix2 (n0 := 1024) (n1 := 4096) (i 0) (i 1) := eq_ix2 (n0 := 1024) (n1 := 4096) i
  obtain ⟨x, hx⟩ := TailMath.qn_real q hq (i 1) (i 0)
  exact ⟨x, (congrArg A9 h).trans ((hA9 (i 0) (i 1)).trans hx)⟩

end

end Cert.KernelIdeal.Conn

end
-- ==== Proof.HostPre.lean ====
import proofs.«174317_j67869073212268_1_alg».proof.Proof.Gen.KernelIdeal.Launch
import proofs.«174317_j67869073212268_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! What the host operations before the first kernel compute, index by index, over the extended reals.

From an arbitrary state of the arrays, the fourteen operations square the input, sum each row, take the root, floor it
at the norm's floor, divide each row by the result, change the format (the identity on extended reals), transpose, and
reshape the labels to a column and to a row. So the normalized array reads `Cert.Spec.qn` of the input at each index,
its transpose the same with the coordinates exchanged, and the two label arrays read the labels. The arrays no operation
writes keep their contents. -/

noncomputable section

namespace Cert.KernelIdeal.HostVal

open Idealize.ShloMosaic Idealize.ShloMosaic.TcCoe Idealize.SL.Sem Idealize.ShloMosaic.StableHlo
open Cert.KernelIdeal Cert.KernelIdeal.Gen
open Idealize.ShloMosaic.ValueIdx
open scoped BigOperators

/-! ## The operations' terms read at an index -/

/-- A row sum from the zero word is the plain sum of the row. -/
theorem rowSum_apply (y : FVec Ideal S4096x1024 .f32) (i : Fin 4096) :
    (Host.reduceAdd y (constant (F := Ideal) S_ .f32 0x00000000#32) reducesTo_S4096x1024_S4096_d1 h_S_ : FVec Ideal S4096 .f32) (ix1 i)
      = ∑ k : Fin 1024, y (ix2 i k) := by
  simp only [Host.reduceAdd, Ideal.hostReduceAdd_def]
  rw [Ideal.hostReduceAdd_single reducesTo_S4096x1024_S4096_d1 (by decide)]
  rw [show (constant (F := Ideal) S_ .f32 0x00000000#32) (Shape.Idx.first h_S_) = Ideal.ofBits .f32 0x00000000#32 from rfl,
    Ideal.ofBits_zero_f32, zero_add]
  refine Finset.sum_congr rfl fun k _ => ?_
  exact congrArg y (funext fun a => Fin.ext (by match a with | ⟨0, _⟩ => rfl | ⟨1, _⟩ => rfl))

/-- The rows' sums of squares as the operations build them. -/
def ssqT (x : FVec Ideal S4096x1024 .f32) : FVec Ideal S4096 .f32 :=
  Host.reduceAdd (mulf x x) (constant (F := Ideal) S_ .f32 0x00000000#32) reducesTo_S4096x1024_S4096_d1 h_S_

/-- The norm's floor as a scalar array. -/
def epsT : FVec Ideal S_ .f32 := constant (F := Ideal) S_ .f32 0x322BCC77#32

/-- The floored norm as the operations build it. -/
def denT (x : FVec Ideal S4096x1024 .f32) : FVec Ideal S4096x1 .f32 :=
  maximumf
    (Host.sqrt (broadcastInDim S4096x1 ![0] bcast_S4096_S4096x1_0 (ssqT x)))
    (broadcastInDim S4096x1 ![] bcast_S_S4096x1 epsT)

/-- The normalized array as the operations build it. -/
def qnT (x : FVec Ideal S4096x1024 .f32) : FVec Ideal S4096x1024 .bf16 :=
  truncf .bf16 (Host.divf x (broadcastInDim S4096x1024 ![0, 1] bcast_S4096x1_S4096x1024_0_1 (denT x))) bitsLt_bf16_f32

theorem denT_apply (x : FVec Ideal S4096x1024 .f32) (i : Fin 4096) (z : Fin 1) :
    denT x (ix2 i z) = Cert.Spec.den (fun i d => x (ix2 i d)) i := by
  unfold Cert.Spec.den Cert.Spec.ssq Cert.Spec.eps
  show max (Ideal.sqrt (broadcastInDim S4096x1 ![0] bcast_S4096_S4096x1_0 (ssqT x) (ix2 i z)))
      (broadcastInDim S4096x1 ![] bcast_S_S4096x1 epsT (ix2 i z)) = _
  rw [broadcastInDim_apply _ bcast_S4096_S4096x1_0 (ssqT x) (ix2 i z) (ix1 i) (fun a => match a with
      | ⟨0, _⟩ => by show i.val = if (4096 : Nat) = 1 then 0 else i.val; rw [if_neg (by decide)]),
    broadcastInDim_apply _ bcast_S_S4096x1 epsT (ix2 i z) ix0 (fun a => a.elim0)]
  unfold ssqT
  rw [rowSum_apply]
  rfl

theorem qnT_apply (x : FVec Ideal S4096x1024 .f32) (i : Fin 4096) (d : Fin 1024) :
    qnT x (ix2 i d) = Cert.Spec.qn (fun i d => x (ix2 i d)) i d := by
  unfold Cert.Spec.qn
  show Ideal.div (x (ix2 i d)) (broadcastInDim S4096x1024 ![0, 1] bcast_S4096x1_S4096x1024_0_1 (denT x) (ix2 i d)) = _
  rw [broadcastInDim_apply _ bcast_S4096x1_S4096x1024_0_1 (denT x) (ix2 i d) (ix2 i (0 : Fin 1)) (fun a => match a with
      | ⟨0, _⟩ => by show i.val = if (4096 : Nat) = 1 then 0 else i.val; rw [if_neg (by decide)]
      | ⟨1, _⟩ => by show 0 = if (1 : Nat) = 1 then 0 else d.val; rw [if_pos rfl]),
    denT_apply]

/-! ## The arrays after the operations -/

variable (X : Valuation τ sig (Elt Ideal))

/-- The input's entries. -/
abbrev qOf : Fin 4096 → Fin 1024 → EReal := fun i d => (X (Proc.devRef .tc main_arg0) : Vec Ideal S4096x1024 .f32) (ix2 i d)
/-- The labels. -/
abbrev labOf : Fin 4096 → BitVec 32 := fun i => (X (Proc.devRef .tc main_arg1) : S4096.Idx → BitVec 32) (ix1 i)

theorem term_v8 : (StableHlo.after (Gen.hostOps0 (F := Ideal)) X (Proc.devRef .tc main_v8) : S4096x1024.Idx → EReal)
    = qnT (X (Proc.devRef .tc main_arg0)) := by
  after_results; rfl

theorem term_v9 : (StableHlo.after (Gen.hostOps0 (F := Ideal)) X (Proc.devRef .tc main_v9) : S1024x4096.Idx → EReal)
    = transpose S1024x4096 [1, 0] (qnT (X (Proc.devRef .tc main_arg0))) transposes_S4096x1024_S1024x4096_1_0 := by
  after_results; rfl

theorem term_v10 : (StableHlo.after (Gen.hostOps0 (F := Ideal)) X (Proc.devRef .tc main_v10) : S4096x1.Idx → BitVec 32)
    = shapeCast S4096x1 (X (Proc.devRef .tc main_arg1) : S4096.Idx → BitVec 32) shapeCasts_S4096_S4096x1 := by
  after_results; rfl

theorem term_v11 : (StableHlo.after (Gen.hostOps0 (F := Ideal)) X (Proc.devRef .tc main_v11) : S1x4096.Idx → BitVec 32)
    = shapeCast S1x4096 (X (Proc.devRef .tc main_arg1) : S4096.Idx → BitVec 32) shapeCasts_S4096_S1x4096 := by
  after_results; rfl

/-- The normalized array, in the kernel's narrow format. -/
theorem pre_v8 (i : Fin 4096) (d : Fin 1024) :
    (StableHlo.after (Gen.hostOps0 (F := Ideal)) X (Proc.devRef .tc main_v8) : S4096x1024.Idx → EReal) (ix2 i d)
      = Cert.Spec.qn (qOf X) i d := by
  rw [term_v8, qnT_apply]

/-- Its transpose. -/
theorem pre_v9 (d : Fin 1024) (i : Fin 4096) :
    (StableHlo.after (Gen.hostOps0 (F := Ideal)) X (Proc.devRef .tc main_v9) : S1024x4096.Idx → EReal) (ix2 d i)
      = Cert.Spec.qn (qOf X) i d := by
  rw [term_v9, transpose_ix2_apply, qnT_apply]

/-- The labels as a column. -/
theorem pre_v10 (i : Fin 4096) (z : Fin 1) :
    (StableHlo.after (Gen.hostOps0 (F := Ideal)) X (Proc.devRef .tc main_v10) : S4096x1.Idx → BitVec 32) (ix2 i z) = labOf X i := by
  rw [term_v10]
  exact shapeCast_apply _ shapeCasts_S4096_S4096x1 (ix2 i z) (ix1 i) (by
    rw [Shape.rowMajor_val_one, Shape.rowMajor_val_two]
    show i.val = i.val * 1 + z.val
    omega)

/-- The labels as a row. -/
theorem pre_v11 (z : Fin 1) (i : Fin 4096) :
    (StableHlo.after (Gen.hostOps0 (F := Ideal)) X (Proc.devRef .tc main_v11) : S1x4096.Idx → BitVec 32) (ix2 z i) = labOf X i := by
  rw [term_v11]
  exact shapeCast_apply _ shapeCasts_S4096_S1x4096 (ix2 z i) (ix1 i) (by
    rw [Shape.rowMajor_val_one, Shape.rowMajor_val_two]
    show i.val = z.val * 4096 + i.val
    omega)

/-- No operation writes the memory bank's logits. -/
theorem pre_arg2 : StableHlo.after (Gen.hostOps0 (F := Ideal)) X (Proc.devRef .tc main_arg2) = X (Proc.devRef .tc main_arg2) := by
  after_results

/-- No operation writes the memory bank's targets. -/
theorem pre_arg3 : StableHlo.after (Gen.hostOps0 (F := Ideal)) X (Proc.devRef .tc main_arg3) = X (Proc.devRef .tc main_arg3) := by
  after_results

end Cert.KernelIdeal.HostVal

end
-- ==== Proof.KerValSim.lean ====
import proofs.«174317_j67869073212268_1_alg».proof.Proof.Dat0
import proofs.«174317_j67869073212268_1_alg».proof.Proof.Val0
import proofs.«174317_j67869073212268_1_alg».proof.Proof.Conn
import proofs.«174317_j67869073212268_1_alg».proof.Proof.HostPre

/-! The similarity region's four row statistics are the reference's row quantities.

The region finds the normalised rows, their transpose and the labels (as a column and as a row) in its four input arrays; the
block a window holds at grid point t is the 512 rows of row block t / 8, or the 512 columns of column tile t % 8, of its array.
After the last column tile of row r's block, the statistics at r's row of the block are the row maximum of the scaled
similarities, the sum of the masked exponentials, the sum of target times scaled similarity and the sum of the targets. -/

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

section Sim
variable (V : (c : Dev nD) → (b : Ref sig .tc) → Buf (Elt Ideal) ((c : Thread nD τ).loc b)) (c : Dev nD)
variable (q : Fin 4096 → Fin 1024 → EReal) (lab : Fin 4096 → BitVec 32)
  (hq : ∀ i d, ∃ x : ℝ, q i d = (x : EReal))
  (h8 : ∀ (i : Fin 4096) (d : Fin 1024), (V c main_v8 : Vec Ideal S4096x1024 .bf16) (ix2 i d) = Cert.Spec.qn q i d)
  (h9 : ∀ (d : Fin 1024) (i : Fin 4096), (V c main_v9 : Vec Ideal S1024x4096 .bf16) (ix2 d i) = Cert.Spec.qn q i d)
  (h10 : ∀ i : Fin 4096, (V c main_v10 : Vec Ideal S4096x1 .i32) (ix2 i (0 : Fin 1)) = lab i)
  (h11 : ∀ i : Fin 4096, (V c main_v11 : Vec Ideal S1x4096 .i32) (ix2 (0 : Fin 1) i) = lab i)
  (hb0 : ∀ (t : Fin cfg0.N) (p : Fin 512) (d : Fin 1024), iblk0 V c 0 t (ix2 p d)
    = (V c main_v8 : Vec Ideal S4096x1024 .bf16) (ix2 (⟨512 * (t.val / 8) + p.val, by have := t.isLt; have e : cfg0.N = 64 := N0eq; omega⟩ : Fin 4096) d))
  (hb1 : ∀ (t : Fin cfg0.N) (d : Fin 1024) (k : Fin 512), iblk0 V c 1 t (ix2 d k)
    = (V c main_v9 : Vec Ideal S1024x4096 .bf16) (ix2 d (⟨512 * (t.val % 8) + k.val, by omega⟩ : Fin 4096)))
  (hb2 : ∀ (t : Fin cfg0.N) (p : Fin 512), iblk0 V c 2 t (ix2 p (0 : Fin 1))
    = (V c main_v10 : Vec Ideal S4096x1 .i32) (ix2 (⟨512 * (t.val / 8) + p.val, by have := t.isLt; have e : cfg0.N = 64 := N0eq; omega⟩ : Fin 4096) (0 : Fin 1)))
  (hb3 : ∀ (t : Fin cfg0.N) (k : Fin 512), iblk0 V c 3 t (ix2 (0 : Fin 1) k)
    = (V c main_v11 : Vec Ideal S1x4096 .i32) (ix2 (0 : Fin 1) (⟨512 * (t.val % 8) + k.val, by omega⟩ : Fin 4096)))

/-- Row r is row r % 512 of row block r / 512. -/
theorem row_div_mod (r : Fin 4096) :
    Val0.row (⟨r.val / 512, by have := r.isLt; omega⟩ : Fin 8) (⟨r.val % 512, by omega⟩ : Fin 512) = r :=
  Fin.ext (by show 512 * (r.val / 512) + r.val % 512 = r.val; omega)

include hq h8 h9 hb0 hb1 hb2 hb3 in
/-- The running maximum after row r's last column tile is the row maximum of the scaled similarities. -/
theorem sim_M_of (r : Fin 4096) (h : 8 * (r.val / 512) + 7 < cfg0.N) :
    (stat0 V c (8 * (r.val / 512) + 7) h).1 (ix2 (⟨r.val % 512, by omega⟩ : Fin 512) (0 : Fin 1)) = Cert.Spec.mx q r := by
  have hk := Val0.acc0_M (V c main_v8) (V c main_v9) (V c main_v10) (V c main_v11)
    (fun t => iblk0 V c 0 (Fin.cast N0eq.symm t)) (fun t => iblk0 V c 1 (Fin.cast N0eq.symm t))
    (fun t => iblk0 V c 2 (Fin.cast N0eq.symm t)) (fun t => iblk0 V c 3 (Fin.cast N0eq.symm t))
    (fun t p d => hb0 (Fin.cast N0eq.symm t) p d) (fun t d k => hb1 (Fin.cast N0eq.symm t) d k)
    (fun t p => hb2 (Fin.cast N0eq.symm t) p) (fun t k => hb3 (Fin.cast N0eq.symm t) k)
    (Conn.A8_real q _ hq h8) (Conn.A9_real q _ hq h9)
    (⟨r.val / 512, by have := r.isLt; omega⟩ : Fin 8) (⟨r.val % 512, by omega⟩ : Fin 512) (by have := r.isLt; omega)
  rw [row_div_mod r] at hk
  exact hk.trans (Conn.conn_M q _ _ h8 h9 r)

include hq h8 h9 hb0 hb1 hb2 hb3 in
/-- The rescaled sum of exponentials after row r's last column tile is the row's sum of masked exponentials. -/
theorem sim_E_of (r : Fin 4096) (h : 8 * (r.val / 512) + 7 < cfg0.N) :
    (stat0 V c (8 * (r.val / 512) + 7) h).2.1 (ix2 (⟨r.val % 512, by omega⟩ : Fin 512) (0 : Fin 1))
      = ∑ j : Fin 4096, Cert.Spec.ex q r j := by
  have hk := Val0.acc0_E (V c main_v8) (V c main_v9) (V c main_v10) (V c main_v11)
    (fun t => iblk0 V c 0 (Fin.cast N0eq.symm t)) (fun t => iblk0 V c 1 (Fin.cast N0eq.symm t))
    (fun t => iblk0 V c 2 (Fin.cast N0eq.symm t)) (fun t => iblk0 V c 3 (Fin.cast N0eq.symm t))
    (fun t p d => hb0 (Fin.cast N0eq.symm t) p d) (fun t d k => hb1 (Fin.cast N0eq.symm t) d k)
    (fun t p => hb2 (Fin.cast N0eq.symm t) p) (fun t k => hb3 (Fin.cast N0eq.symm t) k)
    (Conn.A8_real q _ hq h8) (Conn.A9_real q _ hq h9)
    (⟨r.val / 512, by have := r.isLt; omega⟩ : Fin 8) (⟨r.val % 512, by omega⟩ : Fin 512) (by have := r.isLt; omega)
  rw [row_div_mod r] at hk
  exact hk.trans (Conn.conn_E q _ _ h8 h9 r)

include hq h8 h9 h10 h11 hb0 hb1 hb2 hb3 in
/-- The weighted sum after row r's last column tile is the row's sum of target times scaled similarity. -/
theorem sim_S_of (r : Fin 4096) (h : 8 * (r.val / 512) + 7 < cfg0.N) :
    (stat0 V c (8 * (r.val / 512) + 7) h).2.2.1 (ix2 (⟨r.val % 512, by omega⟩ : Fin 512) (0 : Fin 1))
      = ∑ j : Fin 4096, Cert.Spec.st lab r j * Cert.Spec.sc q r j := by
  have hk := Val0.acc0_S (V c main_v8) (V c main_v9) (V c main_v10) (V c main_v11)
    (fun t => iblk0 V c 0 (Fin.cast N0eq.symm t)) (fun t => iblk0 V c 1 (Fin.cast N0eq.symm t))
    (fun t => iblk0 V c 2 (Fin.cast N0eq.symm t)) (fun t => iblk0 V c 3 (Fin.cast N0eq.symm t))
    (fun t p d => hb0 (Fin.cast N0eq.symm t) p d) (fun t d k => hb1 (Fin.cast N0eq.symm t) d k)
    (fun t p => hb2 (Fin.cast N0eq.symm t) p) (fun t k => hb3 (Fin.cast N0eq.symm t) k)
    (Conn.A8_real q _ hq h8) (Conn.A9_real q _ hq h9)
    (⟨r.val / 512, by have := r.isLt; omega⟩ : Fin 8) (⟨r.val % 512, by omega⟩ : Fin 512) (by have := r.isLt; omega)
  rw [row_div_mod r] at hk
  exact hk.trans (Conn.conn_S q lab _ _ _ _ h8 h9 h10 h11 r)

include hq h8 h9 h10 h11 hb0 hb1 hb2 hb3 in
/-- The count after row r's last column tile is the row's sum of targets. -/
theorem sim_P_of (r : Fin 4096) (h : 8 * (r.val / 512) + 7 < cfg0.N) :
    (stat0 V c (8 * (r.val / 512) + 7) h).2.2.2 (ix2 (⟨r.val % 512, by omega⟩ : Fin 512) (0 : Fin 1))
      = ∑ j : Fin 4096, Cert.Spec.st lab r j := by
  have hk := Val0.acc0_P (V c main_v8) (V c main_v9) (V c main_v10) (V c main_v11)
    (fun t => iblk0 V c 0 (Fin.cast N0eq.symm t)) (fun t => iblk0 V c 1 (Fin.cast N0eq.symm t))
    (fun t => iblk0 V c 2 (Fin.cast N0eq.symm t)) (fun t => iblk0 V c 3 (Fin.cast N0eq.symm t))
    (fun t p d => hb0 (Fin.cast N0eq.symm t) p d) (fun t d k => hb1 (Fin.cast N0eq.symm t) d k)
    (fun t p => hb2 (Fin.cast N0eq.symm t) p) (fun t k => hb3 (Fin.cast N0eq.symm t) k)
    (Conn.A8_real q _ hq h8) (Conn.A9_real q _ hq h9)
    (⟨r.val / 512, by have := r.isLt; omega⟩ : Fin 8) (⟨r.val % 512, by omega⟩ : Fin 512) (by have := r.isLt; omega)
  rw [row_div_mod r] at hk
  exact hk.trans (Conn.conn_P lab _ _ h10 h11 r)

end Sim

end Cert.KernelIdeal.Hand

end
-- ==== Proof.HostTail.lean ====
import proofs.«174317_j67869073212268_1_alg».proof.Proof.Gen.KernelIdeal.Launch
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

/-! What the host operations after the second kernel compute, over the extended reals.

From an arbitrary state of the arrays, the twenty-one operations flatten the seven columns of row statistics the two
kernels left (running maximum `M`, sum of exponentials `E`, weighted sum `S1`, positives `P` of the similarity
kernel; sum of exponentials `EM`, weighted sum `S2`, sum of targets `PM` of the memory-bank kernel), form per row
`(S1 - M * P - log (E + EM) * (P + PM) + S2) / (P + PM)`, sum the rows from the zero word, divide by the word of 4096
and negate. -/

noncomputable section

namespace Cert.KernelIdeal.HostVal

open Idealize.ShloMosaic Idealize.ShloMosaic.TcCoe Idealize.SL.Sem Idealize.ShloMosaic.StableHlo
open Cert.KernelIdeal Cert.KernelIdeal.Gen
open Idealize.ShloMosaic.ValueIdx
open scoped BigOperators

/-! ## The operations' terms -/

/-- A column flattened. -/
def flatT (v : FVec Ideal S4096x1 .f32) : FVec Ideal S4096 .f32 := shapeCast S4096 v shapeCasts_S4096x1_S4096

theorem flatT_apply (v : FVec Ideal S4096x1 .f32) (i : Fin 4096) : flatT v (ix1 i) = v (ix2 i 0) :=
  shapeCast_apply v shapeCasts_S4096x1_S4096 (ix1 i) (ix2 i 0) (by
    rw [Shape.rowMajor_val_one, Shape.rowMajor_val_two]
    show i.val * 1 + 0 = i.val
    omega)

/-- The per-row quotient as the operations build it. -/
def rowT (m e s1 p em s2 pm : FVec Ideal S4096x1 .f32) : FVec Ideal S4096 .f32 :=
  Host.divf
    (addf (subf (subf (flatT s1) (mulf (flatT m) (flatT p)))
        (mulf (Host.log (addf (flatT e) (flatT em))) (addf (flatT p) (flatT pm))))
      (flatT s2))
    (addf (flatT p) (flatT pm))

theorem rowT_apply (m e s1 p em s2 pm : FVec Ideal S4096x1 .f32) (i : Fin 4096) :
    rowT m e s1 p em s2 pm (ix1 i)
      = Ideal.div (s1 (ix2 i 0) - m (ix2 i 0) * p (ix2 i 0)
          - Ideal.log (e (ix2 i 0) + em (ix2 i 0)) * (p (ix2 i 0) + pm (ix2 i 0)) + s2 (ix2 i 0))
        (p (ix2 i 0) + pm (ix2 i 0)) := by
  show Ideal.div (flatT s1 (ix1 i) - flatT m (ix1 i) * flatT p (ix1 i)
          - Ideal.log (flatT e (ix1 i) + flatT em (ix1 i)) * (flatT p (ix1 i) + flatT pm (ix1 i)) + flatT s2 (ix1 i))
        (flatT p (ix1 i) + flatT pm (ix1 i)) = _
  simp only [flatT_apply]

/-- The result as the operations build it. -/
def tailT (m e s1 p em s2 pm : FVec Ideal S4096x1 .f32) : FVec Ideal S_ .f32 :=
  Host.negf
    (Host.divf
      (Host.reduceAdd (rowT m e s1 p em s2 pm) (constant (F := Ideal) S_ .f32 0x00000000#32) reducesTo_S4096_S_d0 h_S_)
      (constant (F := Ideal) S_ .f32 0x45800000#32))

/-- The sum of all rows from the zero word is the plain sum over the rows. -/
theorem totalSum_apply (y : FVec Ideal S4096 .f32) (j : S_.Idx) :
    (Host.reduceAdd y (constant (F := Ideal) S_ .f32 0x00000000#32) reducesTo_S4096_S_d0 h_S_ : FVec Ideal S_ .f32) j
      = ∑ i : Fin 4096, y (ix1 i) := by
  simp only [Host.reduceAdd, Ideal.hostReduceAdd_def]
  rw [Ideal.hostReduceAdd_total reducesTo_S4096_S_d0 (fun b => b.elim0) y _ j]
  rw [show (constant (F := Ideal) S_ .f32 0x00000000#32) (Shape.Idx.first h_S_) = Ideal.ofBits .f32 0x00000000#32 from rfl,
    Ideal.ofBits_zero_f32, zero_add]
  exact (Equiv.sum_comp (idxEquiv1 (n := 4096)).symm y).symm

theorem tailT_apply (m e s1 p em s2 pm : FVec Ideal S4096x1 .f32) (j : S_.Idx) :
    tailT m e s1 p em s2 pm j
      = -(Ideal.div (∑ i : Fin 4096, Ideal.div (s1 (ix2 i 0) - m (ix2 i 0) * p (ix2 i 0)
          - Ideal.log (e (ix2 i 0) + em (ix2 i 0)) * (p (ix2 i 0) + pm (ix2 i 0)) + s2 (ix2 i 0))
        (p (ix2 i 0) + pm (ix2 i 0))) (Ideal.ofBits .f32 0x45800000#32)) := by
  show -(Ideal.div ((Host.reduceAdd (rowT m e s1 p em s2 pm) (constant (F := Ideal) S_ .f32 0x00000000#32) reducesTo_S4096_S_d0 h_S_ : FVec Ideal S_ .f32) j)
      (Ideal.ofBits .f32 0x45800000#32)) = _
  rw [totalSum_apply]
  simp only [rowT_apply]

/-! ## The result after the operations -/

variable (X : Valuation τ sig (Elt Ideal))

theorem term_v32 : (StableHlo.after (Gen.hostOps2 (F := Ideal)) X (Proc.devRef .tc main_v32) : S_.Idx → EReal)
    = tailT (X (Proc.devRef .tc main_v12_0)) (X (Proc.devRef .tc main_v12_1)) (X (Proc.devRef .tc main_v12_2))
        (X (Proc.devRef .tc main_v12_3)) (X (Proc.devRef .tc main_v13_0)) (X (Proc.devRef .tc main_v13_1))
        (X (Proc.devRef .tc main_v13_2)) := by
  after_results_simp
  rfl

/-- The similarity kernel's running maxima, by row. -/
abbrev colM : Fin 4096 → EReal := fun i => (X (Proc.devRef .tc main_v12_0) : FVec Ideal S4096x1 .f32) (ix2 i 0)
/-- The similarity kernel's sums of exponentials. -/
abbrev colE : Fin 4096 → EReal := fun i => (X (Proc.devRef .tc main_v12_1) : FVec Ideal S4096x1 .f32) (ix2 i 0)
/-- The similarity kernel's target-weighted sums. -/
abbrev colS1 : Fin 4096 → EReal := fun i => (X (Proc.devRef .tc main_v12_2) : FVec Ideal S4096x1 .f32) (ix2 i 0)
/-- The similarity kernel's counts of positives. -/
abbrev colP : Fin 4096 → EReal := fun i => (X (Proc.devRef .tc main_v12_3) : FVec Ideal S4096x1 .f32) (ix2 i 0)
/-- The memory-bank kernel's sums of exponentials. -/
abbrev colEM : Fin 4096 → EReal := fun i => (X (Proc.devRef .tc main_v13_0) : FVec Ideal S4096x1 .f32) (ix2 i 0)
/-- The memory-bank kernel's target-weighted sums. -/
abbrev colS2 : Fin 4096 → EReal := fun i => (X (Proc.devRef .tc main_v13_1) : FVec Ideal S4096x1 .f32) (ix2 i 0)
/-- The memory-bank kernel's sums of targets. -/
abbrev colPM : Fin 4096 → EReal := fun i => (X (Proc.devRef .tc main_v13_2) : FVec Ideal S4096x1 .f32) (ix2 i 0)

/-- The program's result: minus the mean over the rows of the per-row quotient. -/
theorem tail_v32 :
    (StableHlo.after (Gen.hostOps2 (F := Ideal)) X (Proc.devRef .tc main_v32) : S_.Idx → EReal)
      = fun _ => -(Ideal.div (∑ i : Fin 4096, Ideal.div (colS1 X i - colM X i * colP X i
            - Ideal.log (colE X i + colEM X i) * (colP X i + colPM X i) + colS2 X i) (colP X i + colPM X i))
          (Ideal.ofBits .f32 0x45800000#32)) := by
  rw [term_v32]
  funext j
  exact tailT_apply _ _ _ _ _ _ _ j

end Cert.KernelIdeal.HostVal

end
-- ==== Proof.Val1.lean ====
import proofs.«174317_j67869073212268_1_alg».proof.Proof.Acc
import Idealize.ShloMosaic.PureOps.Ideal.Laws
import Idealize.ShloMosaic.Lib.ValueIdx
import Idealize.ShloMosaic.Lib.Pipeline.Value

/-! The memory-bank kernel's row statistics in closed form over the extended reals.

After the eighth column tile of row block `I` the three statistics kept for row `512 I + p` are the sums over all
8192 columns of that row of the memory bank: of the exponentials of the logits, of the targets times the logits, and
of the targets. Each tile's contribution is a sum over its 1024 columns added to the running value, the running value
starts from zero at the first tile, and addition on the extended reals is associative with zero neutral. -/

noncomputable section

namespace Cert.KernelIdeal.Val1

open scoped BigOperators
open Idealize.ShloMosaic Idealize.ShloMosaic.ValueIdx
open Cert.KernelIdeal Cert.KernelIdeal.Gen Cert.KernelIdeal.Hand

/-- Row `p` of the reduced shape with column `k` put back is (p, k). -/
theorem lift_row (h : S512x1024.Reduces [1] S512) (p : Fin 512) (k : Fin (S512x1024.size 1)) :
    h.lift (ix1 p) k = ix2 p (⟨k.val, k.isLt⟩ : Fin 1024) := by
  funext c; apply Fin.ext
  fin_cases c <;> rfl

/-- The sum over the 1024 columns of a block, at row `p`. -/
theorem rowSum_apply (x : FVec Ideal S512x1024 .f32) (h : S512x1024.Reduces [1] S512) (hφ : FKind.Formats .f32)
    (hacc : (0x00000000#32 : BitVec 32) = 0x00000000#32) (p : Fin 512) :
    multiReduction (F := Ideal) .add [1] S512 x 0x00000000#32 h hφ hacc (ix1 p) = ∑ k : Fin 1024, x (ix2 p k) := by
  refine (Ideal.multiReduction_add_single x 0x00000000#32 h hφ hacc (ix1 p)).trans ?_
  exact Finset.sum_congr rfl fun k _ => congrArg x (lift_row h p k)

/-- A column of 512 entries cast to a [512, 1] column, read at (p, 0), is entry `p`. -/
theorem col_apply {α : Type} (z : S512.Idx → α) (h : S512.ShapeCasts S512x1) (p : Fin 512) (u : Fin 1) :
    shapeCast S512x1 z h (ix2 p u) = z (ix1 p) := by
  refine shapeCast_apply z h (ix2 p u) (ix1 p) ?_
  rw [Shape.rowMajor_val_one, Shape.rowMajor_val_two]
  have := u.isLt
  show p.val = p.val * 1 + u.val
  omega

/-- The sum of exponentials after one tile: the old sum plus the tile's row sums of `exp`. -/
theorem pay4_apply (x0 : Vec Ideal S512x1024 .f32) (a : Vec Ideal S512x1 .f32) (p : Fin 512) :
    k1_pay4 x0 a (ix2 p (0 : Fin 1)) = a (ix2 p (0 : Fin 1)) + ∑ k : Fin 1024, Ideal.exp (x0 (ix2 p k)) := by
  unfold k1_pay4
  simp only [shapeCast_self]
  rw [addf_apply, col_apply, rowSum_apply]
  rfl

/-- The weighted sum after one tile: the old sum plus the tile's row sums of targets times logits. -/
theorem pay5_apply (x0 x1 : Vec Ideal S512x1024 .f32) (a : Vec Ideal S512x1 .f32) (p : Fin 512) :
    k1_pay5 x0 x1 a (ix2 p (0 : Fin 1)) = a (ix2 p (0 : Fin 1)) + ∑ k : Fin 1024, x1 (ix2 p k) * x0 (ix2 p k) := by
  unfold k1_pay5
  simp only [shapeCast_self]
  rw [addf_apply, col_apply, rowSum_apply]
  rfl

/-- The sum of targets after one tile: the old sum plus the tile's row sums of targets. -/
theorem pay6_apply (x1 : Vec Ideal S512x1024 .f32) (a : Vec Ideal S512x1 .f32) (p : Fin 512) :
    k1_pay6 x1 a (ix2 p (0 : Fin 1)) = a (ix2 p (0 : Fin 1)) + ∑ k : Fin 1024, x1 (ix2 p k) := by
  unfold k1_pay6
  simp only [shapeCast_self]
  rw [addf_apply, col_apply, rowSum_apply]

/-- The resets are zero. -/
theorem pay1_apply (p : Fin 512) : (k1_pay1 (F := Ideal)) (ix2 p (0 : Fin 1)) = 0 := by
  unfold k1_pay1
  simp only [shapeCast_self]
  exact Ideal.ofBits_zero_f32
theorem pay2_apply (p : Fin 512) : (k1_pay2 (F := Ideal)) (ix2 p (0 : Fin 1)) = 0 := by
  unfold k1_pay2
  simp only [shapeCast_self]
  exact Ideal.ofBits_zero_f32
theorem pay3_apply (p : Fin 512) : (k1_pay3 (F := Ideal)) (ix2 p (0 : Fin 1)) = 0 := by
  unfold k1_pay3
  simp only [shapeCast_self]
  exact Ideal.ofBits_zero_f32

/-! ## The fold over a row block's eight column tiles

A statistic that is reset to zero before the first tile of each row block and to which each point adds its own
contribution is, after tile `j` of row block `I`, the sum of the contributions of tiles `0 … j` of that row block:
addition on the extended reals is associative with `0` neutral, so no finiteness is asked. -/

theorem fold_sum (c : Fin 64 → EReal) (s : (n : ℕ) → n < 64 → EReal)
    (hreset : ∀ t : Fin 64, t.val % 8 = 0 → s t.val t.isLt = 0 + c t)
    (hcont : ∀ t : Fin 64, ¬ t.val % 8 = 0 →
      s t.val t.isLt = s (t.val - 1) (Nat.lt_of_le_of_lt (Nat.sub_le _ _) t.isLt) + c t)
    (I : Fin 8) : ∀ (j : ℕ) (hj : j < 8) (n : ℕ) (hn : n = 8 * I.val + j) (h : n < 64),
      s n h = ∑ j' : Fin (j + 1), c ⟨8 * I.val + j'.val, by have := j'.isLt; have := I.isLt; omega⟩
  | 0, hj, n, hn, h => by
    subst hn
    have e := hreset ⟨8 * I.val + 0, h⟩ (by show (8 * I.val + 0) % 8 = 0; omega)
    rw [Fin.sum_univ_one]
    exact e.trans (zero_add _)
  | j + 1, hj, n, hn, h => by
    subst hn
    have e := hcont ⟨8 * I.val + (j + 1), h⟩ (by show ¬ (8 * I.val + (j + 1)) % 8 = 0; omega)
    have ih := fold_sum c s hreset hcont I j (by omega) (8 * I.val + (j + 1) - 1) (by omega)
      (Nat.lt_of_le_of_lt (Nat.sub_le _ _) h)
    rw [Fin.sum_univ_castSucc]
    refine e.trans ?_
    rw [ih]
    rfl

/-! ## The memory-bank kernel's three statistics after the last tile of a row block -/

section Blocks
variable (b0 b1 : Fin 64 → Vec Ideal S512x1024 .f32)

/-- The sum of exponentials after the eighth tile of row block `I`, over the blocks the eight points were handed. -/
theorem acc1_E_blocks (I : Fin 8) (p : Fin 512) (h : 8 * I.val + 7 < 64) :
    (acc1 b0 b1 (8 * I.val + 7) h).1 (ix2 p (0 : Fin 1))
      = ∑ j : Fin 8, ∑ k : Fin 1024,
          Ideal.exp (b0 ⟨8 * I.val + j.val, by have := j.isLt; have := I.isLt; omega⟩ (ix2 p k)) :=
  fold_sum (fun t => ∑ k : Fin 1024, Ideal.exp (b0 t (ix2 p k)))
    (fun n h => (acc1 b0 b1 n h).1 (ix2 p (0 : Fin 1)))
    (fun t ht => by
      show (acc1 b0 b1 t.val t.isLt).1 (ix2 p (0 : Fin 1)) = _
      rw [acc1_reset b0 b1 t ht]
      show k1_pay4 (b0 t) (k1_pay1 (F := Ideal)) (ix2 p (0 : Fin 1)) = _
      rw [pay4_apply, pay1_apply])
    (fun t ht => by
      show (acc1 b0 b1 t.val t.isLt).1 (ix2 p (0 : Fin 1)) = _
      rw [acc1_cont b0 b1 t ht]
      exact pay4_apply _ _ p)
    I 7 (by omega) _ rfl h

/-- The target-weighted sum of logits after the eighth tile of row block `I`, over the blocks. -/
theorem acc1_S_blocks (I : Fin 8) (p : Fin 512) (h : 8 * I.val + 7 < 64) :
    (acc1 b0 b1 (8 * I.val + 7) h).2.1 (ix2 p (0 : Fin 1))
      = ∑ j : Fin 8, ∑ k : Fin 1024,
          b1 ⟨8 * I.val + j.val, by have := j.isLt; have := I.isLt; omega⟩ (ix2 p k)
            * b0 ⟨8 * I.val + j.val, by have := j.isLt; have := I.isLt; omega⟩ (ix2 p k) :=
  fold_sum (fun t => ∑ k : Fin 1024, b1 t (ix2 p k) * b0 t (ix2 p k))
    (fun n h => (acc1 b0 b1 n h).2.1 (ix2 p (0 : Fin 1)))
    (fun t ht => by
      show (acc1 b0 b1 t.val t.isLt).2.1 (ix2 p (0 : Fin 1)) = _
      rw [acc1_reset b0 b1 t ht]
      show k1_pay5 (b0 t) (b1 t) (k1_pay2 (F := Ideal)) (ix2 p (0 : Fin 1)) = _
      rw [pay5_apply, pay2_apply])
    (fun t ht => by
      show (acc1 b0 b1 t.val t.isLt).2.1 (ix2 p (0 : Fin 1)) = _
      rw [acc1_cont b0 b1 t ht]
      exact pay5_apply _ _ _ p)
    I 7 (by omega) _ rfl h

/-- The sum of targets after the eighth tile of row block `I`, over the blocks. -/
theorem acc1_T_blocks (I : Fin 8) (p : Fin 512) (h : 8 * I.val + 7 < 64) :
    (acc1 b0 b1 (8 * I.val + 7) h).2.2 (ix2 p (0 : Fin 1))
      = ∑ j : Fin 8, ∑ k : Fin 1024,
          b1 ⟨8 * I.val + j.val, by have := j.isLt; have := I.isLt; omega⟩ (ix2 p k) :=
  fold_sum (fun t => ∑ k : Fin 1024, b1 t (ix2 p k))
    (fun n h => (acc1 b0 b1 n h).2.2 (ix2 p (0 : Fin 1)))
    (fun t ht => by
      show (acc1 b0 b1 t.val t.isLt).2.2 (ix2 p (0 : Fin 1)) = _
      rw [acc1_reset b0 b1 t ht]
      show k1_pay6 (b1 t) (k1_pay3 (F := Ideal)) (ix2 p (0 : Fin 1)) = _
      rw [pay6_apply, pay3_apply])
    (fun t ht => by
      show (acc1 b0 b1 t.val t.isLt).2.2 (ix2 p (0 : Fin 1)) = _
      rw [acc1_cont b0 b1 t ht]
      exact pay6_apply _ _ p)
    I 7 (by omega) _ rfl h

end Blocks

/-- Point `8 I + j` is row block `I`, column tile `j`: its block's entry (p, k) sits at row `512 I + p`,
    column `1024 j + k` of the array. -/
theorem blk_idx (I j : Fin 8) (p : Fin 512) (k : Fin 1024)
    (h0 : 512 * ((8 * I.val + j.val) / 8) + p.val < 4096) (h1 : 1024 * ((8 * I.val + j.val) % 8) + k.val < 8192)
    (h0' : 512 * I.val + p.val < 4096) (h1' : 1024 * j.val + k.val < 8192) :
    (ix2 (⟨512 * ((8 * I.val + j.val) / 8) + p.val, h0⟩ : Fin 4096) (⟨1024 * ((8 * I.val + j.val) % 8) + k.val, h1⟩ : Fin 8192))
      = ix2 (⟨512 * I.val + p.val, h0'⟩ : Fin 4096) (⟨1024 * j.val + k.val, h1'⟩ : Fin 8192) := by
  have e0 : (8 * I.val + j.val) / 8 = I.val := by have := j.isLt; omega
  have e1 : (8 * I.val + j.val) % 8 = j.val := by have := j.isLt; omega
  exact congrArg₂ (ix2 (n0 := 4096) (n1 := 8192)) (Fin.ext (by show 512 * _ + _ = _; rw [e0]))
    (Fin.ext (by show 1024 * _ + _ = _; rw [e1]))

section Arrays
variable (ML MT : Vec Ideal S4096x8192 .f32) (b0 b1 : Fin 64 → Vec Ideal S512x1024 .f32)

/-- Row `512 I + p`'s sum of exponentials of the memory-bank logits over all 8192 columns. -/
theorem acc1_E
    (hb0 : ∀ (t : Fin 64) (p : Fin 512) (k : Fin 1024), b0 t (ix2 p k)
      = ML (ix2 (⟨512 * (t.val / 8) + p.val, by omega⟩ : Fin 4096) (⟨1024 * (t.val % 8) + k.val, by omega⟩ : Fin 8192)))
    (I : Fin 8) (p : Fin 512) (h : 8 * I.val + 7 < 64) :
    (acc1 b0 b1 (8 * I.val + 7) h).1 (ix2 p (0 : Fin 1))
      = ∑ j : Fin 8, ∑ k : Fin 1024,
          Ideal.exp (ML (ix2 (⟨512 * I.val + p.val, by omega⟩ : Fin 4096) (⟨1024 * j.val + k.val, by omega⟩ : Fin 8192))) := by
  rw [acc1_E_blocks]
  refine Finset.sum_congr rfl fun j _ => Finset.sum_congr rfl fun k _ => ?_
  rw [hb0]
  exact congrArg (fun i => Ideal.exp (ML i)) (blk_idx I j p k _ _ _ _)

/-- Row `512 I + p`'s sum of targets times logits over all 8192 columns. -/
theorem acc1_S
    (hb0 : ∀ (t : Fin 64) (p : Fin 512) (k : Fin 1024), b0 t (ix2 p k)
      = ML (ix2 (⟨512 * (t.val / 8) + p.val, by omega⟩ : Fin 4096) (⟨1024 * (t.val % 8) + k.val, by omega⟩ : Fin 8192)))
    (hb1 : ∀ (t : Fin 64) (p : Fin 512) (k : Fin 1024), b1 t (ix2 p k)
      = MT (ix2 (⟨512 * (t.val / 8) + p.val, by omega⟩ : Fin 4096) (⟨1024 * (t.val % 8) + k.val, by omega⟩ : Fin 8192)))
    (I : Fin 8) (p : Fin 512) (h : 8 * I.val + 7 < 64) :
    (acc1 b0 b1 (8 * I.val + 7) h).2.1 (ix2 p (0 : Fin 1))
      = ∑ j : Fin 8, ∑ k : Fin 1024,
          MT (ix2 (⟨512 * I.val + p.val, by omega⟩ : Fin 4096) (⟨1024 * j.val + k.val, by omega⟩ : Fin 8192))
            * ML (ix2 (⟨512 * I.val + p.val, by omega⟩ : Fin 4096) (⟨1024 * j.val + k.val, by omega⟩ : Fin 8192)) := by
  rw [acc1_S_blocks]
  refine Finset.sum_congr rfl fun j _ => Finset.sum_congr rfl fun k _ => ?_
  rw [hb0, hb1]
  exact congrArg (fun i => MT i * ML i) (blk_idx I j p k _ _ _ _)

/-- Row `512 I + p`'s sum of targets over all 8192 columns. -/
theorem acc1_T
    (hb1 : ∀ (t : Fin 64) (p : Fin 512) (k : Fin 1024), b1 t (ix2 p k)
      = MT (ix2 (⟨512 * (t.val / 8) + p.val, by omega⟩ : Fin 4096) (⟨1024 * (t.val % 8) + k.val, by omega⟩ : Fin 8192)))
    (I : Fin 8) (p : Fin 512) (h : 8 * I.val + 7 < 64) :
    (acc1 b0 b1 (8 * I.val + 7) h).2.2 (ix2 p (0 : Fin 1))
      = ∑ j : Fin 8, ∑ k : Fin 1024,
          MT (ix2 (⟨512 * I.val + p.val, by omega⟩ : Fin 4096) (⟨1024 * j.val + k.val, by omega⟩ : Fin 8192)) := by
  rw [acc1_T_blocks]
  refine Finset.sum_congr rfl fun j _ => Finset.sum_congr rfl fun k _ => ?_
  rw [hb1]
  exact congrArg MT (blk_idx I j p k _ _ _ _)

end Arrays

end Cert.KernelIdeal.Val1
end
-- ==== Proof.Finite.lean ====
import proofs.«174317_j67869073212268_1_alg».proof.Defs
import Idealize.ShloMosaic.Lib.ReduceAll
import Idealize.ShloMosaic.Lib.ValueIdx
import Idealize.ShloMosaic.PureOps.Ideal

/-! Every float input entry is a real number.

The precondition is the conjunction of three statements "all |x| < +∞", one for each float input array (the
embeddings, the memory-bank logits, the memory-bank targets). A conjunction of bits that is 1 has both bits 1; an
"all" that is 1 has a 1 at every index; and an extended real x with max x (−x) < +∞ is neither +∞ nor −∞, so it is a
real number. -/

noncomputable section

namespace Cert.KernelIdeal.Finite

open Idealize.ShloMosaic Idealize.ShloMosaic.ValueIdx Idealize.SL.Sem
open Cert.KernelIdeal

/-- The scalar shape has one index. -/
instance : Subsingleton Cert.Pre_finite_inputs.S_.Idx := ⟨fun a b => funext fun d => d.elim0⟩

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

/-- An array of which "all |x| < +∞" holds has a real number at every index. -/
theorem all_real {s : Shape} {axes : List (Fin s.rank)} (x : FVec Ideal s .f32)
    (dims : Fin Cert.Pre_finite_inputs.S_.rank → Fin s.rank) (bc : Cert.Pre_finite_inputs.S_.BroadcastsInDim s dims)
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x)
        (broadcastInDim s dims bc (constant Cert.Pre_finite_inputs.S_ .f32 0x7F800000#32))) init hr hu ix0 = 1#1)
    (i : s.Idx) : ∃ r : ℝ, x i = (r : EReal) :=
  real_of_abs_lt_inf (x i) (Host.reduce_andi_all _ init hr hu ix0 e i)

variable [Cert.Pre_finite_inputs.Facts]

/-- Under the precondition, on every device, each entry of the three float input arrays is a real number. -/
theorem finite_of_pre (m : (ℓ : Loc nD τ sig) → Buf (Elt Ideal) ℓ) (h : Cert.Pre_KernelIdeal m) (c : Dev nD) :
    (∀ i, ∃ x : ℝ, (m ((c.tc : Thread nD τ).loc main_arg0) : S4096x1024.Idx → EReal) i = (x : EReal))
    ∧ (∀ i, ∃ x : ℝ, (m ((c.tc : Thread nD τ).loc main_arg2) : S4096x8192.Idx → EReal) i = (x : EReal))
    ∧ (∀ i, ∃ x : ℝ, (m ((c.tc : Thread nD τ).loc main_arg3) : S4096x8192.Idx → EReal) i = (x : EReal)) := by
  have e := congrFun (h c) ix0
  dsimp only [Cert.Pre_finite_inputs.fn] at e
  obtain ⟨e01, e3⟩ := IntOp.andi_eq_one.1 e
  obtain ⟨e0, e2⟩ := IntOp.andi_eq_one.1 e01
  exact ⟨all_real _ _ _ _ _ _ e0, all_real _ _ _ _ _ _ e2, all_real _ _ _ _ _ _ e3⟩

end Cert.KernelIdeal.Finite

end
-- ==== Proof.KerValue.lean ====
/-
  The kernel program's result is the reference's loss of the launched inputs.

  The last host stretch forms, from the seven columns of row statistics the two regions leave, minus the mean over the
  rows of the per-row quotient. Each column is what its region's last column tile of the row's block left: for the
  similarity region the row maximum of the scaled similarities, the sum of the masked exponentials, the sum of target
  times scaled similarity and the sum of targets; for the memory-bank region the sums over the 8192 memory columns of
  the exponentials of the logits, of targets times logits and of the targets. The launched inputs are finite, so the
  rearrangement of the row's sum of target times log-probability into these statistics holds on the extended reals.
-/
import proofs.«174317_j67869073212268_1_alg».proof.Defs
import proofs.«174317_j67869073212268_1_alg».proof.Proof.Gen.Pre_finite_inputs
import proofs.«174317_j67869073212268_1_alg».proof.Proof.Run
import proofs.«174317_j67869073212268_1_alg».proof.Proof.ArrVal0
import proofs.«174317_j67869073212268_1_alg».proof.Proof.ArrVal1
import proofs.«174317_j67869073212268_1_alg».proof.Proof.KerValSim
import proofs.«174317_j67869073212268_1_alg».proof.Proof.HostPre
import proofs.«174317_j67869073212268_1_alg».proof.Proof.HostTail
import proofs.«174317_j67869073212268_1_alg».proof.Proof.Conn
import proofs.«174317_j67869073212268_1_alg».proof.Proof.TailMath
import proofs.«174317_j67869073212268_1_alg».proof.Proof.Val1
import proofs.«174317_j67869073212268_1_alg».proof.Proof.Finite
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

section
variable (m : (ℓ : Loc nD τ sig) → Buf (Elt Ideal) ℓ) (c : Dev nD)

/-- The input array, by coordinates. -/
abbrev qK : Fin 4096 → Fin 1024 → EReal :=
  fun i d => (m ((c : Thread nD τ).loc main_arg0) : S4096x1024.Idx → EReal) (ix2 i d)
/-- The labels. -/
abbrev labK : Fin 4096 → BitVec 32 :=
  fun i => (m ((c : Thread nD τ).loc main_arg1) : S4096.Idx → BitVec 32) (ix1 i)
/-- The memory bank's logits, by coordinates. -/
abbrev mlK : Fin 4096 → Fin 8192 → EReal :=
  fun i k => (m ((c : Thread nD τ).loc main_arg2) : S4096x8192.Idx → EReal) (ix2 i k)
/-- The memory bank's targets, by coordinates. -/
abbrev mtK : Fin 4096 → Fin 8192 → EReal :=
  fun i k => (m ((c : Thread nD τ).loc main_arg3) : S4096x8192.Idx → EReal) (ix2 i k)

/-- The memory bank's logits as the second region finds them. -/
abbrev ML2 : Vec Ideal S4096x8192 .f32 := V2 m c main_arg2
/-- The memory bank's targets as the second region finds them. -/
abbrev MT2 : Vec Ideal S4096x8192 .f32 := V2 m c main_arg3
/-- Their entries. -/
abbrev ml2 : Fin 4096 → Fin 8192 → EReal := fun i k => ML2 m c (ix2 i k)
abbrev mt2 : Fin 4096 → Fin 8192 → EReal := fun i k => MT2 m c (ix2 i k)

/-- Row `512 (i / 512) + i % 512` is row `i`. -/
theorem row_eq (i : Fin 4096) (h : 512 * (i.val / 512) + i.val % 512 < 4096) :
    (⟨512 * (i.val / 512) + i.val % 512, h⟩ : Fin 4096) = i := Fin.ext (Nat.div_add_mod _ _)

/-- The memory bank's logits reach the second region as launched. -/
theorem V2_arg2 : ML2 m c = m ((c : Thread nD τ).loc main_arg2) :=
  (W2_of_ne m c main_arg2 (by decide)).trans (HostVal.pre_arg2 (W0 m c))

/-- The memory bank's targets reach the second region as launched. -/
theorem V2_arg3 : MT2 m c = m ((c : Thread nD τ).loc main_arg3) :=
  (W2_of_ne m c main_arg3 (by decide)).trans (HostVal.pre_arg3 (W0 m c))

theorem ml2_eq (i : Fin 4096) (k : Fin 8192) : ml2 m c i k = mlK m c i k :=
  congrArg (fun f : Vec Ideal S4096x8192 .f32 => f (ix2 i k)) (V2_arg2 m c)

theorem mt2_eq (i : Fin 4096) (k : Fin 8192) : mt2 m c i k = mtK m c i k :=
  congrArg (fun f : Vec Ideal S4096x8192 .f32 => f (ix2 i k)) (V2_arg3 m c)

/-- Row `i` of the memory-bank region's first output: the sum over the 8192 columns of the exponentials of the logits. -/
theorem mem_EM (i : Fin 4096) : HostVal.colEM (W3 m c) i = ∑ k : Fin 8192, Ideal.exp (mlK m c i k) := by
  have hI : i.val / 512 < 8 := by have := i.isLt; omega
  have hp : i.val % 512 < 512 := Nat.mod_lt _ (by decide)
  have hr : 512 * (i.val / 512) + i.val % 512 < 4096 := by omega
  have h1 : (W3 m c (Proc.devRef .tc main_v13_0) : Vec Ideal S4096x1 .f32) (ix2 i (0 : Fin 1))
      = (stat1 (V2 m) c (8 * (i.val / 512) + 7) (by have : cfg1.N = 64 := N1eq; omega)).1 (ix2 (⟨i.val % 512, hp⟩ : Fin 512) (0 : Fin 1)) :=
    (congrArg (fun f : Vec Ideal S4096x1 .f32 => f (ix2 i (0 : Fin 1))) (W3_arr m c 2)).trans (arr1_2 (V2 m) c i)
  have h2 := Val1.acc1_E (ML2 m c)
    (fun t => iblk1 (V2 m) c 0 (Fin.cast N1eq.symm t)) (fun t => iblk1 (V2 m) c 1 (Fin.cast N1eq.symm t))
    (fun t p k => blk1_0 (V2 m) c (Fin.cast N1eq.symm t) p k) ⟨i.val / 512, hI⟩ ⟨i.val % 512, hp⟩ (by show 8 * (i.val / 512) + 7 < 64; omega)
  refine h1.trans (h2.trans ?_)
  refine (Conn.sum_tiles8_1024 fun k' => Ideal.exp (ml2 m c (⟨512 * (i.val / 512) + i.val % 512, hr⟩ : Fin 4096) k')).trans ?_
  refine Finset.sum_congr rfl fun k _ => congrArg Ideal.exp ?_
  exact (congrArg (fun r : Fin 4096 => ml2 m c r k) (row_eq i hr)).trans (ml2_eq m c i k)

/-- Row `i` of the memory-bank region's second output: the sum over the 8192 columns of targets times logits. -/
theorem mem_S2 (i : Fin 4096) : HostVal.colS2 (W3 m c) i = ∑ k : Fin 8192, mtK m c i k * mlK m c i k := by
  have hI : i.val / 512 < 8 := by have := i.isLt; omega
  have hp : i.val % 512 < 512 := Nat.mod_lt _ (by decide)
  have hr : 512 * (i.val / 512) + i.val % 512 < 4096 := by omega
  have h1 : (W3 m c (Proc.devRef .tc main_v13_1) : Vec Ideal S4096x1 .f32) (ix2 i (0 : Fin 1))
      = (stat1 (V2 m) c (8 * (i.val / 512) + 7) (by have : cfg1.N = 64 := N1eq; omega)).2.1 (ix2 (⟨i.val % 512, hp⟩ : Fin 512) (0 : Fin 1)) :=
    (congrArg (fun f : Vec Ideal S4096x1 .f32 => f (ix2 i (0 : Fin 1))) (W3_arr m c 3)).trans (arr1_3 (V2 m) c i)
  have h2 := Val1.acc1_S (ML2 m c) (MT2 m c)
    (fun t => iblk1 (V2 m) c 0 (Fin.cast N1eq.symm t)) (fun t => iblk1 (V2 m) c 1 (Fin.cast N1eq.symm t))
    (fun t p k => blk1_0 (V2 m) c (Fin.cast N1eq.symm t) p k) (fun t p k => blk1_1 (V2 m) c (Fin.cast N1eq.symm t) p k)
    ⟨i.val / 512, hI⟩ ⟨i.val % 512, hp⟩ (by show 8 * (i.val / 512) + 7 < 64; omega)
  refine h1.trans (h2.trans ?_)
  refine (Conn.sum_tiles8_1024 fun k' =>
    mt2 m c (⟨512 * (i.val / 512) + i.val % 512, hr⟩ : Fin 4096) k' * ml2 m c (⟨512 * (i.val / 512) + i.val % 512, hr⟩ : Fin 4096) k').trans ?_
  refine Finset.sum_congr rfl fun k _ => ?_
  exact congrArg₂ (fun a b : EReal => a * b)
    ((congrArg (fun r : Fin 4096 => mt2 m c r k) (row_eq i hr)).trans (mt2_eq m c i k))
    ((congrArg (fun r : Fin 4096 => ml2 m c r k) (row_eq i hr)).trans (ml2_eq m c i k))

/-- Row `i` of the memory-bank region's third output: the sum over the 8192 columns of the targets. -/
theorem mem_PM (i : Fin 4096) : HostVal.colPM (W3 m c) i = ∑ k : Fin 8192, mtK m c i k := by
  have hI : i.val / 512 < 8 := by have := i.isLt; omega
  have hp : i.val % 512 < 512 := Nat.mod_lt _ (by decide)
  have hr : 512 * (i.val / 512) + i.val % 512 < 4096 := by omega
  have h1 : (W3 m c (Proc.devRef .tc main_v13_2) : Vec Ideal S4096x1 .f32) (ix2 i (0 : Fin 1))
      = (stat1 (V2 m) c (8 * (i.val / 512) + 7) (by have : cfg1.N = 64 := N1eq; omega)).2.2 (ix2 (⟨i.val % 512, hp⟩ : Fin 512) (0 : Fin 1)) :=
    (congrArg (fun f : Vec Ideal S4096x1 .f32 => f (ix2 i (0 : Fin 1))) (W3_arr m c 4)).trans (arr1_4 (V2 m) c i)
  have h2 := Val1.acc1_T (MT2 m c)
    (fun t => iblk1 (V2 m) c 0 (Fin.cast N1eq.symm t)) (fun t => iblk1 (V2 m) c 1 (Fin.cast N1eq.symm t))
    (fun t p k => blk1_1 (V2 m) c (Fin.cast N1eq.symm t) p k)
    ⟨i.val / 512, hI⟩ ⟨i.val % 512, hp⟩ (by show 8 * (i.val / 512) + 7 < 64; omega)
  refine h1.trans (h2.trans ?_)
  refine (Conn.sum_tiles8_1024 fun k' => mt2 m c (⟨512 * (i.val / 512) + i.val % 512, hr⟩ : Fin 4096) k').trans ?_
  refine Finset.sum_congr rfl fun k _ => ?_
  exact (congrArg (fun r : Fin 4096 => mt2 m c r k) (row_eq i hr)).trans (mt2_eq m c i k)

/-! ### The similarity region's four outputs, as the statistics after a row block's last column tile -/

theorem col0_M (i : Fin 4096) (h : 8 * (i.val / 512) + 7 < cfg0.N) :
    HostVal.colM (W3 m c) i
      = (stat0 (V1 m) c (8 * (i.val / 512) + 7) h).1 (ix2 (⟨i.val % 512, Nat.mod_lt _ (by decide)⟩ : Fin 512) (0 : Fin 1)) :=
  (congrArg (fun f : Vec Ideal S4096x1 .f32 => f (ix2 i (0 : Fin 1))) ((W3_of_ne m c main_v12_0 (by decide)).trans (W2_arr m c 4))).trans
    (arr0_4 (V1 m) c i)

theorem col0_E (i : Fin 4096) (h : 8 * (i.val / 512) + 7 < cfg0.N) :
    HostVal.colE (W3 m c) i
      = (stat0 (V1 m) c (8 * (i.val / 512) + 7) h).2.1 (ix2 (⟨i.val % 512, Nat.mod_lt _ (by decide)⟩ : Fin 512) (0 : Fin 1)) :=
  (congrArg (fun f : Vec Ideal S4096x1 .f32 => f (ix2 i (0 : Fin 1))) ((W3_of_ne m c main_v12_1 (by decide)).trans (W2_arr m c 5))).trans
    (arr0_5 (V1 m) c i)

theorem col0_S (i : Fin 4096) (h : 8 * (i.val / 512) + 7 < cfg0.N) :
    HostVal.colS1 (W3 m c) i
      = (stat0 (V1 m) c (8 * (i.val / 512) + 7) h).2.2.1 (ix2 (⟨i.val % 512, Nat.mod_lt _ (by decide)⟩ : Fin 512) (0 : Fin 1)) :=
  (congrArg (fun f : Vec Ideal S4096x1 .f32 => f (ix2 i (0 : Fin 1))) ((W3_of_ne m c main_v12_2 (by decide)).trans (W2_arr m c 6))).trans
    (arr0_6 (V1 m) c i)

theorem col0_P (i : Fin 4096) (h : 8 * (i.val / 512) + 7 < cfg0.N) :
    HostVal.colP (W3 m c) i
      = (stat0 (V1 m) c (8 * (i.val / 512) + 7) h).2.2.2 (ix2 (⟨i.val % 512, Nat.mod_lt _ (by decide)⟩ : Fin 512) (0 : Fin 1)) :=
  (congrArg (fun f : Vec Ideal S4096x1 .f32 => f (ix2 i (0 : Fin 1))) ((W3_of_ne m c main_v12_3 (by decide)).trans (W2_arr m c 7))).trans
    (arr0_7 (V1 m) c i)

end

/-- THE KERNEL'S VALUE: the program's result is the reference's loss of the launched inputs. -/
theorem W4_v32 [Cert.Pre_finite_inputs.Facts] (m : (ℓ : Loc nD τ sig) → Buf (Elt Ideal) ℓ) (hpre : Cert.Pre_KernelIdeal m)
    (c : Dev nD) :
    W4 (F := Ideal) m c (Proc.devRef .tc main_v32)
      = fun _ => Cert.Spec.out
          (fun i d => (m ((c.tc : Thread nD τ).loc main_arg0) : S4096x1024.Idx → EReal) (ix2 i d))
          (fun i => (m ((c.tc : Thread nD τ).loc main_arg1) : S4096.Idx → BitVec 32) (ix1 i))
          (fun i k => (m ((c.tc : Thread nD τ).loc main_arg2) : S4096x8192.Idx → EReal) (ix2 i k))
          (fun i k => (m ((c.tc : Thread nD τ).loc main_arg3) : S4096x8192.Idx → EReal) (ix2 i k)) := by
  obtain ⟨f0, f2, f3⟩ := Finite.finite_of_pre m hpre c
  have hq : ∀ i d, ∃ x : ℝ, qK m c i d = (x : EReal) := fun i d => f0 _
  have hml : ∀ i k, ∃ x : ℝ, mlK m c i k = (x : EReal) := fun i k => f2 _
  have hmt : ∀ i k, ∃ x : ℝ, mtK m c i k = (x : EReal) := fun i k => f3 _
  have hN : ∀ i : Fin 4096, 8 * (i.val / 512) + 7 < cfg0.N := fun i => by
    have := i.isLt; have : cfg0.N = 64 := N0eq; omega
  have h8 := HostVal.pre_v8 (W0 m c)
  have h9 := HostVal.pre_v9 (W0 m c)
  have h10 : ∀ i : Fin 4096, (V1 m c main_v10 : Vec Ideal S4096x1 .i32) (ix2 i (0 : Fin 1)) = labK m c i :=
    fun i => HostVal.pre_v10 (W0 m c) i 0
  have h11 : ∀ i : Fin 4096, (V1 m c main_v11 : Vec Ideal S1x4096 .i32) (ix2 (0 : Fin 1) i) = labK m c i :=
    fun i => HostVal.pre_v11 (W0 m c) 0 i
  refine (HostVal.tail_v32 (W3 m c)).trans (funext fun _ => ?_)
  exact TailMath.out_of_stats (qK m c) (labK m c) (mlK m c) (mtK m c) hq hml hmt
    (HostVal.colM (W3 m c)) (HostVal.colE (W3 m c)) (HostVal.colS1 (W3 m c)) (HostVal.colP (W3 m c))
    (HostVal.colEM (W3 m c)) (HostVal.colS2 (W3 m c)) (HostVal.colPM (W3 m c))
    (fun i => (col0_M m c i (hN i)).trans
      (sim_M_of (V1 m) c (qK m c) hq h8 h9 (blk0_0 (V1 m) c) (blk0_1 (V1 m) c) (blk0_2 (V1 m) c) (blk0_3 (V1 m) c) i (hN i)))
    (fun i => (col0_E m c i (hN i)).trans
      (sim_E_of (V1 m) c (qK m c) hq h8 h9 (blk0_0 (V1 m) c) (blk0_1 (V1 m) c) (blk0_2 (V1 m) c) (blk0_3 (V1 m) c) i (hN i)))
    (fun i => (col0_S m c i (hN i)).trans
      (sim_S_of (V1 m) c (qK m c) (labK m c) hq h8 h9 h10 h11 (blk0_0 (V1 m) c) (blk0_1 (V1 m) c) (blk0_2 (V1 m) c) (blk0_3 (V1 m) c) i (hN i)))
    (fun i => (col0_P m c i (hN i)).trans
      (sim_P_of (V1 m) c (qK m c) (labK m c) hq h8 h9 h10 h11 (blk0_0 (V1 m) c) (blk0_1 (V1 m) c) (blk0_2 (V1 m) c) (blk0_3 (V1 m) c) i (hN i)))
    (mem_EM m c) (mem_S2 m c) (mem_PM m c)

end Cert.KernelIdeal.Hand

end
-- ==== Proof.KAcc.lean ====
import proofs.«174317_j67869073212268_1_alg».proof.Proof.Gen.Kernel.Skeleton
import proofs.«174317_j67869073212268_1_alg».proof.Proof.Gen.Kernel.Launch

/-! The two kernels' running statistics as pure functions.

Both kernels keep per-row statistics of a 512-row block in scratch between the eight column tiles of a row block:
the similarity kernel the running maximum, the rescaled sum of exponentials, the sum of target-weighted
similarities and the count of positives; the memory-bank kernel the sum of exponentials, the target-weighted
sum of logits and the sum of targets. One grid point maps the statistics before it to the statistics after it
(`step0`, `step1`), starting from the reset values at the first tile of each row block (`init0`, `init1`);
`acc0` / `acc1` fold the points of the grid in order. -/

noncomputable section

namespace Cert.Kernel.Hand

open Idealize.ShloMosaic Idealize.SL.Sem
open Cert.Kernel Cert.Kernel.Gen

variable {F : FTy → Type} [FloatOps F]

/-- Running maximum, sum of exponentials, weighted sum, positives count: one column of 512 rows each. -/
abbrev St0 (F : FTy → Type) [FloatOps F] : Type :=
  Vec F S512x1 .f32 × Vec F S512x1 .f32 × Vec F S512x1 .f32 × Vec F S512x1 .f32

/-- The reset at the first column tile: maximum −∞, the three sums zero. -/
def init0 : St0 F := (k0_pay1 (F := F), k0_pay2 (F := F), k0_pay3 (F := F), k0_pay4 (F := F))

/-- The new running maximum: the old one against the tile's row maxima of the scaled similarities. -/
def newM0 (x0 : Vec F S512x1024 .bf16) (x1 : Vec F S1024x512 .bf16) (am : Vec F S512x1 .f32) : Vec F S512x1 .f32 :=
  k0_pay12 (k0_pay8 x0 x1 am)

/-- The new sum of exponentials: the old one rescaled to the new maximum plus the tile's masked row sums. -/
def newE0 (i : grid0.Coords) (x0 : Vec F S512x1024 .bf16) (x1 : Vec F S1024x512 .bf16) (am ae : Vec F S512x1 .f32) : Vec F S512x1 .f32 :=
  k0_pay9 (k0_pay5 x0 x1) (k0_pay6 (F := F) i) (k0_pay8 x0 x1 am) am ae

/-- The new target-weighted sum of similarities. -/
def newS0 (i : grid0.Coords) (x0 : Vec F S512x1024 .bf16) (x1 : Vec F S1024x512 .bf16) (x2 : Vec F S512x1 .i32) (x3 : Vec F S1x512 .i32)
    (asum : Vec F S512x1 .f32) : Vec F S512x1 .f32 :=
  k0_pay10 (k0_pay5 x0 x1) (k0_pay7 i x2 x3) asum

/-- The new count of positives. -/
def newP0 (i : grid0.Coords) (x2 : Vec F S512x1 .i32) (x3 : Vec F S1x512 .i32) (ap : Vec F S512x1 .f32) : Vec F S512x1 .f32 :=
  k0_pay11 (k0_pay7 i x2 x3) ap

/-- One grid point of the similarity kernel on the statistics. -/
def step0 (i : grid0.Coords) (x0 : Vec F S512x1024 .bf16) (x1 : Vec F S1024x512 .bf16) (x2 : Vec F S512x1 .i32) (x3 : Vec F S1x512 .i32)
    (a : St0 F) : St0 F :=
  (newM0 x0 x1 a.1, newE0 i x0 x1 a.1 a.2.1, newS0 i x0 x1 x2 x3 a.2.2.1, newP0 i x2 x3 a.2.2.2)

/-- The statistics after point `n` of the 8 × 8 grid, from the blocks each point is handed: reset where the column
    tile is the first (`n % 8 = 0`), else continued from the point before. -/
def acc0 (b0 : Fin 64 → Vec F S512x1024 .bf16) (b1 : Fin 64 → Vec F S1024x512 .bf16) (b2 : Fin 64 → Vec F S512x1 .i32)
    (b3 : Fin 64 → Vec F S1x512 .i32) : (n : ℕ) → n < 64 → St0 F
  | 0, h => step0 (grid0.coords ⟨0, h⟩) (b0 ⟨0, h⟩) (b1 ⟨0, h⟩) (b2 ⟨0, h⟩) (b3 ⟨0, h⟩) init0
  | n + 1, h => step0 (grid0.coords ⟨n + 1, h⟩) (b0 ⟨n + 1, h⟩) (b1 ⟨n + 1, h⟩) (b2 ⟨n + 1, h⟩) (b3 ⟨n + 1, h⟩)
      (if (n + 1) % 8 = 0 then init0 else acc0 b0 b1 b2 b3 n (Nat.lt_of_succ_lt h))

/-- Sum of exponentials, target-weighted sum of logits, sum of targets: one column of 512 rows each. -/
abbrev St1 (F : FTy → Type) [FloatOps F] : Type :=
  Vec F S512x1 .f32 × Vec F S512x1 .f32 × Vec F S512x1 .f32

/-- The reset at the first column tile: three zeros. -/
def init1 : St1 F := (k1_pay1 (F := F), k1_pay2 (F := F), k1_pay3 (F := F))

/-- One grid point of the memory-bank kernel on the statistics. -/
def step1 (x0 x1 : Vec F S512x1024 .f32) (a : St1 F) : St1 F :=
  (k1_pay4 x0 a.1, k1_pay5 x0 x1 a.2.1, k1_pay6 x1 a.2.2)

/-- The statistics after point `n` of the 8 × 8 grid of the memory-bank kernel. -/
def acc1 (b0 b1 : Fin 64 → Vec F S512x1024 .f32) : (n : ℕ) → n < 64 → St1 F
  | 0, h => step1 (b0 ⟨0, h⟩) (b1 ⟨0, h⟩) init1
  | n + 1, h => step1 (b0 ⟨n + 1, h⟩) (b1 ⟨n + 1, h⟩)
      (if (n + 1) % 8 = 0 then init1 else acc1 b0 b1 n (Nat.lt_of_succ_lt h))

theorem acc0_reset (b0 : Fin 64 → Vec F S512x1024 .bf16) (b1 : Fin 64 → Vec F S1024x512 .bf16) (b2 : Fin 64 → Vec F S512x1 .i32)
    (b3 : Fin 64 → Vec F S1x512 .i32) (t : Fin 64) (h : t.val % 8 = 0) :
    acc0 b0 b1 b2 b3 t.val t.isLt = step0 (grid0.coords t) (b0 t) (b1 t) (b2 t) (b3 t) init0 := by
  obtain ⟨n, hn⟩ := t
  cases n with
  | zero => rfl
  | succ n => simp only [acc0]; rw [if_pos h]; rfl

theorem acc0_cont (b0 : Fin 64 → Vec F S512x1024 .bf16) (b1 : Fin 64 → Vec F S1024x512 .bf16) (b2 : Fin 64 → Vec F S512x1 .i32)
    (b3 : Fin 64 → Vec F S1x512 .i32) (t : Fin 64) (h : ¬ t.val % 8 = 0) :
    acc0 b0 b1 b2 b3 t.val t.isLt = step0 (grid0.coords t) (b0 t) (b1 t) (b2 t) (b3 t)
      (acc0 b0 b1 b2 b3 (t.val - 1) (Nat.lt_of_le_of_lt (Nat.sub_le _ _) t.isLt)) := by
  obtain ⟨n, hn⟩ := t
  cases n with
  | zero => exact absurd (Nat.zero_mod _) h
  | succ n => simp only [acc0]; rw [if_neg h]; rfl

theorem acc1_reset (b0 b1 : Fin 64 → Vec F S512x1024 .f32) (t : Fin 64) (h : t.val % 8 = 0) :
    acc1 b0 b1 t.val t.isLt = step1 (b0 t) (b1 t) init1 := by
  obtain ⟨n, hn⟩ := t
  cases n with
  | zero => rfl
  | succ n => simp only [acc1]; rw [if_pos h]

theorem acc1_cont (b0 b1 : Fin 64 → Vec F S512x1024 .f32) (t : Fin 64) (h : ¬ t.val % 8 = 0) :
    acc1 b0 b1 t.val t.isLt = step1 (b0 t) (b1 t)
      (acc1 b0 b1 (t.val - 1) (Nat.lt_of_le_of_lt (Nat.sub_le _ _) t.isLt)) := by
  obtain ⟨n, hn⟩ := t
  cases n with
  | zero => exact absurd (Nat.zero_mod _) h
  | succ n => simp only [acc1]; rw [if_neg h]; rfl

end Cert.Kernel.Hand

end
-- ==== Proof.KBody0.lean ====
import proofs.«174317_j67869073212268_1_alg».proof.Proof.KAcc
import proofs.«174317_j67869073212268_1_alg».proof.Proof.LibWholeStore
import proofs.«174317_j67869073212268_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The similarity kernel's body on whole staging buffers.

At a point whose column tile is the first, the body resets its four scratch columns (running maximum to −∞, the
sum of exponentials, the target-weighted sum and the count of positives to zero) and then folds the tile into them;
at any other point it folds the tile into what the point before left. Either way it ends with the four scratch
columns at `step0` of the four input blocks and of the statistics it started from, and copies them into the four
output blocks. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle. -/
theorem hzero2 : (![0, 0] : Fin 2 → ℕ) = fun _ => 0 := View.zero_offsets_two

/-- The body's one branch: the column tile is the first of its row block. -/
abbrev cond0 (i : grid0.Coords) : Prop := (Scalar.cmpi .ne (Scalar.extui (Scalar.cmpi .eq (BitVec.ofNat 32 (i 1).val) 0#32)) 0#32) = 1#1

set_option maxHeartbeats 4000000 in
/-- A later column tile: the scratch columns hold the statistics `a` of the tiles before. -/
theorem body0_later (c : Dev nD) (i : grid0.Coords) (arg2 : Memref sig .tc .vmem S512x1024 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc : ¬cond0 i) (x0 : Vec F S512x1024 .bf16) (x1 : Vec F S1024x512 .bf16) (x2 : Vec F S512x1 .i32) (x3 : Vec F S1x512 .i32) (a : St0 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare a.1 ∗ owns (c : Thread nD τ) arg11 fullShare a.2.1 ∗ owns (c : Thread nD τ) arg12 fullShare a.2.2.1 ∗ owns (c : Thread nD τ) arg13 fullShare a.2.2.2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (step0 i x0 x1 x2 x3 a).1
            ∗ owns (c : Thread nD τ) arg7 fullShare (step0 i x0 x1 x2 x3 a).2.1
            ∗ owns (c : Thread nD τ) arg8 fullShare (step0 i x0 x1 x2 x3 a).2.2.1
            ∗ owns (c : Thread nD τ) arg9 fullShare (step0 i x0 x1 x2 x3 a).2.2.2
            ∗ owns (c : Thread nD τ) arg10 fullShare (step0 i x0 x1 x2 x3 a).1
            ∗ owns (c : Thread nD τ) arg11 fullShare (step0 i x0 x1 x2 x3 a).2.1
            ∗ owns (c : Thread nD τ) arg12 fullShare (step0 i x0 x1 x2 x3 a).2.2.1
            ∗ owns (c : Thread nD τ) arg13 fullShare (step0 i x0 x1 x2 x3 a).2.2.2) -∗ K ⟨⟩))
      ⊢ wp frame (wpE (defs₀ (F := F)) Variants.none c none) E (cc0__sim_kernel i arg2 harg2 arg3 harg3 arg4 harg4 arg5 harg5 arg6 harg6 arg7 harg7 arg8 harg8 arg9 harg9 arg10 harg10 arg11 harg11 arg12 harg12 arg13 harg13) K := by
  obtain ⟨s0, s1, s2, s3⟩ := a
  simp only [cc0__sim_kernel_eq_skeleton]; unfold cc0__sim_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5
  obtain rfl := harg10.eq_unread hf10; obtain rfl := harg11.eq_unread hf11; obtain rfl := harg12.eq_unread hf12; obtain rfl := harg13.eq_unread hf13
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H7]
  · iexists _; isplitr
    swap; · iexact H7
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H8]
  · iexists _; isplitr
    swap; · iexact H8
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H9]
  · iexists _; isplitr
    swap; · iexact H9
    ipureintro
    sl_unfold_words
    rw [View.read_writes_unit_zero _ _ hzero2]
    rw [View.readCov_unit_zero _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H10]
  · iexists _; isplitr
    swap; · iexact H10
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H11]
  · iexists _; isplitr
    swap; · iexact H11
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H12]
  · iexists _; isplitr
    swap; · iexact H12
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  · iexists _; isplitr
    swap; · iexact H13
    ipureintro
    sl_unfold_words
    rw [View.read_writes_unit_zero _ _ hzero2]
    simp only [step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]

set_option maxHeartbeats 4000000 in
/-- The first column tile of a row block: the scratch columns hold anything and are reset to `init0` first. -/
theorem body0_first (c : Dev nD) (i : grid0.Coords) (arg2 : Memref sig .tc .vmem S512x1024 .bf16) (harg2 : arg2.IsWhole) (arg3 : Memref sig .tc .vmem S1024x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc : cond0 i) (x0 : Vec F S512x1024 .bf16) (x1 : Vec F S1024x512 .bf16) (x2 : Vec F S512x1 .i32) (x3 : Vec F S1x512 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (step0 i x0 x1 x2 x3 (init0 (F := F))).1
            ∗ owns (c : Thread nD τ) arg7 fullShare (step0 i x0 x1 x2 x3 (init0 (F := F))).2.1
            ∗ owns (c : Thread nD τ) arg8 fullShare (step0 i x0 x1 x2 x3 (init0 (F := F))).2.2.1
            ∗ owns (c : Thread nD τ) arg9 fullShare (step0 i x0 x1 x2 x3 (init0 (F := F))).2.2.2
            ∗ owns (c : Thread nD τ) arg10 fullShare (step0 i x0 x1 x2 x3 (init0 (F := F))).1
            ∗ owns (c : Thread nD τ) arg11 fullShare (step0 i x0 x1 x2 x3 (init0 (F := F))).2.1
            ∗ owns (c : Thread nD τ) arg12 fullShare (step0 i x0 x1 x2 x3 (init0 (F := F))).2.2.1
            ∗ owns (c : Thread nD τ) arg13 fullShare (step0 i x0 x1 x2 x3 (init0 (F := F))).2.2.2) -∗ K ⟨⟩))
      ⊢ wp frame (wpE (defs₀ (F := F)) Variants.none c none) E (cc0__sim_kernel i arg2 harg2 arg3 harg3 arg4 harg4 arg5 harg5 arg6 harg6 arg7 harg7 arg8 harg8 arg9 harg9 arg10 harg10 arg11 harg11 arg12 harg12 arg13 harg13) K := by
  simp only [cc0__sim_kernel_eq_skeleton]; unfold cc0__sim_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg2.eq_unread hf2; obtain rfl := harg3.eq_unread hf3; obtain rfl := harg4.eq_unread hf4; obtain rfl := harg5.eq_unread hf5
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H7]
  · iexists _; isplitr
    swap; · iexact H7
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H8]
  · iexists _; isplitr
    swap; · iexact H8
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H9]
  · iexists _; isplitr
    swap; · iexact H9
    ipureintro
    sl_unfold_words
    rw [View.read_writes_unit_zero _ _ hzero2]
    rw [View.readCov_cons_unit_zero _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H10]
  · iexists _; isplitr
    swap; · iexact H10
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H11]
  · iexists _; isplitr
    swap; · iexact H11
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  isplitl [H12]
  · iexists _; isplitr
    swap; · iexact H12
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]
  · iexists _; isplitr
    swap; · iexact H13
    ipureintro
    sl_unfold_words
    rw [View.read_writes_unit_zero _ _ hzero2]
    simp only [View.readCov_unit_zero (S := S512x1) _ hzero2, init0, step0, newM0, newE0, newS0, newP0, k0_pay9, k0_pay10, k0_pay11, k0_pay12, View.readAt_eq_ld, harg10.read_unread, harg11.read_unread, harg12.read_unread, harg13.read_unread, harg2.read_unread, harg3.read_unread, harg4.read_unread, harg5.read_unread, View.ld_unit_zero (S := S512x1) hzero2, View.ld_unit_zero (S := S512x1024) hzero2, View.ld_unit_zero (S := S1024x512) hzero2, View.ld_unit_zero (S := S1x512) hzero2]

end Cert.Kernel.Hand

end
-- ==== Proof.KDat0.lean ====
import proofs.«174317_j67869073212268_1_alg».proof.Proof.KBody0
import Idealize.ShloMosaic.Lib.Pipeline.Frame
import Idealize.ShloMosaic.Lib.Pipeline.Regions
import Idealize.ShloMosaic.Lib.Pipeline.Kit

/-! The similarity region's proof data.

The region's grid is 8 row blocks by 8 column tiles, visited row block by row block. Its four scratch columns carry
the online-softmax statistics (running maximum, rescaled sum of exponentials, target-weighted sum, positives count)
from one column tile to the next, so the region's invariant names their contents: after point `n` they hold
`acc0` of the blocks the points up to `n` were handed. Each output window's staging buffer is overwritten with the
scratch contents at every point, so after point `t` it holds the same statistics; the pipeline writes it back when
the row block changes. The body obligation is the body's triple at the point's case. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the core's unscoped buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The scratch columns as memrefs, and as the list the region's scoped rest is split at. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scL0 : List (Ref sig .tc) := [cc0_scratch0, cc0_scratch1, cc0_scratch2, cc0_scratch3]

/-- The class invariant with the scratch columns taken out of the scoped rest, each owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c scL0) ∗ (∃ r, prngReg c r)) := by
  unfold Pipeline.ΦA
  rw [Pipeline.scopedRest_split_of_list spec0 c scL0 (by decide) (by decide)]
  simp only [scM0_0, scM0_1, scM0_2, scM0_3, owns_whole]; try rfl

/-- The statistics after point `n`, from the blocks the region's windows hold at each point. -/
theorem N0eq : cfg0.N = 64 := N_0

def stat0 (c : Dev nD) (n : ℕ) (h : n < cfg0.N) : St0 F :=
  acc0 (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) n (lt_of_lt_of_eq h N0eq)

theorem stat0_reset (c : Dev nD) (t : Fin cfg0.N) (h : t.val % 8 = 0) :
    stat0 V c t.val t.isLt = step0 (grid0.coords t) (iblk0 V c 0 t) (iblk0 V c 1 t) (iblk0 V c 2 t) (iblk0 V c 3 t) (init0 (F := F)) :=
  acc0_reset (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) (Fin.cast N0eq t) h

theorem stat0_cont (c : Dev nD) (t : Fin cfg0.N) (h : ¬ t.val % 8 = 0) :
    stat0 V c t.val t.isLt = step0 (grid0.coords t) (iblk0 V c 0 t) (iblk0 V c 1 t) (iblk0 V c 2 t) (iblk0 V c 3 t) (stat0 V c (t.val - 1) (Nat.lt_of_le_of_lt (Nat.sub_le _ _) t.isLt)) :=
  acc0_cont (fun t => iblk0 V c 0 (Fin.cast N0eq.symm t)) (fun t => iblk0 V c 1 (Fin.cast N0eq.symm t)) (fun t => iblk0 V c 2 (Fin.cast N0eq.symm t)) (fun t => iblk0 V c 3 (Fin.cast N0eq.symm t)) (Fin.cast N0eq t) h

/-- The region invariant before position `n`: before the first point the class's; afterwards the scratch columns at the
    statistics the point before left, the rest of the scoped buffers and the generator register at anything. -/
def PhiS0 (c : Dev nD) : (n : ℕ) → n ≤ cfg0.N → sProp 𝕄
  | 0, _ => Pipeline.ΦA spec0 c
  | n + 1, hn => iprop(((owns (c : Thread nD τ) scM0_0 fullShare (stat0 V c n hn).1 ∗ owns (c : Thread nD τ) scM0_1 fullShare (stat0 V c n hn).2.1 ∗ owns (c : Thread nD τ) scM0_2 fullShare (stat0 V c n hn).2.2.1 ∗ owns (c : Thread nD τ) scM0_3 fullShare (stat0 V c n hn).2.2.2)
          ∗ Pipeline.scopedRestBut (Ix := Unit) (Name := ℕ) (U := UR sig nD τ) (Lvl := ℕ) (Val := Elt F) spec0 c scL0) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (stat0 V c n hn).1 ∗ owns (c : Thread nD τ) scM0_1 fullShare (stat0 V c n hn).2.1 ∗ owns (c : Thread nD τ) scM0_2 fullShare (stat0 V c n hn).2.2.1 ∗ owns (c : Thread nD τ) scM0_3 fullShare (stat0 V c n hn).2.2.2)
          ∗ Pipeline.scopedRestBut (Ix := Unit) (Name := ℕ) (U := UR sig nD τ) (Lvl := ℕ) (Val := Elt F) spec0 c scL0) ∗ (∃ r, prngReg c r)) := rfl

theorem PhiS0_pos (c : Dev nD) (n : ℕ) (h : n ≤ cfg0.N) (hz : n ≠ 0) :
    PhiS0 V c n h = iprop(((owns (c : Thread nD τ) scM0_0 fullShare (stat0 V c (n - 1) (by omega)).1 ∗ owns (c : Thread nD τ) scM0_1 fullShare (stat0 V c (n - 1) (by omega)).2.1 ∗ owns (c : Thread nD τ) scM0_2 fullShare (stat0 V c (n - 1) (by omega)).2.2.1 ∗ owns (c : Thread nD τ) scM0_3 fullShare (stat0 V c (n - 1) (by omega)).2.2.2)
          ∗ Pipeline.scopedRestBut (Ix := Unit) (Name := ℕ) (U := UR sig nD τ) (Lvl := ℕ) (Val := Elt F) spec0 c scL0) ∗ (∃ r, prngReg c r)) := by
  cases n with
  | zero => exact absurd rfl hz
  | succ n => rfl

/-- The proof data of the region on core `c`: the arrays as the region finds them; after the body at point `t` each
    input's buffer at its block and each output's at the statistics after that point; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (stat0 V c t.val t.isLt).1
    | ⟨5, _⟩ => (stat0 V c t.val t.isLt).2.1
    | ⟨6, _⟩ => (stat0 V c t.val t.isLt).2.2.1
    | ⟨7, _⟩ => (stat0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (stat0 V c t.val t.isLt).1 := by dsimp only [dat0]
theorem after0_5 (c : Dev nD) (t : Fin cfg0.N) : (dat0 V c).after 5 t = (stat0 V c t.val t.isLt).2.1 := by dsimp only [dat0]
theorem after0_6 (c : Dev nD) (t : Fin cfg0.N) : (dat0 V c).after 6 t = (stat0 V c t.val t.isLt).2.2.1 := by dsimp only [dat0]
theorem after0_7 (c : Dev nD) (t : Fin cfg0.N) : (dat0 V c).after 7 t = (stat0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The body's branch is taken exactly at the first column tile of a row block. -/
theorem hcond0 : ∀ t : Fin cfg0.N, cond0 (grid0.coords t) ↔ t.val % 8 = 0 :=
  (by decide +kernel : ∀ t : Fin grid0.N, cond0 (grid0.coords t) ↔ t.val % 8 = 0)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the input buffers hold their blocks; at the first column tile of a row block the scratch
    columns hold anything and the body resets them, at a later tile they hold the statistics of the point before; the
    body leaves the new statistics in the scratch columns and in the output buffers. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val % 8 = 0
  · rw [stat0_reset V c t h0]
    have hpre : (dat0 V c).Φ t.castSucc ⊢ (iprop((((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ Pipeline.scopedRestBut (Ix := Unit) (Name := ℕ) (U := UR sig nD τ) (Lvl := ℕ) (Val := Elt F) spec0 c scL0) ∗ (∃ r, prngReg c r)) : sProp 𝕄) := by
      by_cases hz : t.val = 0
      · rw [PhiS0_castSucc V c t, PhiS0_zero V c _ _ hz, PhiA0_eq]
      · rw [PhiS0_castSucc V c t, PhiS0_pos V c _ _ hz]
        iintro ⟨⟨⟨HS0, HS1, HS2, HS3⟩, Hr⟩, Hg⟩
        isplitr [Hg]; swap; · iexact Hg
        isplitr [Hr]; swap; · iexact Hr
        isplitl [HS0]; · iexists _; iexact HS0
        isplitl [HS1]; · iexists _; iexact HS1
        isplitl [HS2]; · iexists _; iexact HS2
        iexists _; iexact HS3
    iintro ⟨HΦ, Ho, ⟨%d0, H0⟩, ⟨%d1, H1⟩, ⟨%d2, H2⟩, ⟨%d3, H3⟩, ⟨%e4, H4⟩, ⟨%e5, H5⟩, ⟨%e6, H6⟩, ⟨%e7, H7⟩⟩
    ihave HΦ' := hpre $$ HΦ
    icases HΦ' with ⟨⟨⟨HS0, HS1, HS2, HS3⟩, Hr⟩, Hg⟩
    iapply (body0_first c (grid0.coords t) _ _ _ _ _ _ _ _ _ _ _ _ _ _ _ _ _ _ _ _ _ _ _ _ ((hcond0 t).mpr h0) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr Hg]
    · isplitr [Hg]; swap; · iexact Hg
      isplitr [Hr]; swap; · iexact Hr
      isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [stat0_cont V c t h0]
    have hz : t.val ≠ 0 := fun h => h0 (by rw [h])
    rw [PhiS0_castSucc V c t, PhiS0_pos V c _ _ hz]
    iintro ⟨⟨⟨⟨HS0, HS1, HS2, HS3⟩, Hr⟩, Hg⟩, Ho, ⟨%d0, H0⟩, ⟨%d1, H1⟩, ⟨%d2, H2⟩, ⟨%d3, H3⟩, ⟨%e4, H4⟩, ⟨%e5, H5⟩, ⟨%e6, H6⟩, ⟨%e7, H7⟩⟩
    iapply (body0_later c (grid0.coords t) _ _ _ _ _ _ _ _ _ _ _ _ _ _ _ _ _ _ _ _ _ _ _ _ (fun h => h0 ((hcond0 t).mp h)) (iblk0 V c 0 t) (iblk0 V c 1 t) (iblk0 V c 2 t) (iblk0 V c 3 t)
      (stat0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr Hg]
    · isplitr [Hg]; swap; · iexact Hg
      isplitr [Hr]; swap; · iexact Hr
      isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch columns' contents are forgotten. -/
theorem Phi0_out (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N0eq; omega), PhiA0_eq]
  iintro ⟨⟨⟨HS0, HS1, HS2, HS3⟩, Hr⟩, Hg⟩
  isplitr [Hg]; swap; · iexact Hg
  isplitr [Hr]; swap; · iexact Hr
  isplitl [HS0]; · iexists _; iexact HS0
  isplitl [HS1]; · iexists _; iexact HS1
  isplitl [HS2]; · iexists _; iexact HS2
  iexists _; iexact HS3

end

end Cert.Kernel.Hand

end
-- ==== Proof.KBody1.lean ====
import proofs.«174317_j67869073212268_1_alg».proof.Proof.KAcc
import proofs.«174317_j67869073212268_1_alg».proof.Proof.LibWholeStore
import proofs.«174317_j67869073212268_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! The memory-bank kernel's body on whole staging buffers.

At a point whose column tile is the first, the body resets its three scratch columns and then adds the tile's row
sums to them; at any other point it adds to what the point before left. Either way it ends with the three scratch
columns at `step1` of the two input blocks and of the statistics it started from, and copies them into the three
output blocks. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle. -/
theorem hz2 : (![0, 0] : Fin 2 → ℕ) = fun _ => 0 := View.zero_offsets_two

/-- The body's one branch: the column tile is the first of its row block. -/
abbrev cond1 (i : grid1.Coords) : Prop := (Scalar.cmpi .ne (Scalar.extui (Scalar.cmpi .eq (BitVec.ofNat 32 (i 1).val) 0#32)) 0#32) = 1#1

set_option maxHeartbeats 4000000 in
/-- A later column tile: the scratch columns hold the statistics `a` of the tiles before. -/
theorem body1_later (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc : ¬cond1 i) (x0 x1 : Vec F S512x1024 .f32) (a : St1 F) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a.1 ∗ owns (c : Thread nD τ) arg8 fullShare a.2.1 ∗ owns (c : Thread nD τ) arg9 fullShare a.2.2
        ∗ (iprop(owns (c : Thread nD τ) arg2 fullShare x0 ∗ owns (c : Thread nD τ) arg3 fullShare x1
            ∗ owns (c : Thread nD τ) arg4 fullShare (step1 x0 x1 a).1 ∗ owns (c : Thread nD τ) arg5 fullShare (step1 x0 x1 a).2.1 ∗ owns (c : Thread nD τ) arg6 fullShare (step1 x0 x1 a).2.2
            ∗ owns (c : Thread nD τ) arg7 fullShare (step1 x0 x1 a).1 ∗ owns (c : Thread nD τ) arg8 fullShare (step1 x0 x1 a).2.1 ∗ owns (c : Thread nD τ) arg9 fullShare (step1 x0 x1 a).2.2) -∗ K ⟨⟩))
      ⊢ wp frame (wpE (defs₀ (F := F)) Variants.none c none) E (cc1__mem_kernel i arg2 harg2 arg3 harg3 arg4 harg4 arg5 harg5 arg6 harg6 arg7 harg7 arg8 harg8 arg9 harg9) K := by
  obtain ⟨s0, s1, s2⟩ := a
  simp only [cc1__mem_kernel_eq_skeleton]; unfold cc1__mem_kernel_skel
  unfold owns
  iintro ⟨⟨%f0, %hf0, H0⟩, ⟨%f1, %hf1, H1⟩, ⟨%d4, %f4, %hf4, H4⟩, ⟨%d5, %f5, %hf5, H5⟩, ⟨%d6, %f6, %hf6, H6⟩, ⟨%f7, %hf7, H7⟩, ⟨%f8, %hf8, H8⟩, ⟨%f9, %hf9, H9⟩, Hk⟩
  obtain rfl := harg2.eq_unread hf0; obtain rfl := harg3.eq_unread hf1
  obtain rfl := harg7.eq_unread hf7; obtain rfl := harg8.eq_unread hf8; obtain rfl := harg9.eq_unread hf9
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_unit_zero _ _ hz2]
    rw [View.readCov_unit_zero _ hz2]
    simp only [step1, k1_pay4, View.readAt_eq_ld, harg7.read_unread, harg2.read_unread, harg3.read_unread, View.ld_unit_zero (S := S512x1) hz2, View.ld_unit_zero (S := S512x1024) hz2]
  isplitl [H5]
  · iexists _; isplitr
    swap; · iexact H5
    ipureintro
    sl_unfold_words
    rw [View.read_writes_unit_zero _ _ hz2]
    rw [View.readCov_unit_zero _ hz2]
    simp only [step1, k1_pay5, View.readAt_eq_ld, harg8.read_unread, harg2.read_unread, harg3.read_unread, View.ld_unit_zero (S := S512x1) hz2, View.ld_unit_zero (S := S512x1024) hz2]
  isplitl [H6]
  · iexists _; isplitr
    swap; · iexact H6
    ipureintro
    sl_unfold_words
    rw [View.read_writes_unit_zero _ _ hz2]
    rw [View.readCov_unit_zero _ hz2]
    simp only [step1, k1_pay6, View.readAt_eq_ld, harg9.read_unread, harg2.read_unread, harg3.read_unread, View.ld_unit_zero (S := S512x1) hz2, View.ld_unit_zero (S := S512x1024) hz2]
  isplitl [H7]
  · iexists _; isplitr
    swap; · iexact H7
    ipureintro
    sl_unfold_words
    rw [View.read_writes_unit_zero _ _ hz2]
    simp only [step1, k1_pay4, View.readAt_eq_ld, harg7.read_unread, harg2.read_unread, harg3.read_unread, View.ld_unit_zero (S := S512x1) hz2, View.ld_unit_zero (S := S512x1024) hz2]
  isplitl [H8]
  · iexists _; isplitr
    swap; · iexact H8
    ipureintro
    sl_unfold_words
    rw [View.read_writes_unit_zero _ _ hz2]
    simp only [step1, k1_pay5, View.readAt_eq_ld, harg8.read_unread, harg2.read_unread, harg3.read_unread, View.ld_unit_zero (S := S512x1) hz2, View.ld_unit_zero (S := S512x1024) hz2]
  · iexists _; isplitr
    swap; · iexact H9
    ipureintro
    sl_unfold_words
    rw [View.read_writes_unit_zero _ _ hz2]
    simp only [step1, k1_pay6, View.readAt_eq_ld, harg9.read_unread, harg2.read_unread, harg3.read_unread, View.ld_unit_zero (S := S512x1) hz2, View.ld_unit_zero (S := S512x1024) hz2]

set_option maxHeartbeats 4000000 in
/-- The first column tile of a row block: the scratch columns hold anything and are reset to `init1` first. -/
theorem body1_first (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc : cond1 i) (x0 x1 : Vec F S512x1024 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare (step1 x0 x1 (init1 (F := F))).1 ∗ owns (c : Thread nD τ) arg5 fullShare (step1 x0 x1 (init1 (F := F))).2.1 ∗ owns (c : Thread nD τ) arg6 fullShare (step1 x0 x1 (init1 (F := F))).2.2
            ∗ owns (c : Thread nD τ) arg7 fullShare (step1 x0 x1 (init1 (F := F))).1 ∗ owns (c : Thread nD τ) arg8 fullShare (step1 x0 x1 (init1 (F := F))).2.1 ∗ owns (c : Thread nD τ) arg9 fullShare (step1 x0 x1 (init1 (F := F))).2.2) -∗ K ⟨⟩))
      ⊢ wp frame (wpE (defs₀ (F := F)) Variants.none c none) E (cc1__mem_kernel i arg2 harg2 arg3 harg3 arg4 harg4 arg5 harg5 arg6 harg6 arg7 harg7 arg8 harg8 arg9 harg9) K := by
  simp only [cc1__mem_kernel_eq_skeleton]; unfold cc1__mem_kernel_skel
  unfold owns
  iintro ⟨⟨%f0, %hf0, H0⟩, ⟨%f1, %hf1, H1⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg7.read_unread, harg2.read_unread, harg3.read_unread, View.ld_unit_zero (S := S512x1) hz2, View.ld_unit_zero (S := S512x1024) hz2]
  isplitl [H5]
  · iexists _; isplitr
    swap; · iexact H5
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg8.read_unread, harg2.read_unread, harg3.read_unread, View.ld_unit_zero (S := S512x1) hz2, View.ld_unit_zero (S := S512x1024) hz2]
  isplitl [H6]
  · iexists _; isplitr
    swap; · iexact H6
    ipureintro
    sl_unfold_words
    rw [View.read_writes_unit_zero _ _ hz2]
    rw [View.readCov_cons_unit_zero (S := S512x1) _ hz2]
    simp only [View.readCov_unit_zero (S := S512x1) _ hz2, step1, init1, k1_pay1, k1_pay2, k1_pay3, k1_pay4, k1_pay5, k1_pay6, View.readAt_eq_ld, harg9.read_unread, harg2.read_unread, harg3.read_unread, View.ld_unit_zero (S := S512x1) hz2, View.ld_unit_zero (S := S512x1024) hz2]
  isplitl [H7]
  · iexists _; isplitr
    swap; · iexact H7
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg7.read_unread, harg2.read_unread, harg3.read_unread, View.ld_unit_zero (S := S512x1) hz2, View.ld_unit_zero (S := S512x1024) hz2]
  isplitl [H8]
  · iexists _; isplitr
    swap; · iexact H8
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg8.read_unread, harg2.read_unread, harg3.read_unread, View.ld_unit_zero (S := S512x1) hz2, View.ld_unit_zero (S := S512x1024) hz2]
  · iexists _; isplitr
    swap; · iexact H9
    ipureintro
    sl_unfold_words
    rw [View.read_writes_unit_zero _ _ hz2]
    simp only [View.readCov_unit_zero (S := S512x1) _ hz2, step1, init1, k1_pay1, k1_pay2, k1_pay3, k1_pay4, k1_pay5, k1_pay6, View.readAt_eq_ld, harg9.read_unread, harg2.read_unread, harg3.read_unread, View.ld_unit_zero (S := S512x1) hz2, View.ld_unit_zero (S := S512x1024) hz2]

end Cert.Kernel.Hand

end
-- ==== Proof.KDat1.lean ====
import proofs.«174317_j67869073212268_1_alg».proof.Proof.KBody1
import Idealize.ShloMosaic.Lib.Pipeline.Frame
import Idealize.ShloMosaic.Lib.Pipeline.Regions
import Idealize.ShloMosaic.Lib.Pipeline.Kit

/-! The memory-bank region's proof data.

The region's grid is 8 row blocks by 8 column tiles, visited row block by row block. Its three scratch columns carry
the row statistics from one column tile to the next, so the region's invariant names their contents: after point
`n` they hold `acc1` of the blocks the points up to `n` were handed. Each output window's staging buffer is
overwritten with the scratch contents at every point, so after point `t` it holds the same statistics; the pipeline
writes it back when the row block changes. The body obligation is the body's triple at the point's case. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the core's unscoped buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scratch columns as memrefs, and as the list the region's scoped rest is split at. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2
abbrev scL1 : List (Ref sig .tc) := [cc1_scratch0, cc1_scratch1, cc1_scratch2]

/-- The class invariant with the scratch columns taken out of the scoped rest, each owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c scL1) ∗ (∃ r, prngReg c r)) := by
  unfold Pipeline.ΦA
  rw [Pipeline.scopedRest_split_of_list spec1 c scL1 (by decide) (by decide)]
  simp only [scM1_0, scM1_1, scM1_2, owns_whole]; try rfl

/-- The statistics after point `n`, from the blocks the region's windows hold at each point. -/
theorem N1eq : cfg1.N = 64 := N_1

def stat1 (c : Dev nD) (n : ℕ) (h : n < cfg1.N) : St1 F :=
  acc1 (fun t => iblk1 V c 0 (Fin.cast N1eq.symm t)) (fun t => iblk1 V c 1 (Fin.cast N1eq.symm t)) n (lt_of_lt_of_eq h N1eq)

theorem stat1_reset (c : Dev nD) (t : Fin cfg1.N) (h : t.val % 8 = 0) :
    stat1 V c t.val t.isLt = step1 (iblk1 V c 0 t) (iblk1 V c 1 t) (init1 (F := F)) :=
  acc1_reset (fun t => iblk1 V c 0 (Fin.cast N1eq.symm t)) (fun t => iblk1 V c 1 (Fin.cast N1eq.symm t)) (Fin.cast N1eq t) h

theorem stat1_cont (c : Dev nD) (t : Fin cfg1.N) (h : ¬ t.val % 8 = 0) :
    stat1 V c t.val t.isLt = step1 (iblk1 V c 0 t) (iblk1 V c 1 t) (stat1 V c (t.val - 1) (Nat.lt_of_le_of_lt (Nat.sub_le _ _) t.isLt)) :=
  acc1_cont (fun t => iblk1 V c 0 (Fin.cast N1eq.symm t)) (fun t => iblk1 V c 1 (Fin.cast N1eq.symm t)) (Fin.cast N1eq t) h

/-- The region invariant before position `n`: before the first point the class's; afterwards the scratch columns at the
    statistics the point before left, the rest of the scoped buffers and the generator register at anything. -/
def PhiS1 (c : Dev nD) : (n : ℕ) → n ≤ cfg1.N → sProp 𝕄
  | 0, _ => Pipeline.ΦA spec1 c
  | n + 1, hn => iprop(((owns (c : Thread nD τ) scM1_0 fullShare (stat1 V c n hn).1 ∗ owns (c : Thread nD τ) scM1_1 fullShare (stat1 V c n hn).2.1 ∗ owns (c : Thread nD τ) scM1_2 fullShare (stat1 V c n hn).2.2)
          ∗ Pipeline.scopedRestBut (Ix := Unit) (Name := ℕ) (U := UR sig nD τ) (Lvl := ℕ) (Val := Elt F) spec1 c scL1) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (stat1 V c n hn).1 ∗ owns (c : Thread nD τ) scM1_1 fullShare (stat1 V c n hn).2.1 ∗ owns (c : Thread nD τ) scM1_2 fullShare (stat1 V c n hn).2.2)
          ∗ Pipeline.scopedRestBut (Ix := Unit) (Name := ℕ) (U := UR sig nD τ) (Lvl := ℕ) (Val := Elt F) spec1 c scL1) ∗ (∃ r, prngReg c r)) := rfl

theorem PhiS1_pos (c : Dev nD) (n : ℕ) (h : n ≤ cfg1.N) (hz : n ≠ 0) :
    PhiS1 V c n h = iprop(((owns (c : Thread nD τ) scM1_0 fullShare (stat1 V c (n - 1) (by omega)).1 ∗ owns (c : Thread nD τ) scM1_1 fullShare (stat1 V c (n - 1) (by omega)).2.1 ∗ owns (c : Thread nD τ) scM1_2 fullShare (stat1 V c (n - 1) (by omega)).2.2)
          ∗ Pipeline.scopedRestBut (Ix := Unit) (Name := ℕ) (U := UR sig nD τ) (Lvl := ℕ) (Val := Elt F) spec1 c scL1) ∗ (∃ r, prngReg c r)) := by
  cases n with
  | zero => exact absurd rfl hz
  | succ n => rfl

/-- The proof data of the region on core `c`: the arrays as the region finds them; after the body at point `t` each
    input's buffer at its block and each output's at the statistics after that point; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (stat1 V c t.val t.isLt).1
    | ⟨3, _⟩ => (stat1 V c t.val t.isLt).2.1
    | ⟨4, _⟩ => (stat1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (stat1 V c t.val t.isLt).1 := by dsimp only [dat1]
theorem after1_3 (c : Dev nD) (t : Fin cfg1.N) : (dat1 V c).after 3 t = (stat1 V c t.val t.isLt).2.1 := by dsimp only [dat1]
theorem after1_4 (c : Dev nD) (t : Fin cfg1.N) : (dat1 V c).after 4 t = (stat1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The body's branch is taken exactly at the first column tile of a row block. -/
theorem hcond1 : ∀ t : Fin cfg1.N, cond1 (grid1.coords t) ↔ t.val % 8 = 0 :=
  (by decide +kernel : ∀ t : Fin grid1.N, cond1 (grid1.coords t) ↔ t.val % 8 = 0)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the input buffers hold their blocks; at the first column tile of a row block the scratch
    columns hold anything and the body resets them, at a later tile they hold the statistics of the point before; the
    body leaves the new statistics in the scratch columns and in the output buffers. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val % 8 = 0
  · rw [stat1_reset V c t h0]
    have hpre : (dat1 V c).Φ t.castSucc ⊢ (iprop((((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c scL1) ∗ (∃ r, prngReg c r)) : sProp 𝕄) := by
      by_cases hz : t.val = 0
      · rw [PhiS1_castSucc V c t, PhiS1_zero V c _ _ hz, PhiA1_eq]
      · rw [PhiS1_castSucc V c t, PhiS1_pos V c _ _ hz]
        iintro ⟨⟨⟨HS0, HS1, HS2⟩, Hr⟩, Hg⟩
        isplitr [Hg]; swap; · iexact Hg
        isplitr [Hr]; swap; · iexact Hr
        isplitl [HS0]; · iexists _; iexact HS0
        isplitl [HS1]; · iexists _; iexact HS1
        iexists _; iexact HS2
    iintro ⟨HΦ, Ho, ⟨%d0, H0⟩, ⟨%d1, H1⟩, ⟨%e2, H2⟩, ⟨%e3, H3⟩, ⟨%e4, H4⟩⟩
    ihave HΦ' := hpre $$ HΦ
    icases HΦ' with ⟨⟨⟨HS0, HS1, HS2⟩, Hr⟩, Hg⟩
    iapply (body1_first c (grid1.coords t) _ _ _ _ _ _ _ _ _ _ _ _ _ _ _ _ ((hcond1 t).mpr h0) (iblk1 V c 0 t) (iblk1 V c 1 t) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitr [Hg]; swap; · iexact Hg
      isplitr [Hr]; swap; · iexact Hr
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4
  · rw [stat1_cont V c t h0]
    have hz : t.val ≠ 0 := fun h => h0 (by rw [h])
    rw [PhiS1_castSucc V c t, PhiS1_pos V c _ _ hz]
    iintro ⟨⟨⟨⟨HS0, HS1, HS2⟩, Hr⟩, Hg⟩, Ho, ⟨%d0, H0⟩, ⟨%d1, H1⟩, ⟨%e2, H2⟩, ⟨%e3, H3⟩, ⟨%e4, H4⟩⟩
    iapply (body1_later c (grid1.coords t) _ _ _ _ _ _ _ _ _ _ _ _ _ _ _ _ (fun h => h0 ((hcond1 t).mp h)) (iblk1 V c 0 t) (iblk1 V c 1 t)
      (stat1 V c (t.val - 1) (Nat.lt_of_le_of_lt (Nat.sub_le _ _) t.isLt)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitr [Hg]; swap; · iexact Hg
      isplitr [Hr]; swap; · iexact Hr
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch columns' contents are forgotten. -/
theorem Phi1_out (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N1eq; omega), PhiA1_eq]
  iintro ⟨⟨⟨HS0, HS1, HS2⟩, Hr⟩, Hg⟩
  isplitr [Hg]; swap; · iexact Hg
  isplitr [Hr]; swap; · iexact Hr
  isplitl [HS0]; · iexists _; iexact HS0
  isplitl [HS1]; · iexists _; iexact HS1
  iexists _; iexact HS2

end

end Cert.Kernel.Hand

end
-- ==== Proof.KRun.lean ====
import proofs.«174317_j67869073212268_1_alg».proof.Proof.KDat0
import proofs.«174317_j67869073212268_1_alg».proof.Proof.KDat1
import proofs.«174317_j67869073212268_1_alg».proof.Proof.Gen.Kernel.Regions
import Idealize.ShloMosaic.Lib.Pipeline.RegionsLoop
import Idealize.ShloMosaic.Lib.Pipeline.FrameSuffix

/-! The kernel program's run: its two regions and two host stretches as segments, and the launch.

@main is a stretch of host operations (the row normalisation and the label reshapes), the similarity region, the
memory-bank region, and a stretch of host operations (the recombination of the row statistics into the loss). Between
segments the core's unscoped buffers are held at contents that are a fold from the launch memory: a host stretch
applies its operations, a region replaces its windows' arrays by what its write-backs leave. Each region is entered
from and left at that thread state; its invariant takes the scoped rest and the generator register in and gives them
back. The run's post reads every unscoped buffer at the last boundary's contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the similarity region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the similarity region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the memory-bank region's exit (no host operation stands between the two regions). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-- `main_arg0` reaches the end as launched: no host stretch writes it and no region's write-backs touch it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host stretch writes it and no region's write-backs touch it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host stretch writes it and no region's write-backs touch it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := (W3_arr m c 0).trans (((dat1 (V2 m) c).arrAt_in 0 rfl _).trans (A_eq1 (V2 m) c 0))
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host stretch writes it and no region's write-backs touch it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := (W3_arr m c 1).trans (((dat1 (V2 m) c).arrAt_in 1 rfl _).trans (A_eq1 (V2 m) c 1))
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers and put back at the exit contents; the generator register and the scoped rest go
    into the region's invariant and come back out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hΦ : (pdats m 0 c).Φ (Fin.last _) ⊢ Pipeline.ΦA spec0 c := Phi0_out (V1 m) c
    exact hΦ.trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers and put back at the exit contents; the generator register and the scoped rest go
    into the region's invariant and come back out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m 1 c).Φ (Fin.last _) ⊢ Pipeline.ΦA spec1 c := Phi1_out (V2 m) c
    exact hΦ.trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents `W4`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W4 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c _ (mem_uc b hb))

/-- THE FRAME: every weakly fair execution terminates, nothing faulting, and the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W4_main_arg0 m c), (h c main_arg1 (by decide)).trans (W4_main_arg1 m c),
     (h c main_arg2 (by decide)).trans (W4_main_arg2 m c), (h c main_arg3 (by decide)).trans (W4_main_arg3 m c)⟩) (run_all m ρ)

end Cert.Kernel.Hand

end
-- ==== Proof.Claims.lean ====
import proofs.«174317_j67869073212268_1_alg».proof.Defs
import proofs.«174317_j67869073212268_1_alg».proof.Proof.Gen.Kernel
import proofs.«174317_j67869073212268_1_alg».proof.Proof.Gen.KernelIdeal
import proofs.«174317_j67869073212268_1_alg».proof.Proof.Gen.ReferenceIdeal
import proofs.«174317_j67869073212268_1_alg».proof.Proof.Gen.Pre_finite_inputs
import proofs.«174317_j67869073212268_1_alg».proof.Proof.Spec
import proofs.«174317_j67869073212268_1_alg».proof.Proof.RefRun
import proofs.«174317_j67869073212268_1_alg».proof.Proof.RefValue
import proofs.«174317_j67869073212268_1_alg».proof.Proof.Run
import proofs.«174317_j67869073212268_1_alg».proof.Proof.KerValue
import proofs.«174317_j67869073212268_1_alg».proof.Proof.KRun
import Idealize.ShloMosaic.Lib.ValueIdx

/-! The certificate's claims, one theorem each.

Both idealized programs end, on every device, with the result array at the loss `Cert.Spec.out` of the four argument
arrays read by coordinates, and with the arguments unchanged: the reference by reading its operations stage by stage,
the kernel by its two grids' row statistics and the host operations around them. From memories that agree on the
arguments the two results are therefore one extended real. The frames are the runs with the result forgotten; the
idealization's one ledger entry names the reciprocal of the temperature, a rational, in place of its rounded word. -/

noncomputable section

namespace Cert.Proof.Claims

open Idealize.ShloMosaic Idealize.ShloMosaic.TcCoe Idealize.SL.Sem
open Idealize.ShloMosaic.ValueIdx

/-- The loss of the four arguments a kernel memory holds on device `c`, as the contents of the kernel's result array. -/
abbrev lossK (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v32) :=
  fun _ => Cert.Spec.out
    (fun i d => (m ((c.tc : Thread Cert.KernelIdeal.nD Cert.KernelIdeal.τ).loc Cert.KernelIdeal.main_arg0) : Cert.KernelIdeal.S4096x1024.Idx → EReal) (ix2 i d))
    (fun i => (m ((c.tc : Thread Cert.KernelIdeal.nD Cert.KernelIdeal.τ).loc Cert.KernelIdeal.main_arg1) : Cert.KernelIdeal.S4096.Idx → BitVec 32) (ix1 i))
    (fun i k => (m ((c.tc : Thread Cert.KernelIdeal.nD Cert.KernelIdeal.τ).loc Cert.KernelIdeal.main_arg2) : Cert.KernelIdeal.S4096x8192.Idx → EReal) (ix2 i k))
    (fun i k => (m ((c.tc : Thread Cert.KernelIdeal.nD Cert.KernelIdeal.τ).loc Cert.KernelIdeal.main_arg3) : Cert.KernelIdeal.S4096x8192.Idx → EReal) (ix2 i k))

/-- The reference runs, its result the loss of its own arguments and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v46) = (fun _ => Cert.Spec.out
            (fun i d => m' ((c.tc : Thread Cert.ReferenceIdeal.nD Cert.ReferenceIdeal.τ).loc Cert.ReferenceIdeal.main_arg0) (ix2 i d))
            (fun i => m' ((c.tc : Thread Cert.ReferenceIdeal.nD Cert.ReferenceIdeal.τ).loc Cert.ReferenceIdeal.main_arg1) (ix1 i))
            (fun i k => m' ((c.tc : Thread Cert.ReferenceIdeal.nD Cert.ReferenceIdeal.τ).loc Cert.ReferenceIdeal.main_arg2) (ix2 i k))
            (fun i k => m' ((c.tc : Thread Cert.ReferenceIdeal.nD Cert.ReferenceIdeal.τ).loc Cert.ReferenceIdeal.main_arg3) (ix2 i k)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (Cert.ReferenceIdeal.RefValue.res_eq m' c), (h c).2⟩)
    (Cert.ReferenceIdeal.ValueP.run (F := Ideal) m' ρ')

/-- The reference's frame: its run with the result forgotten. -/
theorem frame_RI : Cert.frame_ReferenceIdeal := fun m ρ _ =>
  (θ_run Cert.ReferenceIdeal.defs _ _).mono (fun _ h c => (h c).2) (Cert.ReferenceIdeal.ValueP.run (F := Ideal) m ρ)

/-- The idealization's one ledger entry: the table gives the reciprocal of the temperature the rational
    `134217728 / 9395241`, and the printed constant is that value over the extended reals. -/
theorem preserves : Cert.preserves_Kernel_KernelIdeal :=
  IdealRules.named_const.statement Cert.KernelIdeal.κ "inv_temperature" .f32 0x41649249#32 ((134217728 / 9395241 : ℝ) : EReal) rfl

/-- The two programs agree, given the kernel's run to the loss of its arguments: the reference, from a memory that
    agrees with the kernel's on the arguments, ends at the loss of the same four arrays. -/
theorem algebraic_of_ker
    (ker : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v32) = lossK m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m ρ m' ρ' hpre hagree
  refine ⟨lossK m, ker m ρ hpre, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2]
  rfl

/-- The idealized kernel's frame. -/
theorem frame_KI : Cert.frame_KernelIdeal := fun m ρ _ => Cert.KernelIdeal.Hand.frame (F := Ideal) m ρ

/-- The kernel runs to the loss of its arguments, given that the last boundary's contents hold the loss at the result
    array: the run to that boundary, read at the result array and at the four arguments. -/
theorem ker_run_of
    (hv : ∀ (m : (ℓ : Loc Cert.KernelIdeal.nD Cert.KernelIdeal.τ Cert.KernelIdeal.sig) → Buf (Elt Ideal) ℓ), Cert.Pre_KernelIdeal m → ∀ c : Dev Cert.KernelIdeal.nD,
      Cert.KernelIdeal.Hand.W4 (F := Ideal) m c (Proc.devRef .tc Cert.KernelIdeal.main_v32) = lossK m c)
    (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v32) = lossK m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h c Cert.KernelIdeal.main_v32 (by decide)).trans (hv m hpre c),
     (h c Cert.KernelIdeal.main_arg0 (by decide)).trans (Cert.KernelIdeal.Hand.W4_main_arg0 m c),
     (h c Cert.KernelIdeal.main_arg1 (by decide)).trans (Cert.KernelIdeal.Hand.W4_main_arg1 m c),
     (h c Cert.KernelIdeal.main_arg2 (by decide)).trans (Cert.KernelIdeal.Hand.W4_main_arg2 m c),
     (h c Cert.KernelIdeal.main_arg3 (by decide)).trans (Cert.KernelIdeal.Hand.W4_main_arg3 m c)⟩)
    (Cert.KernelIdeal.Hand.run_all (F := Ideal) m ρ)

/-- The kernel's frame at the bit-exact instance. -/
theorem frame_K : Cert.frame_Kernel := fun m ρ _ => Cert.Kernel.Hand.frame (F := Bits) m ρ

/-- The idealized kernel and the idealized reference, from memories that agree on the arguments, end with one result. -/
theorem algebraic : Cert.algebraic_KernelIdeal_ReferenceIdeal :=
  algebraic_of_ker (ker_run_of fun m hpre c => Cert.KernelIdeal.Hand.W4_v32 m hpre c)

end Cert.Proof.Claims

end
-- ==== Proof.lean ====
/-
  A supervised-contrastive loss with a memory bank: two Pallas kernels and a few lines of host glue against the jnp
  reference, equal over the extended reals.

  Row `i` of `q` is normalised by `max (‖q i‖) eps`; the similarity of rows `i`, `j` is their inner product over the
  temperature `T`, the f32 word of 0.07 — the reference divides by it, the kernel multiplies by its reciprocal, which
  the idealized kernel names `1 / T` exactly, so on real numbers the two agree. With `m i` the row maximum, the reference
  forms `L i = log (∑ j ≠ i, exp (s i j - m i) + ∑ k, exp (ml i k))` and averages, over rows, the target-weighted mean of
  `logit - L i` over the 4096 similarity columns (targets: equal labels, the diagonal excluded) followed by the 8192
  memory columns.

  The similarity kernel visits each block of 512 rows in eight column tiles and keeps a running maximum, a sum of
  exponentials rescaled to it, the target-weighted sum of similarities and the count of positives; after the eighth
  tile these are the one-pass maximum and sums, because `exp (a - b) * exp (c - a) = exp (c - b)` on real numbers. The
  memory-bank kernel keeps three plain sums the same way. The host then recombines them as
  `(s1 - m * p - L * (p + pm) + s2) / (p + pm)`, which is the reference's mean by distributivity: every quantity is a
  real number because every float input is finite (the precondition), the norm's lower bound `eps` is positive and a
  sum of exponentials of real numbers is positive.

  Both kernel programs run to the end without a fault and leave their inputs unchanged: each region's invariant names
  the scratch columns' contents between grid points, and @main's buffers are followed through its two host stretches
  and two regions. The reference's run is read back one operation at a time.
-/
import proofs.«174317_j67869073212268_1_alg».proof.Defs
import proofs.«174317_j67869073212268_1_alg».proof.Proof.Claims

noncomputable section

namespace Cert.Proof

/-- The five claims under the programs' stated side conditions. -/
theorem claim : Cert.Claim :=
  ⟨Cert.Kernel.Gen.facts, Cert.KernelIdeal.Gen.facts, Cert.ReferenceIdeal.Gen.facts, Cert.Pre_finite_inputs.Gen.facts,
    Cert.Proof.Claims.frame_K, Cert.Proof.Claims.frame_KI, Cert.Proof.Claims.frame_RI, Cert.Proof.Claims.preserves,
    Cert.Proof.Claims.algebraic⟩

end Cert.Proof

end
